-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1000x481x2 : Shape := ⟨5, ![32, 1, 1000, 481, 2]⟩
abbrev S32x1000x5x96x2 : Shape := ⟨5, ![32, 1000, 5, 96, 2]⟩
abbrev S32x1000x1 : Shape := ⟨3, ![32, 1000, 1]⟩
abbrev S_ : Shape := ⟨0, ![]⟩

class Facts : Prop where
  bcast_S_S32x1x1000x481x2 : S_.BroadcastsInDim S32x1x1000x481x2 (![] : Fin 0 → Fin S32x1x1000x481x2.rank)
  reducesTo_S32x1x1000x481x2_S_d0_1_2_3_4 : S32x1x1000x481x2.ReducesTo [0, 1, 2, 3, 4] S_
  h_S_ : 0 < S_.numel
  bcast_S_S32x1000x5x96x2 : S_.BroadcastsInDim S32x1000x5x96x2 (![] : Fin 0 → Fin S32x1000x5x96x2.rank)
  reducesTo_S32x1000x5x96x2_S_d0_1_2_3_4 : S32x1000x5x96x2.ReducesTo [0, 1, 2, 3, 4] S_
  bcast_S_S32x1000x1 : S_.BroadcastsInDim S32x1000x1 (![] : Fin 0 → Fin S32x1000x1.rank)
  reducesTo_S32x1000x1_S_d0_1_2 : S32x1000x1.ReducesTo [0, 1, 2] S_

variable [Facts]

def fn {F : FTy → Type} [FloatOps F] (main_arg0 : FVec F S32x1x1000x481x2 .f32) (main_arg1 : FVec F S32x1000x5x96x2 .f32) (main_arg2 : FVec F S32x1000x1 .f32) : IVec S_ 1 :=
  let main_v0 : FVec F S32x1x1000x481x2 .f32 := Host.absf main_arg0
  let main_cst : FVec F S_ .f32 := constant S_ .f32 0x7F800000#32
  let main_v1 : FVec F S32x1x1000x481x2 .f32 := broadcastInDim S32x1x1000x481x2 ![] bcast_S_S32x1x1000x481x2 main_cst
  let main_v2 : IVec S32x1x1000x481x2 1 := cmpf .olt main_v0 main_v1
  let main_c : IVec S_ 1 := constantI S_ 1 1#1
  let main_v3 : IVec S_ 1 := (fun x v => Host.reduce IntOp.andi x v reducesTo_S32x1x1000x481x2_S_d0_1_2_3_4 h_S_) main_v2 main_c
  let main_v4 : FVec F S32x1000x5x96x2 .f32 := Host.absf main_arg1
  let main_cst_0 : FVec F S_ .f32 := constant S_ .f32 0x7F800000#32
  let main_v5 : FVec F S32x1000x5x96x2 .f32 := broadcastInDim S32x1000x5x96x2 ![] bcast_S_S32x1000x5x96x2 main_cst_0
  let main_v6 : IVec S32x1000x5x96x2 1 := cmpf .olt main_v4 main_v5
  let main_c_1 : IVec S_ 1 := constantI S_ 1 1#1
  let main_v7 : IVec S_ 1 := (fun x v => Host.reduce IntOp.andi x v reducesTo_S32x1000x5x96x2_S_d0_1_2_3_4 h_S_) main_v6 main_c_1
  let main_v8 : IVec S_ 1 := andi main_v3 main_v7
  let main_v9 : FVec F S32x1000x1 .f32 := Host.absf main_arg2
  let main_cst_2 : FVec F S_ .f32 := constant S_ .f32 0x7F800000#32
  let main_v10 : FVec F S32x1000x1 .f32 := broadcastInDim S32x1000x1 ![] bcast_S_S32x1000x1 main_cst_2
  let main_v11 : IVec S32x1000x1 1 := cmpf .olt main_v9 main_v10
  let main_c_3 : IVec S_ 1 := constantI S_ 1 1#1
  let main_v12 : IVec S_ 1 := (fun x v => Host.reduce IntOp.andi x v reducesTo_S32x1000x1_S_d0_1_2 h_S_) main_v11 main_c_3
  let main_v13 : IVec S_ 1 := andi main_v8 main_v12
  main_v13
-- ==== Kernel.lean ====
abbrev S32x1x1000x481x2 : Shape := ⟨5, ![32, 1, 1000, 481, 2]⟩
abbrev S32x1000x5x96x2 : Shape := ⟨5, ![32, 1000, 5, 96, 2]⟩
abbrev S32x1000x1 : Shape := ⟨3, ![32, 1000, 1]⟩
abbrev S32x1x1000x96x2 : Shape := ⟨5, ![32, 1, 1000, 96, 2]⟩
abbrev S32x1000x96x2 : Shape := ⟨4, ![32, 1000, 96, 2]⟩
abbrev S_ : Shape := ⟨0, ![]⟩
abbrev S32x1004x96x2 : Shape := ⟨4, ![32, 1004, 96, 2]⟩
abbrev S32x5x1000x96x2 : Shape := ⟨5, ![32, 5, 1000, 96, 2]⟩
abbrev S32x1000x1x1 : Shape := ⟨4, ![32, 1000, 1, 1]⟩
abbrev S32x1000x96x1 : Shape := ⟨4, ![32, 1000, 96, 1]⟩
abbrev S1x1x10x481x2 : Shape := ⟨5, ![1, 1, 10, 481, 2]⟩
abbrev S1x5x10x96x2 : Shape := ⟨5, ![1, 5, 10, 96, 2]⟩
abbrev S1x10x5x96x2 : Shape := ⟨5, ![1, 10, 5, 96, 2]⟩
abbrev S1x10x96x1 : Shape := ⟨4, ![1, 10, 96, 1]⟩
abbrev S1x10x96 : Shape := ⟨3, ![1, 10, 96]⟩
abbrev S1x1x10x96x1 : Shape := ⟨5, ![1, 1, 10, 96, 1]⟩
abbrev S1x10x1x96x1 : Shape := ⟨5, ![1, 10, 1, 96, 1]⟩
abbrev S1x1x10x385x2 : Shape := ⟨5, ![1, 1, 10, 385, 2]⟩
abbrev S1x10x385x2 : Shape := ⟨4, ![1, 10, 385, 2]⟩

abbrev nBuf : Space → Nat
  | .hbm => 22
  | .vmem => 10
  | .smem => 0
  | _ => 0

abbrev bufTy : (tb : Table) → Fin (tcTables nBuf tb) → BufTy
  | .hbm, ⟨0, _⟩ => ⟨S32x1x1000x481x2, .f32⟩
  | .hbm, ⟨1, _⟩ => ⟨S32x1000x5x96x2, .f32⟩
  | .hbm, ⟨2, _⟩ => ⟨S32x1000x1, .f32⟩
  | .hbm, ⟨3, _⟩ => ⟨S32x1x1000x96x2, .f32⟩
  | .hbm, ⟨4, _⟩ => ⟨S32x1000x96x2, .f32⟩
  | .hbm, ⟨5, _⟩ => ⟨S_, .i32⟩
  | .hbm, ⟨6, _⟩ => ⟨S_, .f32⟩
  | .hbm, ⟨7, _⟩ => ⟨S32x1004x96x2, .f32⟩
  | .hbm, ⟨8, _⟩ => ⟨S32x1000x96x2, .f32⟩
  | .hbm, ⟨9, _⟩ => ⟨S32x1000x96x2, .f32⟩
  | .hbm, ⟨10, _⟩ => ⟨S32x1000x96x2, .f32⟩
  | .hbm, ⟨11, _⟩ => ⟨S32x1000x96x2, .f32⟩
  | .hbm, ⟨12, _⟩ => ⟨S32x1000x96x2, .f32⟩
  | .hbm, ⟨13, _⟩ => ⟨S32x1x1000x96x2, .f32⟩
  | .hbm, ⟨14, _⟩ => ⟨S32x1x1000x96x2, .f32⟩
  | .hbm, ⟨15, _⟩ => ⟨S32x1x1000x96x2, .f32⟩
  | .hbm, ⟨16, _⟩ => ⟨S32x1x1000x96x2, .f32⟩
  | .hbm, ⟨17, _⟩ => ⟨S32x1x1000x96x2, .f32⟩
  | .hbm, ⟨18, _⟩ => ⟨S32x5x1000x96x2, .f32⟩
  | .hbm, ⟨19, _⟩ => ⟨S32x1000x1x1, .f32⟩
  | .hbm, ⟨20, _⟩ => ⟨S32x1000x96x1, .f32⟩
  | .hbm, ⟨21, _⟩ => ⟨S32x1x1000x481x2, .f32⟩
  | .local _ .vmem, ⟨0, _⟩ => ⟨S1x1x10x481x2, .f32⟩
  | .local _ .vmem, ⟨1, _⟩ => ⟨S1x1x10x481x2, .f32⟩
  | .local _ .vmem, ⟨2, _⟩ => ⟨S1x5x10x96x2, .f32⟩
  | .local _ .vmem, ⟨3, _⟩ => ⟨S1x5x10x96x2, .f32⟩
  | .local _ .vmem, ⟨4, _⟩ => ⟨S1x10x5x96x2, .f32⟩
  | .local _ .vmem, ⟨5, _⟩ => ⟨S1x10x5x96x2, .f32⟩
  | .local _ .vmem, ⟨6, _⟩ => ⟨S1x10x96x1, .f32⟩
  | .local _ .vmem, ⟨7, _⟩ => ⟨S1x10x96x1, .f32⟩
  | .local _ .vmem, ⟨8, _⟩ => ⟨S1x1x10x481x2, .f32⟩
  | .local _ .vmem, ⟨9, _⟩ => ⟨S1x1x10x481x2, .f32⟩
  | _, _ => ⟨S32x1x1000x481x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 100], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x1x10x481x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5x10x96x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x10x5x96x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x10x96x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x10x481x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S32x1x1000x481x2_S32x1x1000x96x2_0_0_0_0_0 : S32x1x1000x481x2.Slices ![0, 0, 0, 0, 0] S32x1x1000x96x2
  shapeCasts_S32x1x1000x96x2_S32x1000x96x2 : S32x1x1000x96x2.ShapeCasts S32x1000x96x2
  pads_S32x1000x96x2_S32x1004x96x2_000_220_000_000 : S32x1000x96x2.Pads (![0, 2, 0, 0] : Fin 4 → Nat) ![0, 2, 0, 0] ![0, 0, 0, 0] S32x1004x96x2
  h_S_ : 0 < S_.numel
  slices_S32x1004x96x2_S32x1000x96x2_0_0_0_0 : S32x1004x96x2.Slices ![0, 0, 0, 0] S32x1000x96x2
  slices_S32x1004x96x2_S32x1000x96x2_0_1_0_0 : S32x1004x96x2.Slices ![0, 1, 0, 0] S32x1000x96x2
  slices_S32x1004x96x2_S32x1000x96x2_0_2_0_0 : S32x1004x96x2.Slices ![0, 2, 0, 0] S32x1000x96x2
  slices_S32x1004x96x2_S32x1000x96x2_0_3_0_0 : S32x1004x96x2.Slices ![0, 3, 0, 0] S32x1000x96x2
  slices_S32x1004x96x2_S32x1000x96x2_0_4_0_0 : S32x1004x96x2.Slices ![0, 4, 0, 0] S32x1000x96x2
  bcast_S32x1000x96x2_S32x1x1000x96x2_0_2_3_4 : S32x1000x96x2.BroadcastsInDim S32x1x1000x96x2 (![0, 2, 3, 4] : Fin 4 → Fin S32x1x1000x96x2.rank)
  concatenates_S32x1x1000x96x2_S32x1x1000x96x2_S32x1x1000x96x2_S32x1x1000x96x2_S32x1x1000x96x2_S32x5x1000x96x2_d1 : Shape.Concatenates [S32x1x1000x96x2, S32x1x1000x96x2, S32x1x1000x96x2, S32x1x1000x96x2, S32x1x1000x96x2] S32x5x1000x96x2 1
  shapeCasts_S32x1000x1_S32x1000x1x1 : S32x1000x1.ShapeCasts S32x1000x1x1
  bcast_S32x1000x1x1_S32x1000x96x1_0_1_2_3 : S32x1000x1x1.BroadcastsInDim S32x1000x96x1 (![0, 1, 2, 3] : Fin 4 → Fin S32x1000x96x1.rank)
  inb_S1x10x96x1_S1x10x96x1_0_0_0_0 : ∀ a, (![0, 0, 0, 0] : Fin 4 → Nat) a + S1x10x96x1.size a ≤ S1x10x96x1.size a
  h_S1x10x96x1 : 0 < S1x10x96x1.numel
  shapeCasts_S1x10x96x1_S1x10x96 : S1x10x96x1.ShapeCasts S1x10x96
  inb_S1x5x10x96x2_S1x1x10x96x1_0_0_0_0_0 : ∀ a, (![0, 0, 0, 0, 0] : Fin 5 → Nat) a + S1x1x10x96x1.size a ≤ S1x5x10x96x2.size a
  h_S1x1x10x96x1 : 0 < S1x1x10x96x1.numel
  shapeCasts_S1x1x10x96x1_S1x10x96 : S1x1x10x96x1.ShapeCasts S1x10x96
  inb_S1x5x10x96x2_S1x1x10x96x1_0_0_0_0_1 : ∀ a, (![0, 0, 0, 0, 1] : Fin 5 → Nat) a + S1x1x10x96x1.size a ≤ S1x5x10x96x2.size a
  inb_S1x10x5x96x2_S1x10x1x96x1_0_0_0_0_0 : ∀ a, (![0, 0, 0, 0, 0] : Fin 5 → Nat) a + S1x10x1x96x1.size a ≤ S1x10x5x96x2.size a
  h_S1x10x1x96x1 : 0 < S1x10x1x96x1.numel
  shapeCasts_S1x10x1x96x1_S1x10x96 : S1x10x1x96x1.ShapeCasts S1x10x96
  inb_S1x10x5x96x2_S1x10x1x96x1_0_0_0_0_1 : ∀ a, (![0, 0, 0, 0, 1] : Fin 5 → Nat) a + S1x10x1x96x1.size a ≤ S1x10x5x96x2.size a
  inb_S1x5x10x96x2_S1x1x10x96x1_0_1_0_0_0 : ∀ a, (![0, 1, 0, 0, 0] : Fin 5 → Nat) a + S1x1x10x96x1.size a ≤ S1x5x10x96x2.size a
  inb_S1x5x10x96x2_S1x1x10x96x1_0_1_0_0_1 : ∀ a, (![0, 1, 0, 0, 1] : Fin 5 → Nat) a + S1x1x10x96x1.size a ≤ S1x5x10x96x2.size a
  inb_S1x10x5x96x2_S1x10x1x96x1_0_0_1_0_0 : ∀ a, (![0, 0, 1, 0, 0] : Fin 5 → Nat) a + S1x10x1x96x1.size a ≤ S1x10x5x96x2.size a
  inb_S1x10x5x96x2_S1x10x1x96x1_0_0_1_0_1 : ∀ a, (![0, 0, 1, 0, 1] : Fin 5 → Nat) a + S1x10x1x96x1.size a ≤ S1x10x5x96x2.size a
  inb_S1x5x10x96x2_S1x1x10x96x1_0_2_0_0_0 : ∀ a, (![0, 2, 0, 0, 0] : Fin 5 → Nat) a + S1x1x10x96x1.size a ≤ S1x5x10x96x2.size a
  inb_S1x5x10x96x2_S1x1x10x96x1_0_2_0_0_1 : ∀ a, (![0, 2, 0, 0, 1] : Fin 5 → Nat) a + S1x1x10x96x1.size a ≤ S1x5x10x96x2.size a
  inb_S1x10x5x96x2_S1x10x1x96x1_0_0_2_0_0 : ∀ a, (![0, 0, 2, 0, 0] : Fin 5 → Nat) a + S1x10x1x96x1.size a ≤ S1x10x5x96x2.size a
  inb_S1x10x5x96x2_S1x10x1x96x1_0_0_2_0_1 : ∀ a, (![0, 0, 2, 0, 1] : Fin 5 → Nat) a + S1x10x1x96x1.size a ≤ S1x10x5x96x2.size a
  inb_S1x5x10x96x2_S1x1x10x96x1_0_3_0_0_0 : ∀ a, (![0, 3, 0, 0, 0] : Fin 5 → Nat) a + S1x1x10x96x1.size a ≤ S1x5x10x96x2.size a
  inb_S1x5x10x96x2_S1x1x10x96x1_0_3_0_0_1 : ∀ a, (![0, 3, 0, 0, 1] : Fin 5 → Nat) a + S1x1x10x96x1.size a ≤ S1x5x10x96x2.size a
  inb_S1x10x5x96x2_S1x10x1x96x1_0_0_3_0_0 : ∀ a, (![0, 0, 3, 0, 0] : Fin 5 → Nat) a + S1x10x1x96x1.size a ≤ S1x10x5x96x2.size a
  inb_S1x10x5x96x2_S1x10x1x96x1_0_0_3_0_1 : ∀ a, (![0, 0, 3, 0, 1] : Fin 5 → Nat) a + S1x10x1x96x1.size a ≤ S1x10x5x96x2.size a
  inb_S1x5x10x96x2_S1x1x10x96x1_0_4_0_0_0 : ∀ a, (![0, 4, 0, 0, 0] : Fin 5 → Nat) a + S1x1x10x96x1.size a ≤ S1x5x10x96x2.size a
  inb_S1x5x10x96x2_S1x1x10x96x1_0_4_0_0_1 : ∀ a, (![0, 4, 0, 0, 1] : Fin 5 → Nat) a + S1x1x10x96x1.size a ≤ S1x5x10x96x2.size a
  inb_S1x10x5x96x2_S1x10x1x96x1_0_0_4_0_0 : ∀ a, (![0, 0, 4, 0, 0] : Fin 5 → Nat) a + S1x10x1x96x1.size a ≤ S1x10x5x96x2.size a
  inb_S1x10x5x96x2_S1x10x1x96x1_0_0_4_0_1 : ∀ a, (![0, 0, 4, 0, 1] : Fin 5 → Nat) a + S1x10x1x96x1.size a ≤ S1x10x5x96x2.size a
  inb_S1x1x10x481x2_S1x1x10x96x1_0_0_0_0_0 : ∀ a, (![0, 0, 0, 0, 0] : Fin 5 → Nat) a + S1x1x10x96x1.size a ≤ S1x1x10x481x2.size a
  inb_S1x1x10x481x2_S1x1x10x96x1_0_0_0_0_1 : ∀ a, (![0, 0, 0, 0, 1] : Fin 5 → Nat) a + S1x1x10x96x1.size a ≤ S1x1x10x481x2.size a
  shapeCasts_S1x10x96_S1x1x10x96x1 : S1x10x96.ShapeCasts S1x1x10x96x1
  inb_S1x1x10x481x2_S1x1x10x385x2_0_0_0_96_0 : ∀ a, (![0, 0, 0, 96, 0] : Fin 5 → Nat) a + S1x1x10x385x2.size a ≤ S1x1x10x481x2.size a
  h_S1x1x10x385x2 : 0 < S1x1x10x385x2.numel
  shapeCasts_S1x1x10x385x2_S1x10x385x2 : S1x1x10x385x2.ShapeCasts S1x10x385x2
  shapeCasts_S1x10x385x2_S1x1x10x385x2 : S1x10x385x2.ShapeCasts S1x1x10x385x2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x10x481x2.size a ≤ S32x1x1000x481x2.size a
  hwx0_0 : ∀ i : grid0.Coords, EltTy.bits .f32 = 32 ∨ (Rect.block (s := S32x1x1000x481x2) S1x1x10x481x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5x10x96x2.size a ≤ S32x5x1000x96x2.size a
  hwx0_1 : ∀ i : grid0.Coords, EltTy.bits .f32 = 32 ∨ (Rect.block (s := S32x5x1000x96x2) S1x5x10x96x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x10x5x96x2.size a ≤ S32x1000x5x96x2.size a
  hwx0_2 : ∀ i : grid0.Coords, EltTy.bits .f32 = 32 ∨ (Rect.block (s := S32x1000x5x96x2) S1x10x5x96x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x10x96x1.size a ≤ S32x1000x96x1.size a
  hwx0_3 : ∀ i : grid0.Coords, EltTy.bits .f32 = 32 ∨ (Rect.block (s := S32x1000x96x1) S1x10x96x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x10x481x2.size a ≤ S32x1x1000x481x2.size a
  hwx0_4 : ∀ i : grid0.Coords, EltTy.bits .f32 = 32 ∨ (Rect.block (s := S32x1x1000x481x2) S1x1x10x481x2.size (cc0_transform_4 i) (hinb0_4 i)).WholeWords (EltTy.packing .f32)

variable [Facts₀]

abbrev win0_0 : Pipeline.Window sig grid0 :=
  Pipeline.Window.ofSpec (Memref.whole main_arg0) S1x1x10x481x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x5x10x96x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x10x5x96x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x10x96x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x1x10x481x2.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1x1000x481x2 : Shape := ⟨5, ![32, 1, 1000, 481, 2]⟩
abbrev S32x1000x5x96x2 : Shape := ⟨5, ![32, 1000, 5, 96, 2]⟩
abbrev S32x1000x1 : Shape := ⟨3, ![32, 1000, 1]⟩
abbrev S32x1x1000x96x2 : Shape := ⟨5, ![32, 1, 1000, 96, 2]⟩
abbrev S32x1000x96x2 : Shape := ⟨4, ![32, 1000, 96, 2]⟩
abbrev S_ : Shape := ⟨0, ![]⟩
abbrev S32x1004x96x2 : Shape := ⟨4, ![32, 1004, 96, 2]⟩
abbrev S32x5x1000x96x2 : Shape := ⟨5, ![32, 5, 1000, 96, 2]⟩
abbrev S32x5x1000x96x1 : Shape := ⟨5, ![32, 5, 1000, 96, 1]⟩
abbrev S32x5x1000x96 : Shape := ⟨4, ![32, 5, 1000, 96]⟩
abbrev S32x1000x96 : Shape := ⟨3, ![32, 1000, 96]⟩
abbrev S32x1000x96x1 : Shape := ⟨4, ![32, 1000, 96, 1]⟩
abbrev S32x1x1000x1x1 : Shape := ⟨5, ![32, 1, 1000, 1, 1]⟩
abbrev S1 : Shape := ⟨1, ![1]⟩

abbrev nBuf : Space → Nat
  | .hbm => 83
  | .vmem => 0
  | .smem => 0
  | _ => 0

abbrev bufTy : (tb : Table) → Fin (tcTables nBuf tb) → BufTy
  | .hbm, ⟨0, _⟩ => ⟨S32x1x1000x481x2, .f32⟩
  | .hbm, ⟨1, _⟩ => ⟨S32x1000x5x96x2, .f32⟩
  | .hbm, ⟨2, _⟩ => ⟨S32x1000x1, .f32⟩
  | .hbm, ⟨3, _⟩ => ⟨S32x1x1000x96x2, .f32⟩
  | .hbm, ⟨4, _⟩ => ⟨S32x1000x96x2, .f32⟩
  | .hbm, ⟨5, _⟩ => ⟨S_, .i32⟩
  | .hbm, ⟨6, _⟩ => ⟨S_, .f32⟩
  | .hbm, ⟨7, _⟩ => ⟨S32x1004x96x2, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S32x1000x96x2, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S32x1000x96x2, .f32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S32x1000x96x2, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S32x1000x96x2, .f32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S32x1000x96x2, .f32⟩
  | .hbm, ⟨33, _⟩ => ⟨S32x1x1000x96x2, .f32⟩
  | .hbm, ⟨34, _⟩ => ⟨S32x1x1000x96x2, .f32⟩
  | .hbm, ⟨35, _⟩ => ⟨S32x1x1000x96x2, .f32⟩
  | .hbm, ⟨36, _⟩ => ⟨S32x1x1000x96x2, .f32⟩
  | .hbm, ⟨37, _⟩ => ⟨S32x1x1000x96x2, .f32⟩
  | .hbm, ⟨38, _⟩ => ⟨S32x5x1000x96x2, .f32⟩
  | .hbm, ⟨39, _⟩ => ⟨S32x5x1000x96x2, .f32⟩
  | .hbm, ⟨40, _⟩ => ⟨S32x5x1000x96x1, .f32⟩
  | .hbm, ⟨41, _⟩ => ⟨S32x5x1000x96, .f32⟩
  | .hbm, ⟨42, _⟩ => ⟨S32x5x1000x96x1, .f32⟩
  | .hbm, ⟨43, _⟩ => ⟨S32x5x1000x96, .f32⟩
  | .hbm, ⟨44, _⟩ => ⟨S32x5x1000x96, .f32⟩
  | .hbm, ⟨45, _⟩ => ⟨S32x5x1000x96x1, .f32⟩
  | .hbm, ⟨46, _⟩ => ⟨S32x5x1000x96, .f32⟩
  | .hbm, ⟨47, _⟩ => ⟨S32x5x1000x96x1, .f32⟩
  | .hbm, ⟨48, _⟩ => ⟨S32x5x1000x96, .f32⟩
  | .hbm, ⟨49, _⟩ => ⟨S32x5x1000x96, .f32⟩
  | .hbm, ⟨50, _⟩ => ⟨S32x5x1000x96, .f32⟩
  | .hbm, ⟨51, _⟩ => ⟨S_, .f32⟩
  | .hbm, ⟨52, _⟩ => ⟨S32x1000x96, .f32⟩
  | .hbm, ⟨53, _⟩ => ⟨S32x5x1000x96x1, .f32⟩
  | .hbm, ⟨54, _⟩ => ⟨S32x5x1000x96, .f32⟩
  | .hbm, ⟨55, _⟩ => ⟨S32x5x1000x96x1, .f32⟩
  | .hbm, ⟨56, _⟩ => ⟨S32x5x1000x96, .f32⟩
  | .hbm, ⟨57, _⟩ => ⟨S32x5x1000x96, .f32⟩
  | .hbm, ⟨58, _⟩ => ⟨S32x5x1000x96x1, .f32⟩
  | .hbm, ⟨59, _⟩ => ⟨S32x5x1000x96, .f32⟩
  | .hbm, ⟨60, _⟩ => ⟨S32x5x1000x96x1, .f32⟩
  | .hbm, ⟨61, _⟩ => ⟨S32x5x1000x96, .f32⟩
  | .hbm, ⟨62, _⟩ => ⟨S32x5x1000x96, .f32⟩
  | .hbm, ⟨63, _⟩ => ⟨S32x5x1000x96, .f32⟩
  | .hbm, ⟨64, _⟩ => ⟨S_, .f32⟩
  | .hbm, ⟨65, _⟩ => ⟨S32x1000x96, .f32⟩
  | .hbm, ⟨66, _⟩ => ⟨S32x1000x96x1, .f32⟩
  | .hbm, ⟨67, _⟩ => ⟨S32x1000x96x1, .f32⟩
  | .hbm, ⟨68, _⟩ => ⟨S32x1000x96x2, .f32⟩
  | .hbm, ⟨69, _⟩ => ⟨S32x1x1000x96x2, .f32⟩
  | .hbm, ⟨70, _⟩ => ⟨S32x1x1000x1x1, .f32⟩
  | .hbm, ⟨71, _⟩ => ⟨S32x1x1000x96x2, .f32⟩
  | .hbm, ⟨72, _⟩ => ⟨S32x1x1000x96x2, .f32⟩
  | .hbm, ⟨73, _⟩ => ⟨S32x1x1000x96x2, .f32⟩
  | .hbm, ⟨74, _⟩ => ⟨S_, .f32⟩
  | .hbm, ⟨75, _⟩ => ⟨S32x1x1000x1x1, .f32⟩
  | .hbm, ⟨76, _⟩ => ⟨S32x1x1000x1x1, .f32⟩
  | .hbm, ⟨77, _⟩ => ⟨S32x1x1000x96x2, .f32⟩
  | .hbm, ⟨78, _⟩ => ⟨S32x1x1000x96x2, .f32⟩
  | .hbm, ⟨79, _⟩ => ⟨S32x1x1000x96x2, .f32⟩
  | .hbm, ⟨80, _⟩ => ⟨S_, .i32⟩
  | .hbm, ⟨81, _⟩ => ⟨S1, .i32⟩
  | .hbm, ⟨82, _⟩ => ⟨S32x1x1000x481x2, .f32⟩
  | _, _ => ⟨S32x1x1000x481x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_c_3 : Ref sig .tc := ⟨.hbm, 11, rfl⟩
abbrev main_v3 : Ref sig .tc := ⟨.hbm, 12, rfl⟩
abbrev main_c_4 : Ref sig .tc := ⟨.hbm, 13, rfl⟩
abbrev main_c_5 : Ref sig .tc := ⟨.hbm, 14, rfl⟩
abbrev main_c_6 : Ref sig .tc := ⟨.hbm, 15, rfl⟩
abbrev main_c_7 : Ref sig .tc := ⟨.hbm, 16, rfl⟩
abbrev main_v4 : Ref sig .tc := ⟨.hbm, 17, rfl⟩
abbrev main_c_8 : Ref sig .tc := ⟨.hbm, 18, rfl⟩
abbrev main_c_9 : Ref sig .tc := ⟨.hbm, 19, rfl⟩
abbrev main_c_10 : Ref sig .tc := ⟨.hbm, 20, rfl⟩
abbrev main_c_11 : Ref sig .tc := ⟨.hbm, 21, rfl⟩
abbrev main_v5 : Ref sig .tc := ⟨.hbm, 22, rfl⟩
abbrev main_c_12 : Ref sig .tc := ⟨.hbm, 23, rfl⟩
abbrev main_c_13 : Ref sig .tc := ⟨.hbm, 24, rfl⟩
abbrev main_c_14 : Ref sig .tc := ⟨.hbm, 25, rfl⟩
abbrev main_c_15 : Ref sig .tc := ⟨.hbm, 26, rfl⟩
abbrev main_v6 : Ref sig .tc := ⟨.hbm, 27, rfl⟩
abbrev main_c_16 : Ref sig .tc := ⟨.hbm, 28, rfl⟩
abbrev main_c_17 : Ref sig .tc := ⟨.hbm, 29, rfl⟩
abbrev main_c_18 : Ref sig .tc := ⟨.hbm, 30, rfl⟩
abbrev main_c_19 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_20 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_21 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_22 : Ref sig .tc := ⟨.hbm, 80, rfl⟩
abbrev main_v52 : Ref sig .tc := ⟨.hbm, 81, rfl⟩
abbrev main_v53 : Ref sig .tc := ⟨.hbm, 82, rfl⟩

abbrev nD : Nat := 1
abbrev τ : Topo := Topo.v7x

variable {F : FTy → Type} [FloatOps F]

class Facts₀ : Prop where
  slices_S32x1x1000x481x2_S32x1x1000x96x2_0_0_0_0_0 : S32x1x1000x481x2.Slices ![0, 0, 0, 0, 0] S32x1x1000x96x2
  shapeCasts_S32x1x1000x96x2_S32x1000x96x2 : S32x1x1000x96x2.ShapeCasts S32x1000x96x2
  pads_S32x1000x96x2_S32x1004x96x2_000_220_000_000 : S32x1000x96x2.Pads (![0, 2, 0, 0] : Fin 4 → Nat) ![0, 2, 0, 0] ![0, 0, 0, 0] S32x1004x96x2
  h_S_ : 0 < S_.numel
  sliceFits_S32x1004x96x2_S32x1000x96x2 : S32x1004x96x2.Slices (fun _ => 0) S32x1000x96x2
  bcast_S32x1000x96x2_S32x1x1000x96x2_0_2_3_4 : S32x1000x96x2.BroadcastsInDim S32x1x1000x96x2 (![0, 2, 3, 4] : Fin 4 → Fin S32x1x1000x96x2.rank)
  concatenates_S32x1x1000x96x2_S32x1x1000x96x2_S32x1x1000x96x2_S32x1x1000x96x2_S32x1x1000x96x2_S32x5x1000x96x2_d1 : Shape.Concatenates [S32x1x1000x96x2, S32x1x1000x96x2, S32x1x1000x96x2, S32x1x1000x96x2, S32x1x1000x96x2] S32x5x1000x96x2 1
  transposes_S32x1000x5x96x2_S32x5x1000x96x2_0_2_1_3_4 : S32x1000x5x96x2.Transposes [0, 2, 1, 3, 4] S32x5x1000x96x2
  slices_S32x5x1000x96x2_S32x5x1000x96x1_0_0_0_0_0 : S32x5x1000x96x2.Slices ![0, 0, 0, 0, 0] S32x5x1000x96x1
  shapeCasts_S32x5x1000x96x1_S32x5x1000x96 : S32x5x1000x96x1.ShapeCasts S32x5x1000x96
  slices_S32x5x1000x96x2_S32x5x1000x96x1_0_0_0_0_1 : S32x5x1000x96x2.Slices ![0, 0, 0, 0, 1] S32x5x1000x96x1
  reducesTo_S32x5x1000x96_S32x1000x96_d1 : S32x5x1000x96.ReducesTo [1] S32x1000x96
  bcast_S32x1000x96_S32x1000x96x1_0_1_2 : S32x1000x96.BroadcastsInDim S32x1000x96x1 (![0, 1, 2] : Fin 3 → Fin S32x1000x96x1.rank)
  concatenates_S32x1000x96x1_S32x1000x96x1_S32x1000x96x2_d3 : Shape.Concatenates [S32x1000x96x1, S32x1000x96x1] S32x1000x96x2 3
  shapeCasts_S32x1000x1_S32x1x1000x1x1 : S32x1000x1.ShapeCasts S32x1x1000x1x1
  bcast_S32x1x1000x1x1_S32x1x1000x96x2_0_1_2_3_4 : S32x1x1000x1x1.BroadcastsInDim S32x1x1000x96x2 (![0, 1, 2, 3, 4] : Fin 5 → Fin S32x1x1000x96x2.rank)
  bcast_S_S32x1x1000x1x1 : S_.BroadcastsInDim S32x1x1000x1x1 (![] : Fin 0 → Fin S32x1x1000x1x1.rank)
  bcast_S_S1 : S_.BroadcastsInDim S1 (![] : Fin 0 → Fin S1.rank)
  scatter_S32x1x1000x481x2_S1_S32x1x1000x96x2_01234_n_3_0_wf : ScatterDims.WF S32x1x1000x481x2 S1 S32x1x1000x96x2 [0, 1, 2, 3, 4] [] [3] 0

variable [Facts₀]

def scatter_S32x1x1000x481x2_S1_S32x1x1000x96x2_01234_n_3_0 : ScatterDims S32x1x1000x481x2 S1 S32x1x1000x96x2 where
  updateWindowDims := [0, 1, 2, 3, 4]
  insertedWindowDims := []
  scatterDimsToOperandDims := [3]
  indexVectorDim := 0
  wf := scatter_S32x1x1000x481x2_S1_S32x1x1000x96x2_01234_n_3_0_wf

class Facts : Prop extends Facts₀ where

variable [Facts]
-- ==== Proof.LibNary5.lean ====
/-
  An operation over a literal family of five buffers, such as a join of five arrays along an axis: the value it writes,
  stated with each operand's contents read at its own buffer. With the operands named one by one, the contents of each
  can be rewritten in turn by the result lemmas of the operations before it; under the binder of the general statement
  (operand `k` of the family) no such rewriting is possible.
-/
import Idealize.ShloMosaic.Lib.StableHlo.Run

noncomputable section

namespace Idealize.ShloMosaic.StableHlo

variable {τ : Topo} {sig : RefSig} {Val : EltTy → Type} {x a b c e y : Ref sig .tc}

/-- The result of an operation over the five references x, a, b, c, e at its own result buffer: its function applied to
    the five contents, each at its own reference. -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

/-- The same statement with the result reference kept out of the rewriting index, for one pass of the simplifier. -/
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) :=
  nary5_result f hxs hy F

end Idealize.ShloMosaic.StableHlo

end
-- ==== Proof.LibIndexed4.lean ====
/-
  An operation that reads one array and a literal family of four index words, such as a slice whose start on each of four
  axes is given as a word in its own buffer: the value it writes, stated with each index word read at its own buffer.
  With the words named one by one, the contents of each can be rewritten in turn by the result lemmas of the operations
  before it; under the binder of the general statement (index word `k` of the family) no such rewriting is possible.
-/
import Idealize.ShloMosaic.Lib.StableHlo.Run

noncomputable section

namespace Idealize.ShloMosaic.StableHlo

variable {τ : Topo} {sig : RefSig} {Val : EltTy → Type} {a y i0 i1 i2 i3 : Ref sig .tc}

/-- The result of an operation over the array `a` and the four index references i0 … i3 at its own result buffer: its
    function applied to the array's contents and to the four index words, each at its own reference. -/
theorem unaryIndexed4_result (T : BufTy)
    (f : a.ty.Contents Val → (Fin 4 → T.Contents Val) → y.ty.Contents Val) (hT ha hix hy) (F : Valuation τ sig Val) :
    (unaryIndexed (τ := τ) a ![i0, i1, i2, i3] T y f hT ha hix hy).result F (Proc.devRef .tc y)
      = f (F (Proc.devRef .tc a))
          ![cast (congrArg (fun U : BufTy => U.Contents Val) (hT 0)) (F (Proc.devRef .tc i0)),
            cast (congrArg (fun U : BufTy => U.Contents Val) (hT 1)) (F (Proc.devRef .tc i1)),
            cast (congrArg (fun U : BufTy => U.Contents Val) (hT 2)) (F (Proc.devRef .tc i2)),
            cast (congrArg (fun U : BufTy => U.Contents Val) (hT 3)) (F (Proc.devRef .tc i3))] := by
  rw [unaryIndexed_result]; congr 1; funext k; fin_cases k <;> rfl

/-- The same statement with the result reference kept out of the rewriting index, for one pass of the simplifier. -/
theorem unaryIndexed4_result' (T : BufTy)
    (f : a.ty.Contents Val → (Fin 4 → T.Contents Val) → y.ty.Contents Val) (hT ha hix hy) (F : Valuation τ sig Val) :
    (unaryIndexed (τ := τ) a ![i0, i1, i2, i3] T y f hT ha hix hy).result F (no_index (Proc.devRef .tc y))
      = f (F (Proc.devRef .tc a))
          ![cast (congrArg (fun U : BufTy => U.Contents Val) (hT 0)) (F (Proc.devRef .tc i0)),
            cast (congrArg (fun U : BufTy => U.Contents Val) (hT 1)) (F (Proc.devRef .tc i1)),
            cast (congrArg (fun U : BufTy => U.Contents Val) (hT 2)) (F (Proc.devRef .tc i2)),
            cast (congrArg (fun U : BufTy => U.Contents Val) (hT 3)) (F (Proc.devRef .tc i3))] :=
  unaryIndexed4_result T f hT ha hix hy F

end Idealize.ShloMosaic.StableHlo

end
-- ==== Proof.BodyK.lean ====
/-
  The deep-filter kernel's body: its accesses and what it stores.

  At a grid point the body sees four input blocks — the spectrum's [1, 1, 10, 481, 2], the five stacked windows'
  [1, 5, 10, 96, 2], the coefficients' [1, 10, 5, 96, 2], the weight's [1, 10, 96, 1] — and the result's block
  [1, 1, 10, 481, 2]. It loads, through literal unit-stride rectangles, the weight block whole, each tap's real and imaginary
  part of the windows and of the coefficients, and the spectrum's bins 0 … 95 by component and bins 96 … 480 whole; it
  stores three pieces that tile the result's block: the blended real parts of bins 0 … 95, the blended imaginary parts,
  and bins 96 … 480 copied. Each piece is a pure term of the loads; the block after the body is the canonical array of
  the three pieces.
-/
import proofs.«155813_j30185030156317_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic

variable {F : FTy → Type} [FloatOps F]

/-! ## The body's rectangles -/

/-- The weight block whole. -/
abbrev rA : Rect S1x10x96x1 := Rect.unit (s := S1x10x96x1) ![0, 0, 0, 0] S1x10x96x1.size inb_S1x10x96x1_S1x10x96x1_0_0_0_0
/-- Tap `i`'s real (`0`) and imaginary (`1`) parts of the stacked windows' block. -/
abbrev rW00 : Rect S1x5x10x96x2 := Rect.unit (s := S1x5x10x96x2) ![0, 0, 0, 0, 0] S1x1x10x96x1.size inb_S1x5x10x96x2_S1x1x10x96x1_0_0_0_0_0
abbrev rW01 : Rect S1x5x10x96x2 := Rect.unit (s := S1x5x10x96x2) ![0, 0, 0, 0, 1] S1x1x10x96x1.size inb_S1x5x10x96x2_S1x1x10x96x1_0_0_0_0_1
abbrev rW10 : Rect S1x5x10x96x2 := Rect.unit (s := S1x5x10x96x2) ![0, 1, 0, 0, 0] S1x1x10x96x1.size inb_S1x5x10x96x2_S1x1x10x96x1_0_1_0_0_0
abbrev rW11 : Rect S1x5x10x96x2 := Rect.unit (s := S1x5x10x96x2) ![0, 1, 0, 0, 1] S1x1x10x96x1.size inb_S1x5x10x96x2_S1x1x10x96x1_0_1_0_0_1
abbrev rW20 : Rect S1x5x10x96x2 := Rect.unit (s := S1x5x10x96x2) ![0, 2, 0, 0, 0] S1x1x10x96x1.size inb_S1x5x10x96x2_S1x1x10x96x1_0_2_0_0_0
abbrev rW21 : Rect S1x5x10x96x2 := Rect.unit (s := S1x5x10x96x2) ![0, 2, 0, 0, 1] S1x1x10x96x1.size inb_S1x5x10x96x2_S1x1x10x96x1_0_2_0_0_1
abbrev rW30 : Rect S1x5x10x96x2 := Rect.unit (s := S1x5x10x96x2) ![0, 3, 0, 0, 0] S1x1x10x96x1.size inb_S1x5x10x96x2_S1x1x10x96x1_0_3_0_0_0
abbrev rW31 : Rect S1x5x10x96x2 := Rect.unit (s := S1x5x10x96x2) ![0, 3, 0, 0, 1] S1x1x10x96x1.size inb_S1x5x10x96x2_S1x1x10x96x1_0_3_0_0_1
abbrev rW40 : Rect S1x5x10x96x2 := Rect.unit (s := S1x5x10x96x2) ![0, 4, 0, 0, 0] S1x1x10x96x1.size inb_S1x5x10x96x2_S1x1x10x96x1_0_4_0_0_0
abbrev rW41 : Rect S1x5x10x96x2 := Rect.unit (s := S1x5x10x96x2) ![0, 4, 0, 0, 1] S1x1x10x96x1.size inb_S1x5x10x96x2_S1x1x10x96x1_0_4_0_0_1
abbrev rC00 : Rect S1x10x5x96x2 := Rect.unit (s := S1x10x5x96x2) ![0, 0, 0, 0, 0] S1x10x1x96x1.size inb_S1x10x5x96x2_S1x10x1x96x1_0_0_0_0_0
abbrev rC01 : Rect S1x10x5x96x2 := Rect.unit (s := S1x10x5x96x2) ![0, 0, 0, 0, 1] S1x10x1x96x1.size inb_S1x10x5x96x2_S1x10x1x96x1_0_0_0_0_1
abbrev rC10 : Rect S1x10x5x96x2 := Rect.unit (s := S1x10x5x96x2) ![0, 0, 1, 0, 0] S1x10x1x96x1.size inb_S1x10x5x96x2_S1x10x1x96x1_0_0_1_0_0
abbrev rC11 : Rect S1x10x5x96x2 := Rect.unit (s := S1x10x5x96x2) ![0, 0, 1, 0, 1] S1x10x1x96x1.size inb_S1x10x5x96x2_S1x10x1x96x1_0_0_1_0_1
abbrev rC20 : Rect S1x10x5x96x2 := Rect.unit (s := S1x10x5x96x2) ![0, 0, 2, 0, 0] S1x10x1x96x1.size inb_S1x10x5x96x2_S1x10x1x96x1_0_0_2_0_0
abbrev rC21 : Rect S1x10x5x96x2 := Rect.unit (s := S1x10x5x96x2) ![0, 0, 2, 0, 1] S1x10x1x96x1.size inb_S1x10x5x96x2_S1x10x1x96x1_0_0_2_0_1
abbrev rC30 : Rect S1x10x5x96x2 := Rect.unit (s := S1x10x5x96x2) ![0, 0, 3, 0, 0] S1x10x1x96x1.size inb_S1x10x5x96x2_S1x10x1x96x1_0_0_3_0_0
abbrev rC31 : Rect S1x10x5x96x2 := Rect.unit (s := S1x10x5x96x2) ![0, 0, 3, 0, 1] S1x10x1x96x1.size inb_S1x10x5x96x2_S1x10x1x96x1_0_0_3_0_1
abbrev rC40 : Rect S1x10x5x96x2 := Rect.unit (s := S1x10x5x96x2) ![0, 0, 4, 0, 0] S1x10x1x96x1.size inb_S1x10x5x96x2_S1x10x1x96x1_0_0_4_0_0
abbrev rC41 : Rect S1x10x5x96x2 := Rect.unit (s := S1x10x5x96x2) ![0, 0, 4, 0, 1] S1x10x1x96x1.size inb_S1x10x5x96x2_S1x10x1x96x1_0_0_4_0_1
/-- The real and the imaginary parts of bins 0 … 95 of a spectrum block, and its bins 96 … 480. -/
abbrev rX0 : Rect S1x1x10x481x2 := Rect.unit (s := S1x1x10x481x2) ![0, 0, 0, 0, 0] S1x1x10x96x1.size inb_S1x1x10x481x2_S1x1x10x96x1_0_0_0_0_0
abbrev rX1 : Rect S1x1x10x481x2 := Rect.unit (s := S1x1x10x481x2) ![0, 0, 0, 0, 1] S1x1x10x96x1.size inb_S1x1x10x481x2_S1x1x10x96x1_0_0_0_0_1
abbrev rT : Rect S1x1x10x481x2 := Rect.unit (s := S1x1x10x481x2) ![0, 0, 0, 96, 0] S1x1x10x385x2.size inb_S1x1x10x481x2_S1x1x10x385x2_0_0_0_96_0

/-! ## What the body stores, from the input blocks -/

section Body

variable (x0 : Vec F S1x1x10x481x2 .f32) (x1 : Vec F S1x5x10x96x2 .f32) (x2 : Vec F S1x10x5x96x2 .f32) (x3 : Vec F S1x10x96x1 .f32)

/-- The real and imaginary accumulators after tap 0, -/
def re0 : FVec F S1x10x96 .f32 := k0_pay8 (View.ld x1 rW00) (View.ld x1 rW01) (View.ld x2 rC00) (View.ld x2 rC01)
def im0 : FVec F S1x10x96 .f32 := k0_pay9 (View.ld x1 rW00) (View.ld x1 rW01) (View.ld x2 rC00) (View.ld x2 rC01)
/-- after taps 1 (imaginary) and 2 (real), -/
def im1 : FVec F S1x10x96 .f32 := k0_pay14 (im0 x1 x2) (k0_pay10 (View.ld x1 rW10)) (View.ld x1 rW11) (View.ld x2 rC10) (View.ld x2 rC11)
def re2 : FVec F S1x10x96 .f32 := k0_pay19 (re0 x1 x2) (k0_pay10 (View.ld x1 rW10)) (View.ld x1 rW11) (View.ld x2 rC10) (View.ld x2 rC11) (View.ld x1 rW20) (View.ld x1 rW21) (View.ld x2 rC20) (View.ld x2 rC21)
/-- and after tap 3. -/
def re3 : FVec F S1x10x96 .f32 := k0_pay25 (re2 x1 x2) (View.ld x1 rW30) (View.ld x1 rW31) (View.ld x2 rC30) (View.ld x2 rC31)
def im3 : FVec F S1x10x96 .f32 := k0_pay26 (im1 x1 x2) (k0_pay15 (View.ld x1 rW20)) (k0_pay18 (View.ld x2 rC21)) (k0_pay20 (View.ld x1 rW21) (View.ld x2 rC20)) (View.ld x1 rW30) (View.ld x1 rW31) (View.ld x2 rC30) (View.ld x2 rC31)

/-- The three stored pieces: the blended real parts, the blended imaginary parts, and the untouched bins. -/
def stRe : FVec F S1x1x10x96x1 .f32 :=
  k0_pay31 (k0_pay2 (View.ld x3 rA)) (k0_pay3 (View.ld x3 rA)) (re3 x1 x2) (k0_pay27 (View.ld x1 rW40)) (k0_pay28 (View.ld x1 rW41)) (k0_pay29 (View.ld x2 rC40)) (View.ld x2 rC41) (View.ld x0 rX0)
def stIm : FVec F S1x1x10x96x1 .f32 :=
  k0_pay32 (k0_pay2 (View.ld x3 rA)) (k0_pay3 (View.ld x3 rA)) (im3 x1 x2) (k0_pay27 (View.ld x1 rW40)) (k0_pay28 (View.ld x1 rW41)) (k0_pay29 (View.ld x2 rC40)) (View.ld x2 rC41) (View.ld x0 rX1)
def stTail : FVec F S1x1x10x385x2 .f32 := k0_pay1 (k0_pay33 (View.ld x0 rT))

/-- The result's staging buffer after the body: its three stores as pieces, last first. -/
def out4 : Vec F S1x1x10x481x2 .f32 :=
  View.canon [⟨rT, stTail x0⟩, ⟨rX1, stIm x0 x1 x2 x3⟩, ⟨rX0, stRe x0 x1 x2 x3⟩]

end Body

/-- Cut into single entries along the bin and the real/imaginary axes (ten frames deep), the three stores tile the
    block, so they cover it. -/
theorem cover4 (p0 : Vec F S1x1x10x385x2 .f32) (p1 p2 : Vec F S1x1x10x96x1 .f32) (y : S1x1x10x481x2.Idx) :
    ∃ pc ∈ ([⟨rT, p0⟩, ⟨rX1, p1⟩, ⟨rX0, p2⟩] : List (View.Piece (Elt F) S1x1x10x481x2 .f32)), y ∈ pc.1.set :=
  View.cover_of_tiledBy [⟨rT, p0⟩, ⟨rX1, p1⟩, ⟨rX0, p2⟩] ![1, 1, 10, 1, 1] (by sl_kernel_rfl) y

end Cert.Kernel.Fr

end
-- ==== Proof.FrameDefsK.lean ====
/-
  The deep-filter kernel's one region: what the region finds, and the pipeline's proof data.

  @main is three stretches of host operations and then the region. The host operations cut the first 96 frequency bins
  out of the spectrum, pad them with two zero frames in front and two behind along time, take the five windows of
  1000 frames that start at frames 0 … 4 of the padded array, and stack them (window 1's array); they also repeat the
  weight along the 96 bins (window 3's array). None of them writes an argument array.

  The grid is 32 × 100: point (b, s) stages batch b and the ten frames 10 s … 10 s + 9 of the spectrum (window 0,
  block [1, 1, 10, 481, 2]), of the stacked windows (window 1, block [1, 5, 10, 96, 2]), of the coefficients (window 2,
  block [1, 10, 5, 96, 2]) and of the weight (window 3, block [1, 10, 96, 1]), and writes back the result's block
  (window 4, block [1, 1, 10, 481, 2]).

  The proof data of the pipeline: every input's staging buffer holds its block at every point, and the result's holds
  what the body's three stores leave there.
-/
import proofs.«155813_j30185030156317_1_alg».proof.Proof.BodyK
import proofs.«155813_j30185030156317_1_alg».proof.Proof.Gen.Kernel.Launch
import proofs.«155813_j30185030156317_1_alg».proof.Proof.Gen.Kernel.Skeleton
import proofs.«155813_j30185030156317_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is those stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, for any proof data over these arrays whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run -/

/-- A run that ends with every staged argument array at the proof data's final contents and every other buffer as
    the region found it leaves the three argument arrays as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).2 main_arg2 (Pipeline.mem_restRefs_of main_arg2 (by decide) (by decide))).trans (V_main_arg2 m c)⟩) h

/-! ## The proof data -/

/-- On core `c`: the arrays as the region finds them; after the body at point `t` each input's buffer at its block and
    the result's at the three stores over the input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.Kernel.Fr

end
-- ==== Proof.FrameRunK.lean ====
/-
  The deep-filter kernel's region runs: the body's triple, the obligation at every grid point, and the frame.

  The body reads its four input blocks through literal rectangles and stores three pieces that cover the result's
  block; the loads it makes of the result's own buffer before each store are never used. So on whole staging
  buffers, the inputs' at any contents and the result's at anything, it ends with the inputs' unchanged and the
  result's at the canonical array of its three stores. Every grid point fetches all four inputs and writes the result
  back, so the pipeline's run leaves the argument arrays as launched.
-/
import proofs.«155813_j30185030156317_1_alg».proof.Proof.FrameDefsK

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
/-- The body on whole staging buffers: the inputs' at contents `x0 … x3`, the result's at anything; it ends with the
    inputs' as they were and the result's at `out4` of them. -/
theorem sound_kernel (c : Dev nD) (E : Set ℕ) (i : grid0.Coords)
    (arg2 : Memref sig .tc .vmem S1x1x10x481x2 .f32) (harg2 : arg2.IsWhole) (arg3 : Memref sig .tc .vmem S1x5x10x96x2 .f32) (harg3 : arg3.IsWhole)
    (arg4 : Memref sig .tc .vmem S1x10x5x96x2 .f32) (harg4 : arg4.IsWhole) (arg5 : Memref sig .tc .vmem S1x10x96x1 .f32) (harg5 : arg5.IsWhole)
    (arg6 : Memref sig .tc .vmem S1x1x10x481x2 .f32) (harg6 : arg6.IsWhole)
    (x0 : Vec F S1x1x10x481x2 .f32) (x1 : Vec F S1x5x10x96x2 .f32) (x2 : Vec F S1x10x5x96x2 .f32) (x3 : Vec F S1x10x96x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out4 x0 x1 x2 x3)) -∗ K ⟨⟩))
      ⊢ wp frame (wpE (defs₀ (F := F)) Variants.none c none) E (cc0__df_kernel i arg2 harg2 arg3 harg3 arg4 harg4 arg5 harg5 arg6 harg6) K := by
  simp only [cc0__df_kernel_eq_skeleton]; unfold cc0__df_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _ _ _)

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main ends, and in every final state each array of the pipeline is at what the proof
    data computes and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main ends, nothing faults, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Fr

end
-- ==== Proof.BodyKI.lean ====
/-
  The deep-filter kernel's body: its accesses and what it stores.

  At a grid point the body sees four input blocks — the spectrum's [1, 1, 10, 481, 2], the five stacked windows'
  [1, 5, 10, 96, 2], the coefficients' [1, 10, 5, 96, 2], the weight's [1, 10, 96, 1] — and the result's block
  [1, 1, 10, 481, 2]. It loads, through literal unit-stride rectangles, the weight block whole, each tap's real and imaginary
  part of the windows and of the coefficients, and the spectrum's bins 0 … 95 by component and bins 96 … 480 whole; it
  stores three pieces that tile the result's block: the blended real parts of bins 0 … 95, the blended imaginary parts,
  and bins 96 … 480 copied. Each piece is a pure term of the loads; the block after the body is the canonical array of
  the three pieces.
-/
import proofs.«155813_j30185030156317_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic

variable {F : FTy → Type} [FloatOps F]

/-! ## The body's rectangles -/

/-- The weight block whole. -/
abbrev rA : Rect S1x10x96x1 := Rect.unit (s := S1x10x96x1) ![0, 0, 0, 0] S1x10x96x1.size inb_S1x10x96x1_S1x10x96x1_0_0_0_0
/-- Tap `i`'s real (`0`) and imaginary (`1`) parts of the stacked windows' block. -/
abbrev rW00 : Rect S1x5x10x96x2 := Rect.unit (s := S1x5x10x96x2) ![0, 0, 0, 0, 0] S1x1x10x96x1.size inb_S1x5x10x96x2_S1x1x10x96x1_0_0_0_0_0
abbrev rW01 : Rect S1x5x10x96x2 := Rect.unit (s := S1x5x10x96x2) ![0, 0, 0, 0, 1] S1x1x10x96x1.size inb_S1x5x10x96x2_S1x1x10x96x1_0_0_0_0_1
abbrev rW10 : Rect S1x5x10x96x2 := Rect.unit (s := S1x5x10x96x2) ![0, 1, 0, 0, 0] S1x1x10x96x1.size inb_S1x5x10x96x2_S1x1x10x96x1_0_1_0_0_0
abbrev rW11 : Rect S1x5x10x96x2 := Rect.unit (s := S1x5x10x96x2) ![0, 1, 0, 0, 1] S1x1x10x96x1.size inb_S1x5x10x96x2_S1x1x10x96x1_0_1_0_0_1
abbrev rW20 : Rect S1x5x10x96x2 := Rect.unit (s := S1x5x10x96x2) ![0, 2, 0, 0, 0] S1x1x10x96x1.size inb_S1x5x10x96x2_S1x1x10x96x1_0_2_0_0_0
abbrev rW21 : Rect S1x5x10x96x2 := Rect.unit (s := S1x5x10x96x2) ![0, 2, 0, 0, 1] S1x1x10x96x1.size inb_S1x5x10x96x2_S1x1x10x96x1_0_2_0_0_1
abbrev rW30 : Rect S1x5x10x96x2 := Rect.unit (s := S1x5x10x96x2) ![0, 3, 0, 0, 0] S1x1x10x96x1.size inb_S1x5x10x96x2_S1x1x10x96x1_0_3_0_0_0
abbrev rW31 : Rect S1x5x10x96x2 := Rect.unit (s := S1x5x10x96x2) ![0, 3, 0, 0, 1] S1x1x10x96x1.size inb_S1x5x10x96x2_S1x1x10x96x1_0_3_0_0_1
abbrev rW40 : Rect S1x5x10x96x2 := Rect.unit (s := S1x5x10x96x2) ![0, 4, 0, 0, 0] S1x1x10x96x1.size inb_S1x5x10x96x2_S1x1x10x96x1_0_4_0_0_0
abbrev rW41 : Rect S1x5x10x96x2 := Rect.unit (s := S1x5x10x96x2) ![0, 4, 0, 0, 1] S1x1x10x96x1.size inb_S1x5x10x96x2_S1x1x10x96x1_0_4_0_0_1
abbrev rC00 : Rect S1x10x5x96x2 := Rect.unit (s := S1x10x5x96x2) ![0, 0, 0, 0, 0] S1x10x1x96x1.size inb_S1x10x5x96x2_S1x10x1x96x1_0_0_0_0_0
abbrev rC01 : Rect S1x10x5x96x2 := Rect.unit (s := S1x10x5x96x2) ![0, 0, 0, 0, 1] S1x10x1x96x1.size inb_S1x10x5x96x2_S1x10x1x96x1_0_0_0_0_1
abbrev rC10 : Rect S1x10x5x96x2 := Rect.unit (s := S1x10x5x96x2) ![0, 0, 1, 0, 0] S1x10x1x96x1.size inb_S1x10x5x96x2_S1x10x1x96x1_0_0_1_0_0
abbrev rC11 : Rect S1x10x5x96x2 := Rect.unit (s := S1x10x5x96x2) ![0, 0, 1, 0, 1] S1x10x1x96x1.size inb_S1x10x5x96x2_S1x10x1x96x1_0_0_1_0_1
abbrev rC20 : Rect S1x10x5x96x2 := Rect.unit (s := S1x10x5x96x2) ![0, 0, 2, 0, 0] S1x10x1x96x1.size inb_S1x10x5x96x2_S1x10x1x96x1_0_0_2_0_0
abbrev rC21 : Rect S1x10x5x96x2 := Rect.unit (s := S1x10x5x96x2) ![0, 0, 2, 0, 1] S1x10x1x96x1.size inb_S1x10x5x96x2_S1x10x1x96x1_0_0_2_0_1
abbrev rC30 : Rect S1x10x5x96x2 := Rect.unit (s := S1x10x5x96x2) ![0, 0, 3, 0, 0] S1x10x1x96x1.size inb_S1x10x5x96x2_S1x10x1x96x1_0_0_3_0_0
abbrev rC31 : Rect S1x10x5x96x2 := Rect.unit (s := S1x10x5x96x2) ![0, 0, 3, 0, 1] S1x10x1x96x1.size inb_S1x10x5x96x2_S1x10x1x96x1_0_0_3_0_1
abbrev rC40 : Rect S1x10x5x96x2 := Rect.unit (s := S1x10x5x96x2) ![0, 0, 4, 0, 0] S1x10x1x96x1.size inb_S1x10x5x96x2_S1x10x1x96x1_0_0_4_0_0
abbrev rC41 : Rect S1x10x5x96x2 := Rect.unit (s := S1x10x5x96x2) ![0, 0, 4, 0, 1] S1x10x1x96x1.size inb_S1x10x5x96x2_S1x10x1x96x1_0_0_4_0_1
/-- The real and the imaginary parts of bins 0 … 95 of a spectrum block, and its bins 96 … 480. -/
abbrev rX0 : Rect S1x1x10x481x2 := Rect.unit (s := S1x1x10x481x2) ![0, 0, 0, 0, 0] S1x1x10x96x1.size inb_S1x1x10x481x2_S1x1x10x96x1_0_0_0_0_0
abbrev rX1 : Rect S1x1x10x481x2 := Rect.unit (s := S1x1x10x481x2) ![0, 0, 0, 0, 1] S1x1x10x96x1.size inb_S1x1x10x481x2_S1x1x10x96x1_0_0_0_0_1
abbrev rT : Rect S1x1x10x481x2 := Rect.unit (s := S1x1x10x481x2) ![0, 0, 0, 96, 0] S1x1x10x385x2.size inb_S1x1x10x481x2_S1x1x10x385x2_0_0_0_96_0

/-! ## What the body stores, from the input blocks -/

section Body

variable (x0 : Vec F S1x1x10x481x2 .f32) (x1 : Vec F S1x5x10x96x2 .f32) (x2 : Vec F S1x10x5x96x2 .f32) (x3 : Vec F S1x10x96x1 .f32)

/-- The real and imaginary accumulators after tap 0, -/
def re0 : FVec F S1x10x96 .f32 := k0_pay8 (View.ld x1 rW00) (View.ld x1 rW01) (View.ld x2 rC00) (View.ld x2 rC01)
def im0 : FVec F S1x10x96 .f32 := k0_pay9 (View.ld x1 rW00) (View.ld x1 rW01) (View.ld x2 rC00) (View.ld x2 rC01)
/-- after taps 1 (imaginary) and 2 (real), -/
def im1 : FVec F S1x10x96 .f32 := k0_pay14 (im0 x1 x2) (k0_pay10 (View.ld x1 rW10)) (View.ld x1 rW11) (View.ld x2 rC10) (View.ld x2 rC11)
def re2 : FVec F S1x10x96 .f32 := k0_pay19 (re0 x1 x2) (k0_pay10 (View.ld x1 rW10)) (View.ld x1 rW11) (View.ld x2 rC10) (View.ld x2 rC11) (View.ld x1 rW20) (View.ld x1 rW21) (View.ld x2 rC20) (View.ld x2 rC21)
/-- and after tap 3. -/
def re3 : FVec F S1x10x96 .f32 := k0_pay25 (re2 x1 x2) (View.ld x1 rW30) (View.ld x1 rW31) (View.ld x2 rC30) (View.ld x2 rC31)
def im3 : FVec F S1x10x96 .f32 := k0_pay26 (im1 x1 x2) (k0_pay15 (View.ld x1 rW20)) (k0_pay18 (View.ld x2 rC21)) (k0_pay20 (View.ld x1 rW21) (View.ld x2 rC20)) (View.ld x1 rW30) (View.ld x1 rW31) (View.ld x2 rC30) (View.ld x2 rC31)

/-- The three stored pieces: the blended real parts, the blended imaginary parts, and the untouched bins. -/
def stRe : FVec F S1x1x10x96x1 .f32 :=
  k0_pay31 (k0_pay2 (View.ld x3 rA)) (k0_pay3 (View.ld x3 rA)) (re3 x1 x2) (k0_pay27 (View.ld x1 rW40)) (k0_pay28 (View.ld x1 rW41)) (k0_pay29 (View.ld x2 rC40)) (View.ld x2 rC41) (View.ld x0 rX0)
def stIm : FVec F S1x1x10x96x1 .f32 :=
  k0_pay32 (k0_pay2 (View.ld x3 rA)) (k0_pay3 (View.ld x3 rA)) (im3 x1 x2) (k0_pay27 (View.ld x1 rW40)) (k0_pay28 (View.ld x1 rW41)) (k0_pay29 (View.ld x2 rC40)) (View.ld x2 rC41) (View.ld x0 rX1)
def stTail : FVec F S1x1x10x385x2 .f32 := k0_pay1 (k0_pay33 (View.ld x0 rT))

/-- The result's staging buffer after the body: its three stores as pieces, last first. -/
def out4 : Vec F S1x1x10x481x2 .f32 :=
  View.canon [⟨rT, stTail x0⟩, ⟨rX1, stIm x0 x1 x2 x3⟩, ⟨rX0, stRe x0 x1 x2 x3⟩]

end Body

/-- Cut into single entries along the bin and the real/imaginary axes (ten frames deep), the three stores tile the
    block, so they cover it. -/
theorem cover4 (p0 : Vec F S1x1x10x385x2 .f32) (p1 p2 : Vec F S1x1x10x96x1 .f32) (y : S1x1x10x481x2.Idx) :
    ∃ pc ∈ ([⟨rT, p0⟩, ⟨rX1, p1⟩, ⟨rX0, p2⟩] : List (View.Piece (Elt F) S1x1x10x481x2 .f32)), y ∈ pc.1.set :=
  View.cover_of_tiledBy [⟨rT, p0⟩, ⟨rX1, p1⟩, ⟨rX0, p2⟩] ![1, 1, 10, 1, 1] (by sl_kernel_rfl) y

end Cert.KernelIdeal.Fr

end
-- ==== Proof.FrameDefsKI.lean ====
/-
  The deep-filter kernel's one region: what the region finds, and the pipeline's proof data.

  @main is three stretches of host operations and then the region. The host operations cut the first 96 frequency bins
  out of the spectrum, pad them with two zero frames in front and two behind along time, take the five windows of
  1000 frames that start at frames 0 … 4 of the padded array, and stack them (window 1's array); they also repeat the
  weight along the 96 bins (window 3's array). None of them writes an argument array.

  The grid is 32 × 100: point (b, s) stages batch b and the ten frames 10 s … 10 s + 9 of the spectrum (window 0,
  block [1, 1, 10, 481, 2]), of the stacked windows (window 1, block [1, 5, 10, 96, 2]), of the coefficients (window 2,
  block [1, 10, 5, 96, 2]) and of the weight (window 3, block [1, 10, 96, 1]), and writes back the result's block
  (window 4, block [1, 1, 10, 481, 2]).

  The proof data of the pipeline: every input's staging buffer holds its block at every point, and the result's holds
  what the body's three stores leave there.
-/
import proofs.«155813_j30185030156317_1_alg».proof.Proof.BodyKI
import proofs.«155813_j30185030156317_1_alg».proof.Proof.Gen.KernelIdeal.Launch
import proofs.«155813_j30185030156317_1_alg».proof.Proof.Gen.KernelIdeal.Skeleton
import proofs.«155813_j30185030156317_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is those stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, for any proof data over these arrays whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run -/

/-- A run that ends with every staged argument array at the proof data's final contents and every other buffer as
    the region found it leaves the three argument arrays as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).2 main_arg2 (Pipeline.mem_restRefs_of main_arg2 (by decide) (by decide))).trans (V_main_arg2 m c)⟩) h

/-! ## The proof data -/

/-- On core `c`: the arrays as the region finds them; after the body at point `t` each input's buffer at its block and
    the result's at the three stores over the input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.KernelIdeal.Fr

end
-- ==== Proof.FrameRunKI.lean ====
/-
  The deep-filter kernel's region runs: the body's triple, the obligation at every grid point, and the frame.

  The body reads its four input blocks through literal rectangles and stores three pieces that cover the result's
  block; the loads it makes of the result's own buffer before each store are never used. So on whole staging
  buffers, the inputs' at any contents and the result's at anything, it ends with the inputs' unchanged and the
  result's at the canonical array of its three stores. Every grid point fetches all four inputs and writes the result
  back, so the pipeline's run leaves the argument arrays as launched.
-/
import proofs.«155813_j30185030156317_1_alg».proof.Proof.FrameDefsKI

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
/-- The body on whole staging buffers: the inputs' at contents `x0 … x3`, the result's at anything; it ends with the
    inputs' as they were and the result's at `out4` of them. -/
theorem sound_kernel (c : Dev nD) (E : Set ℕ) (i : grid0.Coords)
    (arg2 : Memref sig .tc .vmem S1x1x10x481x2 .f32) (harg2 : arg2.IsWhole) (arg3 : Memref sig .tc .vmem S1x5x10x96x2 .f32) (harg3 : arg3.IsWhole)
    (arg4 : Memref sig .tc .vmem S1x10x5x96x2 .f32) (harg4 : arg4.IsWhole) (arg5 : Memref sig .tc .vmem S1x10x96x1 .f32) (harg5 : arg5.IsWhole)
    (arg6 : Memref sig .tc .vmem S1x1x10x481x2 .f32) (harg6 : arg6.IsWhole)
    (x0 : Vec F S1x1x10x481x2 .f32) (x1 : Vec F S1x5x10x96x2 .f32) (x2 : Vec F S1x10x5x96x2 .f32) (x3 : Vec F S1x10x96x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out4 x0 x1 x2 x3)) -∗ K ⟨⟩))
      ⊢ wp frame (wpE (defs₀ (F := F)) Variants.none c none) E (cc0__df_kernel i arg2 harg2 arg3 harg3 arg4 harg4 arg5 harg5 arg6 harg6) K := by
  simp only [cc0__df_kernel_eq_skeleton]; unfold cc0__df_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _ _ _)

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main ends, and in every final state each array of the pipeline is at what the proof
    data computes and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main ends, nothing faults, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Fr

end
-- ==== Proof.Spec.lean ====
/-
  The deep-filtering step as ONE function of the argument arrays, at the extended reals.

  Arrays: the spectrum `x` of shape [32, 1, 1000, 481, 2] (batch, one channel, time, frequency bin, real/imaginary),
  the stack `w` of five time-shifted copies of its first 96 bins, shape [32, 5, 1000, 96, 2] (entry (b, i, t, f, ·)
  is the zero-padded spectrum at time t + i - 2), the filter coefficients `c` of shape [32, 1000, 5, 96, 2] and the
  blending weight `a` of shape [32, 1000, 1].

  For a bin f < 96 the filtered value is the complex sum over the five taps of w · c,
      re = ∑ i, (w_re i · c_re i − w_im i · c_im i),   im = ∑ i, (w_im i · c_re i + w_re i · c_im i),
  and the result is the blend  filtered · a + x · (1 − a); a bin f ≥ 96 keeps the spectrum's value.
-/
import Idealize.ShloMosaic.PureOps.Ideal
import Idealize.ShloMosaic.Lib.ValueIdx

noncomputable section

namespace Cert.DeepFilter

open Idealize.ShloMosaic Idealize.ShloMosaic.ValueIdx

/-- The spectrum's shape, the stacked windows', the coefficients' and the weight's. -/
abbrev XS : Shape := ⟨5, ![32, 1, 1000, 481, 2]⟩
abbrev WS : Shape := ⟨5, ![32, 5, 1000, 96, 2]⟩
abbrev CS : Shape := ⟨5, ![32, 1000, 5, 96, 2]⟩
abbrev AS : Shape := ⟨3, ![32, 1000, 1]⟩

/-- The float word of 1. -/
abbrev one : EReal := Ideal.ofBits .f32 0x3F800000#32

variable (x : XS.Idx → EReal) (w : WS.Idx → EReal) (c : CS.Idx → EReal) (a : AS.Idx → EReal)

/-- Tap `i`'s contribution to the real part at (b, t, f): Re(w · c). -/
def reTap (b : Fin 32) (t : Fin 1000) (f : Fin 96) (i : Fin 5) : EReal :=
  w (ix5 b i t f 0) * c (ix5 b t i f 0) - w (ix5 b i t f 1) * c (ix5 b t i f 1)

/-- Tap `i`'s contribution to the imaginary part at (b, t, f): Im(w · c). -/
def imTap (b : Fin 32) (t : Fin 1000) (f : Fin 96) (i : Fin 5) : EReal :=
  w (ix5 b i t f 1) * c (ix5 b t i f 0) + w (ix5 b i t f 0) * c (ix5 b t i f 1)

/-- The filtered value's component `ri` at (b, t, f): the sum of the five taps. -/
def filt (b : Fin 32) (t : Fin 1000) (f : Fin 96) (ri : Fin 2) : EReal :=
  if ri.val = 0 then ∑ i : Fin 5, reTap w c b t f i else ∑ i : Fin 5, imTap w c b t f i

/-- The result at explicit coordinates. -/
def Gat (b : Fin 32) (z : Fin 1) (t : Fin 1000) (f : Fin 481) (ri : Fin 2) : EReal :=
  if h : f.val < 96 then
    filt w c b t ⟨f.val, h⟩ ri * a (ix3 b t 0) + x (ix5 b z t f ri) * (one - a (ix3 b t 0))
  else x (ix5 b z t f ri)

/-- The result array. -/
def G : XS.Idx → EReal := fun j => Gat x w c a (j 0) (j 1) (j 2) (j 3) (j 4)

theorem G_ix5 (b : Fin 32) (z : Fin 1) (t : Fin 1000) (f : Fin 481) (ri : Fin 2) :
    G x w c a (ix5 b z t f ri) = Gat x w c a b z t f ri := rfl

/-- Five terms added one after the other onto zero are their sum. -/
theorem acc5 (g : Fin 5 → EReal) : ((((0 + g 0) + g 1) + g 2) + g 3) + g 4 = ∑ i : Fin 5, g i := by
  rw [Fin.sum_univ_five, zero_add]

end Cert.DeepFilter

end
-- ==== Proof.KernelBlock.lean ====
/-
  The deep-filter kernel's body at one grid point, read entry by entry on the extended reals.

  The body's input blocks are x0 (spectrum, [1, 1, 10, 481, 2]), x1 (the five stacked windows, [1, 5, 10, 96, 2]),
  x2 (coefficients, [1, 10, 5, 96, 2]) and x3 (weight, [1, 10, 96, 1]). At frame r, bin f < 96 and component ri the
  block it leaves holds
      (∑ over the five taps of Re resp. Im of x1 · x2) · x3 + x0 · (1 − x3),
  the taps added one after the other onto zero, and at a bin f ≥ 96 it holds x0's entry. The three stores are read
  through their unit axes' casts; together they are one function of the block index (`blockFn`).
-/
import proofs.«155813_j30185030156317_1_alg».proof.Proof.BodyKI
import proofs.«155813_j30185030156317_1_alg».proof.Proof.Spec
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Val

open Cert.KernelIdeal Cert.KernelIdeal.Gen Cert.KernelIdeal.Fr Cert.DeepFilter
open Idealize.ShloMosaic Idealize.ShloMosaic.ValueIdx

/-! ## Casts that drop or add unit axes, read at an entry -/

theorem cast_a (v : Vec Ideal S1x10x96x1 .f32) (r : Fin 10) (f : Fin 96) :
    shapeCast S1x10x96 v shapeCasts_S1x10x96x1_S1x10x96 (ix3 0 r f) = v (ix4 0 r f 0) :=
  shapeCast_apply v shapeCasts_S1x10x96x1_S1x10x96 (ix3 0 r f) (ix4 0 r f 0) (by
    rw [Shape.rowMajor_val_four, Shape.rowMajor_val_three]
    show ((((0 : Nat) * 10 + r.val) * 96 + f.val) * 1 + 0) = ((0 * 10 + r.val) * 96 + f.val)
    omega)

theorem cast_w (v : Vec Ideal S1x1x10x96x1 .f32) (r : Fin 10) (f : Fin 96) :
    shapeCast S1x10x96 v shapeCasts_S1x1x10x96x1_S1x10x96 (ix3 0 r f) = v (ix5 0 0 r f 0) :=
  shapeCast_apply v shapeCasts_S1x1x10x96x1_S1x10x96 (ix3 0 r f) (ix5 0 0 r f 0) (by
    rw [Shape.rowMajor_val_five, Shape.rowMajor_val_three]
    show (((((0 : Nat) * 1 + 0) * 10 + r.val) * 96 + f.val) * 1 + 0) = ((0 * 10 + r.val) * 96 + f.val)
    omega)

theorem cast_c (v : Vec Ideal S1x10x1x96x1 .f32) (r : Fin 10) (f : Fin 96) :
    shapeCast S1x10x96 v shapeCasts_S1x10x1x96x1_S1x10x96 (ix3 0 r f) = v (ix5 0 r 0 f 0) :=
  shapeCast_apply v shapeCasts_S1x10x1x96x1_S1x10x96 (ix3 0 r f) (ix5 0 r 0 f 0) (by
    rw [Shape.rowMajor_val_five, Shape.rowMajor_val_three]
    show (((((0 : Nat) * 10 + r.val) * 1 + 0) * 96 + f.val) * 1 + 0) = ((0 * 10 + r.val) * 96 + f.val)
    omega)

theorem cast_o (v : FVec Ideal S1x10x96 .f32) (z0 z1 : Fin 1) (r : Fin 10) (f : Fin 96) (z4 : Fin 1) :
    shapeCast S1x1x10x96x1 v shapeCasts_S1x10x96_S1x1x10x96x1 (ix5 z0 z1 r f z4) = v (ix3 0 r f) :=
  shapeCast_apply v shapeCasts_S1x10x96_S1x1x10x96x1 (ix5 z0 z1 r f z4) (ix3 0 r f) (by
    rw [Shape.rowMajor_val_five, Shape.rowMajor_val_three]
    show ((0 * 10 + r.val) * 96 + f.val) = ((((z0.val * 1 + z1.val) * 10 + r.val) * 96 + f.val) * 1 + z4.val)
    have h0 := z0.isLt; have h1 := z1.isLt; have h4 := z4.isLt
    omega)

/-! ## Where a load's rectangle sits in its block -/

theorem idxA (r : Fin 10) (f : Fin 96) : rA.idx (ix4 0 r f 0) = ix4 0 r f 0 := by
  funext a; apply Fin.ext
  match a with
  | ⟨0, _⟩ => show 0 + 1 * 0 = 0; omega
  | ⟨1, _⟩ => show 0 + 1 * r.val = r.val; omega
  | ⟨2, _⟩ => show 0 + 1 * f.val = f.val; omega
  | ⟨3, _⟩ => show 0 + 1 * 0 = 0; omega

/-- Tap `i`, component `J` of the stacked windows' block. -/
theorem idxW (i J : Nat) (hi : i < 5) (hJ : J < 2)
    (inb : ∀ a, (![0, i, 0, 0, J] : Fin 5 → Nat) a + S1x1x10x96x1.size a ≤ S1x5x10x96x2.size a) (r : Fin 10) (f : Fin 96) :
    (Rect.unit (s := S1x5x10x96x2) ![0, i, 0, 0, J] S1x1x10x96x1.size inb).idx (ix5 0 0 r f 0) = ix5 0 ⟨i, hi⟩ r f ⟨J, hJ⟩ := by
  funext a; apply Fin.ext
  match a with
  | ⟨0, _⟩ => show 0 + 1 * 0 = 0; omega
  | ⟨1, _⟩ => show i + 1 * 0 = i; omega
  | ⟨2, _⟩ => show 0 + 1 * r.val = r.val; omega
  | ⟨3, _⟩ => show 0 + 1 * f.val = f.val; omega
  | ⟨4, _⟩ => show J + 1 * 0 = J; omega

/-- Tap `i`, component `J` of the coefficients' block. -/
theorem idxC (i J : Nat) (hi : i < 5) (hJ : J < 2)
    (inb : ∀ a, (![0, 0, i, 0, J] : Fin 5 → Nat) a + S1x10x1x96x1.size a ≤ S1x10x5x96x2.size a) (r : Fin 10) (f : Fin 96) :
    (Rect.unit (s := S1x10x5x96x2) ![0, 0, i, 0, J] S1x10x1x96x1.size inb).idx (ix5 0 r 0 f 0) = ix5 0 r ⟨i, hi⟩ f ⟨J, hJ⟩ := by
  funext a; apply Fin.ext
  match a with
  | ⟨0, _⟩ => show 0 + 1 * 0 = 0; omega
  | ⟨1, _⟩ => show 0 + 1 * r.val = r.val; omega
  | ⟨2, _⟩ => show i + 1 * 0 = i; omega
  | ⟨3, _⟩ => show 0 + 1 * f.val = f.val; omega
  | ⟨4, _⟩ => show J + 1 * 0 = J; omega

/-- Component `J` of bins 0 … 95 of a spectrum block. -/
theorem idxX (J : Nat) (hJ : J < 2)
    (inb : ∀ a, (![0, 0, 0, 0, J] : Fin 5 → Nat) a + S1x1x10x96x1.size a ≤ S1x1x10x481x2.size a) (z0 z1 : Fin 1) (r : Fin 10) (f : Fin 96) (z4 : Fin 1) :
    (Rect.unit (s := S1x1x10x481x2) ![0, 0, 0, 0, J] S1x1x10x96x1.size inb).idx (ix5 z0 z1 r f z4)
      = ix5 0 0 r ⟨f.val, by have := f.isLt; omega⟩ ⟨J, hJ⟩ := by
  funext a; apply Fin.ext
  have h0 := z0.isLt; have h1 := z1.isLt; have h4 := z4.isLt
  match a with
  | ⟨0, _⟩ => show 0 + 1 * z0.val = 0; omega
  | ⟨1, _⟩ => show 0 + 1 * z1.val = 0; omega
  | ⟨2, _⟩ => show 0 + 1 * r.val = r.val; omega
  | ⟨3, _⟩ => show 0 + 1 * f.val = f.val; omega
  | ⟨4, _⟩ => show J + 1 * z4.val = J; omega

/-- Bins 96 … 480. -/
theorem idxT (z0 z1 : Fin 1) (r : Fin 10) (g : Fin 385) (ri : Fin 2) :
    rT.idx (ix5 z0 z1 r g ri) = ix5 0 0 r ⟨96 + g.val, by have := g.isLt; omega⟩ ri := by
  funext a; apply Fin.ext
  have h0 := z0.isLt; have h1 := z1.isLt
  match a with
  | ⟨0, _⟩ => show 0 + 1 * z0.val = 0; omega
  | ⟨1, _⟩ => show 0 + 1 * z1.val = 0; omega
  | ⟨2, _⟩ => show 0 + 1 * r.val = r.val; omega
  | ⟨3, _⟩ => show 96 + 1 * g.val = 96 + g.val; omega
  | ⟨4, _⟩ => show 0 + 1 * ri.val = ri.val; omega

/-! ## A load, cast to [1, 10, 96], read at an entry -/

theorem ldA (x3 : Vec Ideal S1x10x96x1 .f32) (r : Fin 10) (f : Fin 96) :
    shapeCast (s := S1x10x96x1) S1x10x96 (View.ld x3 rA) shapeCasts_S1x10x96x1_S1x10x96 (ix3 0 r f) = x3 (ix4 0 r f 0) :=
  (cast_a (View.ld x3 rA) r f).trans (congrArg x3 (idxA r f))

theorem ldW (x1 : Vec Ideal S1x5x10x96x2 .f32) (i J : Nat) (hi : i < 5) (hJ : J < 2)
    (inb : ∀ a, (![0, i, 0, 0, J] : Fin 5 → Nat) a + S1x1x10x96x1.size a ≤ S1x5x10x96x2.size a) (r : Fin 10) (f : Fin 96) :
    shapeCast (s := S1x1x10x96x1) S1x10x96 (View.ld x1 (Rect.unit (s := S1x5x10x96x2) ![0, i, 0, 0, J] S1x1x10x96x1.size inb)) shapeCasts_S1x1x10x96x1_S1x10x96 (ix3 0 r f)
      = x1 (ix5 0 ⟨i, hi⟩ r f ⟨J, hJ⟩) :=
  (cast_w (View.ld x1 (Rect.unit (s := S1x5x10x96x2) ![0, i, 0, 0, J] S1x1x10x96x1.size inb)) r f).trans (congrArg x1 (idxW i J hi hJ inb r f))

theorem ldC (x2 : Vec Ideal S1x10x5x96x2 .f32) (i J : Nat) (hi : i < 5) (hJ : J < 2)
    (inb : ∀ a, (![0, 0, i, 0, J] : Fin 5 → Nat) a + S1x10x1x96x1.size a ≤ S1x10x5x96x2.size a) (r : Fin 10) (f : Fin 96) :
    shapeCast (s := S1x10x1x96x1) S1x10x96 (View.ld x2 (Rect.unit (s := S1x10x5x96x2) ![0, 0, i, 0, J] S1x10x1x96x1.size inb)) shapeCasts_S1x10x1x96x1_S1x10x96 (ix3 0 r f)
      = x2 (ix5 0 r ⟨i, hi⟩ f ⟨J, hJ⟩) :=
  (cast_c (View.ld x2 (Rect.unit (s := S1x10x5x96x2) ![0, 0, i, 0, J] S1x10x1x96x1.size inb)) r f).trans (congrArg x2 (idxC i J hi hJ inb r f))

theorem ldX (x0 : Vec Ideal S1x1x10x481x2 .f32) (J : Nat) (hJ : J < 2)
    (inb : ∀ a, (![0, 0, 0, 0, J] : Fin 5 → Nat) a + S1x1x10x96x1.size a ≤ S1x1x10x481x2.size a) (r : Fin 10) (f : Fin 96) :
    shapeCast (s := S1x1x10x96x1) S1x10x96 (View.ld x0 (Rect.unit (s := S1x1x10x481x2) ![0, 0, 0, 0, J] S1x1x10x96x1.size inb)) shapeCasts_S1x1x10x96x1_S1x10x96 (ix3 0 r f)
      = x0 (ix5 0 0 r ⟨f.val, by have := f.isLt; omega⟩ ⟨J, hJ⟩) :=
  (cast_w (View.ld x0 (Rect.unit (s := S1x1x10x481x2) ![0, 0, 0, 0, J] S1x1x10x96x1.size inb)) r f).trans (congrArg x0 (idxX J hJ inb 0 0 r f 0))

/-! ## The block the body leaves, as one function of the block index -/

section Block

variable (x0 : Vec Ideal S1x1x10x481x2 .f32) (x1 : Vec Ideal S1x5x10x96x2 .f32) (x2 : Vec Ideal S1x10x5x96x2 .f32) (x3 : Vec Ideal S1x10x96x1 .f32)

/-- Tap `i`'s real and imaginary contributions at frame `r`, bin `f` of the block. -/
def bRe (r : Fin 10) (f : Fin 96) (i : Fin 5) : EReal :=
  x1 (ix5 0 i r f 0) * x2 (ix5 0 r i f 0) - x1 (ix5 0 i r f 1) * x2 (ix5 0 r i f 1)
def bIm (r : Fin 10) (f : Fin 96) (i : Fin 5) : EReal :=
  x1 (ix5 0 i r f 1) * x2 (ix5 0 r i f 0) + x1 (ix5 0 i r f 0) * x2 (ix5 0 r i f 1)

/-- The block's entry at frame `r`, bin `f`, component `ri`. -/
def bAt (r : Fin 10) (f : Fin 481) (ri : Fin 2) : EReal :=
  if h : f.val < 96 then
    (if ri.val = 0 then ∑ i : Fin 5, bRe x1 x2 r ⟨f.val, h⟩ i else ∑ i : Fin 5, bIm x1 x2 r ⟨f.val, h⟩ i) * x3 (ix4 0 r ⟨f.val, h⟩ 0)
      + x0 (ix5 0 0 r f ri) * (one - x3 (ix4 0 r ⟨f.val, h⟩ 0))
  else x0 (ix5 0 0 r f ri)

def blockFn : S1x1x10x481x2.Idx → EReal := fun y => bAt x0 x1 x2 x3 (y 2) (y 3) (y 4)

/-- The store of the real parts. -/
theorem stRe_apply (z0 z1 : Fin 1) (r : Fin 10) (f : Fin 96) (z4 : Fin 1) :
    stRe x0 x1 x2 x3 (ix5 z0 z1 r f z4)
      = (∑ i : Fin 5, bRe x1 x2 r f i) * x3 (ix4 0 r f 0)
        + x0 (ix5 0 0 r ⟨f.val, by have := f.isLt; omega⟩ 0) * (one - x3 (ix4 0 r f 0)) := by
  rw [← acc5]
  unfold stRe k0_pay31
  rw [cast_o]
  simp (disch := decide) only [re3, re2, re0, k0_pay25, k0_pay19, k0_pay8, k0_pay2, k0_pay3, k0_pay4, k0_pay5, k0_pay6, k0_pay7, k0_pay10, k0_pay11, k0_pay12, k0_pay13, k0_pay15, k0_pay16, k0_pay17, k0_pay18, k0_pay21, k0_pay22, k0_pay23, k0_pay24, k0_pay27, k0_pay28, k0_pay29, k0_pay30,
    addf_apply, mulf_apply, subf_apply, broadcast_apply, bRe]
  simp only [Ideal.ofBits_def, Ideal.ofBits_zero_f32]
  rw [ldA x3 r f, ldW x1 0 0 (by decide) (by decide) _ r f, ldW x1 0 1 (by decide) (by decide) _ r f,
    ldW x1 1 0 (by decide) (by decide) _ r f, ldW x1 1 1 (by decide) (by decide) _ r f, ldW x1 2 0 (by decide) (by decide) _ r f,
    ldW x1 2 1 (by decide) (by decide) _ r f, ldW x1 3 0 (by decide) (by decide) _ r f, ldW x1 3 1 (by decide) (by decide) _ r f,
    ldW x1 4 0 (by decide) (by decide) _ r f, ldW x1 4 1 (by decide) (by decide) _ r f, ldC x2 0 0 (by decide) (by decide) _ r f,
    ldC x2 0 1 (by decide) (by decide) _ r f, ldC x2 1 0 (by decide) (by decide) _ r f, ldC x2 1 1 (by decide) (by decide) _ r f,
    ldC x2 2 0 (by decide) (by decide) _ r f, ldC x2 2 1 (by decide) (by decide) _ r f, ldC x2 3 0 (by decide) (by decide) _ r f,
    ldC x2 3 1 (by decide) (by decide) _ r f, ldC x2 4 0 (by decide) (by decide) _ r f, ldC x2 4 1 (by decide) (by decide) _ r f,
    ldX x0 0 (by decide) _ r f]
  rfl

/-- The store of the imaginary parts. -/
theorem stIm_apply (z0 z1 : Fin 1) (r : Fin 10) (f : Fin 96) (z4 : Fin 1) :
    stIm x0 x1 x2 x3 (ix5 z0 z1 r f z4)
      = (∑ i : Fin 5, bIm x1 x2 r f i) * x3 (ix4 0 r f 0)
        + x0 (ix5 0 0 r ⟨f.val, by have := f.isLt; omega⟩ 1) * (one - x3 (ix4 0 r f 0)) := by
  rw [← acc5]
  unfold stIm k0_pay32
  rw [cast_o]
  simp (disch := decide) only [im3, im1, im0, k0_pay26, k0_pay14, k0_pay9, k0_pay20, k0_pay2, k0_pay3, k0_pay4, k0_pay5, k0_pay6, k0_pay7, k0_pay10, k0_pay11, k0_pay12, k0_pay13, k0_pay15, k0_pay16, k0_pay17, k0_pay18, k0_pay21, k0_pay22, k0_pay23, k0_pay24, k0_pay27, k0_pay28, k0_pay29, k0_pay30,
    addf_apply, mulf_apply, subf_apply, broadcast_apply, bIm]
  simp only [Ideal.ofBits_def, Ideal.ofBits_zero_f32]
  rw [ldA x3 r f, ldW x1 0 0 (by decide) (by decide) _ r f, ldW x1 0 1 (by decide) (by decide) _ r f,
    ldW x1 1 0 (by decide) (by decide) _ r f, ldW x1 1 1 (by decide) (by decide) _ r f, ldW x1 2 0 (by decide) (by decide) _ r f,
    ldW x1 2 1 (by decide) (by decide) _ r f, ldW x1 3 0 (by decide) (by decide) _ r f, ldW x1 3 1 (by decide) (by decide) _ r f,
    ldW x1 4 0 (by decide) (by decide) _ r f, ldW x1 4 1 (by decide) (by decide) _ r f, ldC x2 0 0 (by decide) (by decide) _ r f,
    ldC x2 0 1 (by decide) (by decide) _ r f, ldC x2 1 0 (by decide) (by decide) _ r f, ldC x2 1 1 (by decide) (by decide) _ r f,
    ldC x2 2 0 (by decide) (by decide) _ r f, ldC x2 2 1 (by decide) (by decide) _ r f, ldC x2 3 0 (by decide) (by decide) _ r f,
    ldC x2 3 1 (by decide) (by decide) _ r f, ldC x2 4 0 (by decide) (by decide) _ r f, ldC x2 4 1 (by decide) (by decide) _ r f,
    ldX x0 1 (by decide) _ r f]
  rfl

/-- The store of bins 96 … 480 writes back what was loaded. -/
theorem stTail_eq : stTail x0 = View.ld x0 rT := by
  unfold stTail k0_pay1 k0_pay33
  exact shapeCast_shapeCast _ _ _

theorem blockFn_ix5 (z0 z1 : Fin 1) (r : Fin 10) (f : Fin 481) (ri : Fin 2) :
    blockFn x0 x1 x2 x3 (ix5 z0 z1 r f ri) = bAt x0 x1 x2 x3 r f ri := rfl

/-- THE BLOCK AFTER THE BODY is `blockFn` of the input blocks: each of the three stores holds it at the store's own
    entries, and the stores cover the block. -/
theorem out4_eq : out4 x0 x1 x2 x3 = blockFn x0 x1 x2 x3 := by
  funext y
  unfold out4
  refine View.canon_apply_of_pieces (Val := Elt Ideal) (blockFn x0 x1 x2 x3) _ ?_ y (cover4 _ _ _ y)
  intro p hp
  simp only [List.mem_cons, List.not_mem_nil, or_false] at hp
  rcases hp with rfl | rfl | rfl
  · intro x
    obtain ⟨z0, z1, r, g, ri, rfl⟩ : ∃ (z0 z1 : Fin 1) (r : Fin 10) (g : Fin 385) (ri : Fin 2), x = ix5 z0 z1 r g ri :=
      ⟨x 0, x 1, x 2, x 3, x 4, eq_ix5 x⟩
    show stTail x0 (ix5 z0 z1 r g ri) = blockFn x0 x1 x2 x3 (rT.idx (ix5 z0 z1 r g ri))
    rw [stTail_eq, idxT, blockFn_ix5]
    show x0 (rT.idx (ix5 z0 z1 r g ri)) = _
    rw [idxT]
    unfold bAt
    rw [dif_neg (by show ¬ (96 + g.val < 96); omega)]
  · intro x
    obtain ⟨z0, z1, r, f, z4, rfl⟩ : ∃ (z0 z1 : Fin 1) (r : Fin 10) (f : Fin 96) (z4 : Fin 1), x = ix5 z0 z1 r f z4 :=
      ⟨x 0, x 1, x 2, x 3, x 4, eq_ix5 x⟩
    show stIm x0 x1 x2 x3 (ix5 z0 z1 r f z4) = blockFn x0 x1 x2 x3 (rX1.idx (ix5 z0 z1 r f z4))
    rw [stIm_apply, show rX1.idx (ix5 z0 z1 r f z4) = ix5 0 0 r ⟨f.val, by have := f.isLt; omega⟩ 1 from idxX 1 (by decide) _ z0 z1 r f z4, blockFn_ix5]
    unfold bAt
    rw [dif_pos (show f.val < 96 from f.isLt), if_neg (by decide)]
  · intro x
    obtain ⟨z0, z1, r, f, z4, rfl⟩ : ∃ (z0 z1 : Fin 1) (r : Fin 10) (f : Fin 96) (z4 : Fin 1), x = ix5 z0 z1 r f z4 :=
      ⟨x 0, x 1, x 2, x 3, x 4, eq_ix5 x⟩
    show stRe x0 x1 x2 x3 (ix5 z0 z1 r f z4) = blockFn x0 x1 x2 x3 (rX0.idx (ix5 z0 z1 r f z4))
    rw [stRe_apply, show rX0.idx (ix5 z0 z1 r f z4) = ix5 0 0 r ⟨f.val, by have := f.isLt; omega⟩ 0 from idxX 0 (by decide) _ z0 z1 r f z4, blockFn_ix5]
    unfold bAt
    rw [dif_pos (show f.val < 96 from f.isLt), if_pos (show ((0 : Fin 2)).val = 0 from rfl)]

/-- When the four blocks are the arrays `X W C A` read at batch `b` and frames `10 s + r` (the weight's block the weight
    repeated along the bins), the block function is the specification read there. -/
theorem bAt_eq_Gat (X : XS.Idx → EReal) (W : WS.Idx → EReal) (C : CS.Idx → EReal) (A : AS.Idx → EReal)
    (b : Fin 32) (tm : Fin 10 → Fin 1000)
    (h0 : ∀ (r : Fin 10) (f : Fin 481) (ri : Fin 2), x0 (ix5 0 0 r f ri) = X (ix5 b 0 (tm r) f ri))
    (h1 : ∀ (i : Fin 5) (r : Fin 10) (f : Fin 96) (ri : Fin 2), x1 (ix5 0 i r f ri) = W (ix5 b i (tm r) f ri))
    (h2 : ∀ (r : Fin 10) (i : Fin 5) (f : Fin 96) (ri : Fin 2), x2 (ix5 0 r i f ri) = C (ix5 b (tm r) i f ri))
    (h3 : ∀ (r : Fin 10) (f : Fin 96), x3 (ix4 0 r f 0) = A (ix3 b (tm r) 0))
    (r : Fin 10) (f : Fin 481) (ri : Fin 2) :
    bAt x0 x1 x2 x3 r f ri = Gat X W C A b 0 (tm r) f ri := by
  unfold bAt Gat filt
  simp only [bRe, bIm, reTap, imTap, h0, h1, h2, h3]

end Block

end Cert.KernelIdeal.Val

end
-- ==== Proof.StackK.lean ====
/-
  The five stacked time windows of the spectrum, as the kernel's host operations build them.

  Bins 0 … 95 of the spectrum, [32, 1000, 96, 2] after dropping the channel axis, are padded with two zero frames in
  front and two behind along time, [32, 1004, 96, 2]; window i is the 1000 frames that start at padded frame i, so its
  frame t is the spectrum's frame t + i − 2 (zero outside 0 … 999); the five windows are joined along a new axis 1.
-/
import proofs.«155813_j30185030156317_1_alg».proof.Proof.Gen.KernelIdeal

noncomputable section

namespace Cert.KernelIdeal.Stack

open Cert.KernelIdeal Cert.KernelIdeal.Gen Idealize.ShloMosaic

variable {F : FTy → Type} [FloatOps F]

/-- The first 96 bins, padded along time. -/
def padded (x0 : FVec F S32x1x1000x481x2 .f32) : FVec F S32x1004x96x2 .f32 :=
  pad S32x1004x96x2 ![0, 2, 0, 0] ![0, 2, 0, 0] ![0, 0, 0, 0]
    (shapeCast S32x1000x96x2
      (extractStridedSlice S32x1x1000x96x2 ![0, 0, 0, 0, 0] x0 slices_S32x1x1000x481x2_S32x1x1000x96x2_0_0_0_0_0)
      shapeCasts_S32x1x1000x96x2_S32x1000x96x2)
    (sitofp (F := F) .f32 (constantI S_ 32 0#32)) pads_S32x1000x96x2_S32x1004x96x2_000_220_000_000 h_S_

/-- The window of 1000 frames at offsets `off` of the padded array, with the new axis 1. -/
def window (x0 : FVec F S32x1x1000x481x2 .f32) (off : Fin 4 → Nat) (h : S32x1004x96x2.Slices off S32x1000x96x2) :
    FVec F S32x1x1000x96x2 .f32 :=
  broadcastInDim S32x1x1000x96x2 ![0, 2, 3, 4] bcast_S32x1000x96x2_S32x1x1000x96x2_0_2_3_4
    (extractStridedSlice S32x1000x96x2 off (padded x0) h)

/-- The five windows joined along axis 1. -/
def stackK (x0 : FVec F S32x1x1000x481x2 .f32) : FVec F S32x5x1000x96x2 .f32 :=
  concatenate S32x5x1000x96x2 1
    [⟨S32x1x1000x96x2, window x0 ![0, 0, 0, 0] slices_S32x1004x96x2_S32x1000x96x2_0_0_0_0⟩,
     ⟨S32x1x1000x96x2, window x0 ![0, 1, 0, 0] slices_S32x1004x96x2_S32x1000x96x2_0_1_0_0⟩,
     ⟨S32x1x1000x96x2, window x0 ![0, 2, 0, 0] slices_S32x1004x96x2_S32x1000x96x2_0_2_0_0⟩,
     ⟨S32x1x1000x96x2, window x0 ![0, 3, 0, 0] slices_S32x1004x96x2_S32x1000x96x2_0_3_0_0⟩,
     ⟨S32x1x1000x96x2, window x0 ![0, 4, 0, 0] slices_S32x1004x96x2_S32x1000x96x2_0_4_0_0⟩]
    concatenates_S32x1x1000x96x2_S32x1x1000x96x2_S32x1x1000x96x2_S32x1x1000x96x2_S32x1x1000x96x2_S32x5x1000x96x2_d1

end Cert.KernelIdeal.Stack

end
-- ==== Proof.KernelValue.lean ====
/-
  The deep-filter kernel's result array after the run: the specification of the argument arrays.

  Grid point t = (b, s) of the 32 × 100 grid stages, from each window's array, the block that starts at batch b and frame
  10 s: the index maps are (b, 0, s, 0, 0) for the spectrum, the stacked windows and the result, (b, s, 0, 0, 0) for the
  coefficients and (b, s, 0, 0) for the repeated weight. So entry (0, ·, r, ·, ·) of a block is entry (b, ·, 10 s + r, ·, ·)
  of its array, what point t writes back is block t of the specification `G` of the arrays, and since the 3200 blocks
  fill the result array it ends holding `G`. The weight's window reads the weight repeated along the 96 bins, whose
  entry (b, t, f, 0) is the weight's entry (b, t, 0).
-/
import proofs.«155813_j30185030156317_1_alg».proof.Proof.FrameDefsKI
import proofs.«155813_j30185030156317_1_alg».proof.Proof.KernelBlock
import proofs.«155813_j30185030156317_1_alg».proof.Proof.Spec
import Idealize.ShloMosaic.Lib.Pipeline.Value
import proofs.«155813_j30185030156317_1_alg».proof.Proof.StackK
import proofs.«155813_j30185030156317_1_alg».proof.Proof.LibNary5
import Idealize.ShloMosaic.Lib.StableHlo.Run

set_option maxRecDepth 16384

noncomputable section

namespace Cert.KernelIdeal.Val

open Cert.KernelIdeal Cert.KernelIdeal.Gen Cert.KernelIdeal.Fr Cert.DeepFilter
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## The grid point's batch and frames -/

theorem word32 (n : Nat) (h : n < 4294967296) : (BitVec.ofNat 32 n).toNat = n := by
  rw [BitVec.toNat_ofNat]; exact Nat.mod_eq_of_lt h

/-- Point `t`'s batch and its tile of ten frames. -/
def pb (t : Fin cfg0.N) : Fin 32 := ⟨(grid0.coords t 0).val, (grid0.coords t 0).isLt⟩
def ps (t : Fin cfg0.N) : Fin 100 := ⟨(grid0.coords t 1).val, (grid0.coords t 1).isLt⟩
/-- Frame `r` of the tile. -/
def tm (t : Fin cfg0.N) (r : Fin 10) : Fin 1000 :=
  ⟨(ps t).val * 10 + r.val, by have := (ps t).isLt; have := r.isLt; omega⟩

/-- The index maps at point `t`. -/
theorem index0 (t : Fin cfg0.N) : win0_0.index t = ![(pb t).val, 0, (ps t).val, 0, 0] := by
  have hb := (pb t).isLt; have hs := (ps t).isLt
  funext a
  match a with
  | ⟨0, _⟩ => exact word32 _ (by show (pb t).val < _; omega)
  | ⟨1, _⟩ => rfl
  | ⟨2, _⟩ => exact word32 _ (by show (ps t).val < _; omega)
  | ⟨3, _⟩ => rfl
  | ⟨4, _⟩ => rfl
theorem index1 (t : Fin cfg0.N) : win0_1.index t = ![(pb t).val, 0, (ps t).val, 0, 0] := by
  have hb := (pb t).isLt; have hs := (ps t).isLt
  funext a
  match a with
  | ⟨0, _⟩ => exact word32 _ (by show (pb t).val < _; omega)
  | ⟨1, _⟩ => rfl
  | ⟨2, _⟩ => exact word32 _ (by show (ps t).val < _; omega)
  | ⟨3, _⟩ => rfl
  | ⟨4, _⟩ => rfl
theorem index2 (t : Fin cfg0.N) : win0_2.index t = ![(pb t).val, (ps t).val, 0, 0, 0] := by
  have hb := (pb t).isLt; have hs := (ps t).isLt
  funext a
  match a with
  | ⟨0, _⟩ => exact word32 _ (by show (pb t).val < _; omega)
  | ⟨1, _⟩ => exact word32 _ (by show (ps t).val < _; omega)
  | ⟨2, _⟩ => rfl
  | ⟨3, _⟩ => rfl
  | ⟨4, _⟩ => rfl
theorem index3 (t : Fin cfg0.N) : win0_3.index t = ![(pb t).val, (ps t).val, 0, 0] := by
  have hb := (pb t).isLt; have hs := (ps t).isLt
  funext a
  match a with
  | ⟨0, _⟩ => exact word32 _ (by show (pb t).val < _; omega)
  | ⟨1, _⟩ => exact word32 _ (by show (ps t).val < _; omega)
  | ⟨2, _⟩ => rfl
  | ⟨3, _⟩ => rfl
theorem index4 (t : Fin cfg0.N) : win0_4.index t = ![(pb t).val, 0, (ps t).val, 0, 0] := by
  have hb := (pb t).isLt; have hs := (ps t).isLt
  funext a
  match a with
  | ⟨0, _⟩ => exact word32 _ (by show (pb t).val < _; omega)
  | ⟨1, _⟩ => rfl
  | ⟨2, _⟩ => exact word32 _ (by show (ps t).val < _; omega)
  | ⟨3, _⟩ => rfl
  | ⟨4, _⟩ => rfl

/-! ## A block's entry is its array's entry -/

theorem blk0 (c : Dev nD) (t : Fin cfg0.N) (r : Fin 10) (f : Fin 481) (ri : Fin 2) :
    (iblk m c 0 t : Vec Ideal S1x1x10x481x2 .f32) (ix5 0 0 r f ri) = V m c main_arg0 (ix5 (pb t) 0 (tm t r) f ri) := by
  show V m c main_arg0 (((cfg0.win 0).blk t).view.emb (ix5 0 0 r f ri : S1x1x10x481x2.Idx)) = _
  refine congrArg (V m c main_arg0) (funext fun a => Fin.ext ?_)
  have e := index0 t
  have e0 : win0_0.index t (0 : Fin 5) = (pb t).val := congrFun e 0
  have e1 : win0_0.index t (1 : Fin 5) = 0 := congrFun e 1
  have e2 : win0_0.index t (2 : Fin 5) = (ps t).val := congrFun e 2
  have e3 : win0_0.index t (3 : Fin 5) = 0 := congrFun e 3
  have e4 : win0_0.index t (4 : Fin 5) = 0 := congrFun e 4
  match a with
  | ⟨0, _⟩ => show win0_0.index t (0 : Fin 5) * 1 + 1 * 0 = (pb t).val; omega
  | ⟨1, _⟩ => show win0_0.index t (1 : Fin 5) * 1 + 1 * 0 = 0; omega
  | ⟨2, _⟩ => show win0_0.index t (2 : Fin 5) * 10 + 1 * r.val = (ps t).val * 10 + r.val; omega
  | ⟨3, _⟩ => show win0_0.index t (3 : Fin 5) * 481 + 1 * f.val = f.val; omega
  | ⟨4, _⟩ => show win0_0.index t (4 : Fin 5) * 2 + 1 * ri.val = ri.val; omega

theorem blk1 (c : Dev nD) (t : Fin cfg0.N) (i : Fin 5) (r : Fin 10) (f : Fin 96) (ri : Fin 2) :
    (iblk m c 1 t : Vec Ideal S1x5x10x96x2 .f32) (ix5 0 i r f ri) = V m c main_v13 (ix5 (pb t) i (tm t r) f ri) := by
  show V m c main_v13 (((cfg0.win 1).blk t).view.emb (ix5 0 i r f ri : S1x5x10x96x2.Idx)) = _
  refine congrArg (V m c main_v13) (funext fun a => Fin.ext ?_)
  have e := index1 t
  have e0 : win0_1.index t (0 : Fin 5) = (pb t).val := congrFun e 0
  have e1 : win0_1.index t (1 : Fin 5) = 0 := congrFun e 1
  have e2 : win0_1.index t (2 : Fin 5) = (ps t).val := congrFun e 2
  have e3 : win0_1.index t (3 : Fin 5) = 0 := congrFun e 3
  have e4 : win0_1.index t (4 : Fin 5) = 0 := congrFun e 4
  match a with
  | ⟨0, _⟩ => show win0_1.index t (0 : Fin 5) * 1 + 1 * 0 = (pb t).val; omega
  | ⟨1, _⟩ => show win0_1.index t (1 : Fin 5) * 5 + 1 * i.val = i.val; omega
  | ⟨2, _⟩ => show win0_1.index t (2 : Fin 5) * 10 + 1 * r.val = (ps t).val * 10 + r.val; omega
  | ⟨3, _⟩ => show win0_1.index t (3 : Fin 5) * 96 + 1 * f.val = f.val; omega
  | ⟨4, _⟩ => show win0_1.index t (4 : Fin 5) * 2 + 1 * ri.val = ri.val; omega

theorem blk2 (c : Dev nD) (t : Fin cfg0.N) (r : Fin 10) (i : Fin 5) (f : Fin 96) (ri : Fin 2) :
    (iblk m c 2 t : Vec Ideal S1x10x5x96x2 .f32) (ix5 0 r i f ri) = V m c main_arg1 (ix5 (pb t) (tm t r) i f ri) := by
  show V m c main_arg1 (((cfg0.win 2).blk t).view.emb (ix5 0 r i f ri : S1x10x5x96x2.Idx)) = _
  refine congrArg (V m c main_arg1) (funext fun a => Fin.ext ?_)
  have e := index2 t
  have e0 : win0_2.index t (0 : Fin 5) = (pb t).val := congrFun e 0
  have e1 : win0_2.index t (1 : Fin 5) = (ps t).val := congrFun e 1
  have e2 : win0_2.index t (2 : Fin 5) = 0 := congrFun e 2
  have e3 : win0_2.index t (3 : Fin 5) = 0 := congrFun e 3
  have e4 : win0_2.index t (4 : Fin 5) = 0 := congrFun e 4
  match a with
  | ⟨0, _⟩ => show win0_2.index t (0 : Fin 5) * 1 + 1 * 0 = (pb t).val; omega
  | ⟨1, _⟩ => show win0_2.index t (1 : Fin 5) * 10 + 1 * r.val = (ps t).val * 10 + r.val; omega
  | ⟨2, _⟩ => show win0_2.index t (2 : Fin 5) * 5 + 1 * i.val = i.val; omega
  | ⟨3, _⟩ => show win0_2.index t (3 : Fin 5) * 96 + 1 * f.val = f.val; omega
  | ⟨4, _⟩ => show win0_2.index t (4 : Fin 5) * 2 + 1 * ri.val = ri.val; omega

theorem blk3 (c : Dev nD) (t : Fin cfg0.N) (r : Fin 10) (f : Fin 96) :
    (iblk m c 3 t : Vec Ideal S1x10x96x1 .f32) (ix4 0 r f 0) = V m c main_v15 (ix4 (pb t) (tm t r) f 0) := by
  show V m c main_v15 (((cfg0.win 3).blk t).view.emb (ix4 0 r f 0 : S1x10x96x1.Idx)) = _
  refine congrArg (V m c main_v15) (funext fun a => Fin.ext ?_)
  have e := index3 t
  have e0 : win0_3.index t (0 : Fin 4) = (pb t).val := congrFun e 0
  have e1 : win0_3.index t (1 : Fin 4) = (ps t).val := congrFun e 1
  have e2 : win0_3.index t (2 : Fin 4) = 0 := congrFun e 2
  have e3 : win0_3.index t (3 : Fin 4) = 0 := congrFun e 3
  match a with
  | ⟨0, _⟩ => show win0_3.index t (0 : Fin 4) * 1 + 1 * 0 = (pb t).val; omega
  | ⟨1, _⟩ => show win0_3.index t (1 : Fin 4) * 10 + 1 * r.val = (ps t).val * 10 + r.val; omega
  | ⟨2, _⟩ => show win0_3.index t (2 : Fin 4) * 96 + 1 * f.val = f.val; omega
  | ⟨3, _⟩ => show win0_3.index t (3 : Fin 4) * 1 + 1 * 0 = 0; omega

/-! ## The repeated weight -/

set_option maxHeartbeats 4000000 in
/-- The weight's window stages the weight repeated along the bins: entry (b, t, f, 0) is the weight's entry (b, t, 0). -/
theorem V15_apply (c : Dev nD) (b : Fin 32) (t : Fin 1000) (f : Fin 96) :
    V m c main_v15 (ix4 b t f 0) = m ((c : Thread nD τ).loc main_arg2) (ix3 b t 0) := by
  have e : (V m c main_v15 : S32x1000x96x1.Idx → EReal)
      = broadcastInDim S32x1000x96x1 ![0, 1, 2, 3] bcast_S32x1000x1x1_S32x1000x96x1_0_1_2_3
          (shapeCast S32x1000x1x1 (m ((c : Thread nD τ).loc main_arg2)) shapeCasts_S32x1000x1_S32x1000x1x1) := by
    dsimp only [V]
    simp only [hostOps0, hostOps0_1, hostOps0_2, List.flatten_cons, List.flatten_nil, List.append_nil, List.cons_append,
      List.nil_append]
    after_results
    rfl
  rw [e]
  refine (broadcastInDim_apply _ bcast_S32x1000x1x1_S32x1000x96x1_0_1_2_3 _ (ix4 b t f 0) (ix4 b t 0 0) (fun a => ?_)).trans ?_
  · match a with
    | ⟨0, _⟩ => show b.val = if (32 : Nat) = 1 then 0 else b.val; rw [if_neg (by decide)]
    | ⟨1, _⟩ => show t.val = if (1000 : Nat) = 1 then 0 else t.val; rw [if_neg (by decide)]
    | ⟨2, _⟩ => show 0 = if (1 : Nat) = 1 then 0 else f.val; rw [if_pos rfl]
    | ⟨3, _⟩ => show 0 = if (1 : Nat) = 1 then 0 else 0; rw [if_pos rfl]
  · exact shapeCast_apply _ shapeCasts_S32x1000x1_S32x1000x1x1 (ix4 b t 0 0) (ix3 b t 0) (by
      rw [Shape.rowMajor_val_three, Shape.rowMajor_val_four]
      show (b.val * 1000 + t.val) * 1 + 0 = ((b.val * 1000 + t.val) * 1 + 0) * 1 + 0
      omega)

/-! ## The stacked windows -/

set_option maxHeartbeats 4000000 in
/-- Window 1's array, as the region finds it, is the five stacked windows of the spectrum. -/
theorem V13_eq (c : Dev nD) :
    (V m c main_v13 : S32x5x1000x96x2.Idx → EReal) = Stack.stackK (F := Ideal) (m ((c : Thread nD τ).loc main_arg0)) := by
  dsimp only [V]
  simp only [hostOps0, hostOps0_1, hostOps0_2, List.flatten_cons, List.flatten_nil, List.append_nil, List.cons_append,
    List.nil_append]
  simp only [StableHlo.after_cons, StableHlo.after_nil]
  repeat (first
    | rw [StableHlo.nary5_result] | rw [StableHlo.nullary_result] | rw [StableHlo.unary_result]
    | rw [StableHlo.binary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide)
    | (rw [StableHlo.nary_result_ne]; rotate_left; decide))
  rfl

/-! ## What a point writes back, the cover, and the array -/

/-- The arrays the specification is read at: the spectrum, the stacked windows, the coefficients and the weight. -/
abbrev Gm (c : Dev nD) : S32x1x1000x481x2.Idx → EReal :=
  G (m ((c : Thread nD τ).loc main_arg0)) (V m c main_v13) (m ((c : Thread nD τ).loc main_arg1)) (m ((c : Thread nD τ).loc main_arg2))

/-- WHAT POINT `t` WRITES BACK is block `t` of the specification. -/
theorem flushed_eq (c : Dev nD) (t : Fin cfg0.N) :
    (dats m 0 c).flushed 4 t = ((cfg0.win 4).blk t).view.read (Elt Ideal) (Gm m c) := by
  show (cfg0.win 4).cut (grid0.coords t) ((dats m 0 c).after 4 t) = _
  rw [after0_4]
  funext y
  show out4 (iblk m c 0 t) (iblk m c 1 t) (iblk m c 2 t) (iblk m c 3 t) y = Gm m c (((cfg0.win 4).blk t).view.emb y)
  refine (congrFun (out4_eq (iblk m c 0 t) (iblk m c 1 t) (iblk m c 2 t) (iblk m c 3 t)) y).trans ?_
  show bAt (iblk m c 0 t) (iblk m c 1 t) (iblk m c 2 t) (iblk m c 3 t) (y 2) (y 3) (y 4) = _
  refine (bAt_eq_Gat (iblk m c 0 t) (iblk m c 1 t) (iblk m c 2 t) (iblk m c 3 t)
    (m ((c : Thread nD τ).loc main_arg0)) (V m c main_v13) (m ((c : Thread nD τ).loc main_arg1)) (m ((c : Thread nD τ).loc main_arg2))
    (pb t) (tm t)
    (fun r f ri => (blk0 m c t r f ri).trans (congrFun (V_main_arg0 m c) _))
    (fun i r f ri => blk1 m c t i r f ri)
    (fun r i f ri => (blk2 m c t r i f ri).trans (congrFun (V_main_arg1 m c) _))
    (fun r f => (blk3 m c t r f).trans (V15_apply m c (pb t) (tm t r) f))
    (y 2) (y 3) (y 4)).trans ?_
  show Gat _ _ _ _ (pb t) 0 (tm t (y 2)) (y 3) (y 4) = Gat _ _ _ _ _ _ _ _ _
  have e := index4 t
  have e0 : win0_4.index t (0 : Fin 5) = (pb t).val := congrFun e 0
  have e1 : win0_4.index t (1 : Fin 5) = 0 := congrFun e 1
  have e2 : win0_4.index t (2 : Fin 5) = (ps t).val := congrFun e 2
  have e3 : win0_4.index t (3 : Fin 5) = 0 := congrFun e 3
  have e4 : win0_4.index t (4 : Fin 5) = 0 := congrFun e 4
  have hy0 : (y 0).val < 1 := (y 0).isLt
  have hy1 : (y 1).val < 1 := (y 1).isLt
  congr 1
  · exact Fin.ext (by show (pb t).val = win0_4.index t (0 : Fin 5) * 1 + 1 * (y 0).val; omega)
  · exact Fin.ext (by show 0 = win0_4.index t (1 : Fin 5) * 1 + 1 * (y 1).val; omega)
  · exact Fin.ext (by show (ps t).val * 10 + (y 2).val = win0_4.index t (2 : Fin 5) * 10 + 1 * (y 2).val; omega)
  · exact Fin.ext (by show (y 3).val = win0_4.index t (3 : Fin 5) * 481 + 1 * (y 3).val; omega)
  · exact Fin.ext (by show (y 4).val = win0_4.index t (4 : Fin 5) * 2 + 1 * (y 4).val; omega)

/-- An index of the result array is in point `t`'s block iff each coordinate is in the block's range on its axis. -/
theorem mem_blk4 (t : Fin cfg0.N) (i : S32x1x1000x481x2.Idx) :
    i ∈ ((cfg0.win 4).blk t).view.set ↔ ∀ a : Fin 5, win0_4.index t a * S1x1x10x481x2.size a ≤ (i a).val ∧ (i a).val < win0_4.index t a * S1x1x10x481x2.size a + S1x1x10x481x2.size a := by
  show i ∈ ((View.whole main_v16).slice (win0_4.rect t)).set ↔ _
  rw [View.set_slice_whole, Rect.mem_set_unit]
  exact Iff.rfl

/-- Every index of the result array is in the block of the point its batch and its tile of frames name. -/
theorem cover (i : S32x1x1000x481x2.Idx) :
    ∃ t : Fin cfg0.N, (cfg0.win 4).flush t = true ∧ i ∈ ((cfg0.win 4).blk t).view.set := by
  have h0 : (i 0).val < 32 := (i 0).isLt
  have h1 : (i 1).val < 1 := (i 1).isLt
  have h2 : (i 2).val < 1000 := (i 2).isLt
  have h3 : (i 3).val < 481 := (i 3).isLt
  have h4 : (i 4).val < 2 := (i 4).isLt
  have hN : cfg0.N = 3200 := N_0
  let t : Fin cfg0.N := ⟨(i 0).val * 100 + (i 2).val / 10, by rw [hN]; omega⟩
  have hb : (pb t).val = (i 0).val := by
    show ((i 0).val * 100 + (i 2).val / 10) / 100 % 32 = (i 0).val
    omega
  have hs : (ps t).val = (i 2).val / 10 := by
    show ((i 0).val * 100 + (i 2).val / 10) / 1 % 100 = (i 2).val / 10
    omega
  refine ⟨t, flush0_4 t, ?_⟩
  rw [mem_blk4]
  have e := index4 t
  have e0 : win0_4.index t (0 : Fin 5) = (pb t).val := congrFun e 0
  have e1 : win0_4.index t (1 : Fin 5) = 0 := congrFun e 1
  have e2 : win0_4.index t (2 : Fin 5) = (ps t).val := congrFun e 2
  have e3 : win0_4.index t (3 : Fin 5) = 0 := congrFun e 3
  have e4 : win0_4.index t (4 : Fin 5) = 0 := congrFun e 4
  intro a
  match a with
  | ⟨0, _⟩ => show win0_4.index t (0 : Fin 5) * 1 ≤ (i 0).val ∧ (i 0).val < win0_4.index t (0 : Fin 5) * 1 + 1; omega
  | ⟨1, _⟩ => show win0_4.index t (1 : Fin 5) * 1 ≤ (i 1).val ∧ (i 1).val < win0_4.index t (1 : Fin 5) * 1 + 1; omega
  | ⟨2, _⟩ => show win0_4.index t (2 : Fin 5) * 10 ≤ (i 2).val ∧ (i 2).val < win0_4.index t (2 : Fin 5) * 10 + 10; omega
  | ⟨3, _⟩ => show win0_4.index t (3 : Fin 5) * 481 ≤ (i 3).val ∧ (i 3).val < win0_4.index t (3 : Fin 5) * 481 + 481; omega
  | ⟨4, _⟩ => show win0_4.index t (4 : Fin 5) * 2 ≤ (i 4).val ∧ (i 4).val < win0_4.index t (4 : Fin 5) * 2 + 2; omega

/-- THE RESULT ARRAY after the run is the specification of the argument arrays and the stacked windows. -/
theorem final (c : Dev nD) : (dats m 0 c).arrAt 4 cfg0.N = Gm m c :=
  (dats m 0 c).arrAt_eq_of_cover 4 (Gm m c) (fun t _ => flushed_eq m c t) (cover)

end Cert.KernelIdeal.Val

end
-- ==== Proof.KernelRun.lean ====
/-
  The deep-filter kernel's run with its result named: every weakly fair execution of the idealized kernel program ends,
  the result array holding the specification of the argument arrays and of the stacked windows, the arguments unchanged.
-/
import proofs.«155813_j30185030156317_1_alg».proof.Proof.FrameRunKI
import proofs.«155813_j30185030156317_1_alg».proof.Proof.KernelValue

noncomputable section

namespace Cert.KernelIdeal.Val

open Cert.KernelIdeal Cert.KernelIdeal.Gen Cert.KernelIdeal.Fr Cert.DeepFilter
open Idealize.ShloMosaic Idealize.ShloMosaic.TcCoe Idealize.SL.Sem

variable (m : (ℓ : Loc nD τ sig) → Buf (Elt Ideal) ℓ) (ρ : Dev nD → PrngReg)

/-- The frame run re-posted: the result array at the specification, the three argument arrays as launched. -/
theorem run : θ_run defs (onTc (τ := τ) (main (F := Ideal))) ⟨m, fun _ => 0, ρ⟩ (fun r => ∀ c : Dev nD,
      r.2.mem ((c.tc : Thread nD τ).loc main_v16) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 4).trans (final m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c)⟩)
    (run_main m ρ)

end Cert.KernelIdeal.Val

end
-- ==== Proof.Bridge.lean ====
/-
  The kernel's and the reference's stacked windows are one array.

  The reference takes its five windows of the padded spectrum by slices whose start is given as four index words, the
  numbers (0, i, 0, 0); a start that leaves the window inside the array is not clamped, so each is the static slice at
  frame i that the kernel's host operations take. Everything else — the cut of the first 96 bins, the padding, the new
  axis, the join — is the same operation on both sides.
-/
import proofs.«155813_j30185030156317_1_alg».proof.Proof.StackK
import proofs.«155813_j30185030156317_1_alg».proof.Proof.RefRead
import Idealize.ShloMosaic.Lib.DynamicIndex

set_option maxRecDepth 8192

noncomputable section

namespace Cert.DeepFilter.Bridge

open Idealize.ShloMosaic Cert.ReferenceIdeal.ReadP

variable {F : FTy → Type} [FloatOps F]

/-- The reference's stacked windows are the kernel's, at any float family. -/
theorem stack_eq (x0 : FVec F Cert.KernelIdeal.S32x1x1000x481x2 .f32) :
    val_main_v13 (F := F) x0 = Cert.KernelIdeal.Stack.stackK (F := F) x0 := by
  unfold val_main_v13 val_main_v8 val_main_v9 val_main_v10 val_main_v11 val_main_v12
    val_main_v3 val_main_v4 val_main_v5 val_main_v6 val_main_v7
  rw [Host.dynamicSlice_eq_extractStridedSlice _ _ _ ![0, 0, 0, 0] _ Cert.KernelIdeal.Gen.slices_S32x1004x96x2_S32x1000x96x2_0_0_0_0 (by intro a; fin_cases a <;> rfl),
    Host.dynamicSlice_eq_extractStridedSlice _ _ _ ![0, 1, 0, 0] _ Cert.KernelIdeal.Gen.slices_S32x1004x96x2_S32x1000x96x2_0_1_0_0 (by intro a; fin_cases a <;> rfl),
    Host.dynamicSlice_eq_extractStridedSlice _ _ _ ![0, 2, 0, 0] _ Cert.KernelIdeal.Gen.slices_S32x1004x96x2_S32x1000x96x2_0_2_0_0 (by intro a; fin_cases a <;> rfl),
    Host.dynamicSlice_eq_extractStridedSlice _ _ _ ![0, 3, 0, 0] _ Cert.KernelIdeal.Gen.slices_S32x1004x96x2_S32x1000x96x2_0_3_0_0 (by intro a; fin_cases a <;> rfl),
    Host.dynamicSlice_eq_extractStridedSlice _ _ _ ![0, 4, 0, 0] _ Cert.KernelIdeal.Gen.slices_S32x1004x96x2_S32x1000x96x2_0_4_0_0 (by intro a; fin_cases a <;> rfl)]
  rfl

end Cert.DeepFilter.Bridge

end
-- ==== Proof.LibScatterRead.lean ====
/-
  The two accumulating scatters and the row gather of a sparse-times-dense product, read at an index on the extended
  reals.

  An accumulating scatter leaves, at every element of its operand, that element plus the sum of the updates that land
  on it; an update lands where its start index, read signed and not clamped, plus its window coordinate says, and is
  dropped when that is outside the operand. Two layouts occur here. CELLS: the operand is a matrix [R, C], the start
  indices are pairs (row, column) in an array [N, 2], and update `k` of a vector [N] lands on the cell its pair names.
  ROWS: the operand is [R, B], the start indices a column [N, 1] of rows, and the updates an array [N, B] whose row
  `k` lands, entry by entry, on the operand row its start index names. The gather is the inverse reading: an operand
  [S, B] at a column [N, 1] of start indices gives [N, B], row `k` the operand's row at the start index, read signed
  and clamped into [0, S - 1].
-/
import Idealize.ShloMosaic.Lib.ValueIdx

noncomputable section

open scoped BigOperators

namespace Cert.SparseMM

open Idealize.ShloMosaic Idealize.ShloMosaic.ValueIdx

/-! ## Where an update lands, for any dimension numbers -/

/-- An update index lands on operand index `i` exactly when on every axis its start plus its window coordinate is
    `i`'s coordinate: inside the operand the landing index is those sums, and outside it there is none. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := congrFun (Option.some.inj e) a
      rw [← e']
      exact (Int.toNat_of_nonneg (h a).1).symm
    · intro e
      refine congrArg some (funext fun a => Fin.ext ?_)
      show (d.start j idx a + (d.window j a : Int)).toNat = (i a).val
      rw [e a]
      exact Int.toNat_natCast _
  · rename_i h
    constructor
    · intro e
      cases e
    · intro e
      refine absurd (fun a => ?_) h
      rw [e a]
      exact ⟨Int.natCast_nonneg _, by exact_mod_cast (i a).isLt⟩

/-- A vector's indices are its positions. -/
def idxEquiv1 {n : Nat} : (⟨1, ![n]⟩ : Shape).Idx ≃ Fin n where
  toFun i := i 0
  invFun k := ix1 k
  left_inv i := (eq_ix1 i).symm
  right_inv _ := rfl

/-! ## Cells: pairs (row, column) name the cell each update lands on -/

section Cells

/-- The dimension numbers of the scatter onto cells: no window axes, both operand axes inserted and named, in order,
    by the two entries of a start index, the index vector along axis 1. -/
abbrev cellDims (R C N : Nat) (wf : ScatterDims.WF ⟨2, ![R, C]⟩ ⟨2, ![N, 2]⟩ ⟨1, ![N]⟩ [] [0, 1] [0, 1] 1) :
    ScatterDims ⟨2, ![R, C]⟩ ⟨2, ![N, 2]⟩ ⟨1, ![N]⟩ where
  updateWindowDims := []
  insertedWindowDims := [0, 1]
  scatterDimsToOperandDims := [0, 1]
  indexVectorDim := 1
  wf := wf

variable {R C N w : Nat} (wf : ScatterDims.WF ⟨2, ![R, C]⟩ ⟨2, ![N, 2]⟩ ⟨1, ![N]⟩ [] [0, 1] [0, 1] 1)

/-- On the row axis update `k` starts at the first entry of its pair. -/
theorem cell_start0 (idx : IVec ⟨2, ![N, 2]⟩ w) (k : Fin N) :
    (cellDims R C N wf).start (ix1 k) idx 0 = (idx (ix2 k 0)).toInt := by
  unfold ScatterDims.start
  rw [dif_pos (show (0 : Fin 2) ∈ ([0, 1] : List (Fin 2)) by decide)]
  have hsi : (cellDims R C N wf).siIdx (ix1 k) ⟨List.idxOf (0 : Fin 2) (cellDims R C N wf).scatterDimsToOperandDims,
      List.idxOf_lt_length_iff.2 (show (0 : Fin 2) ∈ ([0, 1] : List (Fin 2)) by decide)⟩ = ix2 k 0 := by
    funext b; refine Fin.ext ?_
    match b with
    | ⟨0, _⟩ => rfl
    | ⟨1, _⟩ => rfl
  rw [hsi]

/-- On the column axis it starts at the second entry. -/
theorem cell_start1 (idx : IVec ⟨2, ![N, 2]⟩ w) (k : Fin N) :
    (cellDims R C N wf).start (ix1 k) idx 1 = (idx (ix2 k 1)).toInt := by
  unfold ScatterDims.start
  rw [dif_pos (show (1 : Fin 2) ∈ ([0, 1] : List (Fin 2)) by decide)]
  have hsi : (cellDims R C N wf).siIdx (ix1 k) ⟨List.idxOf (1 : Fin 2) (cellDims R C N wf).scatterDimsToOperandDims,
      List.idxOf_lt_length_iff.2 (show (1 : Fin 2) ∈ ([0, 1] : List (Fin 2)) by decide)⟩ = ix2 k 1 := by
    funext b; refine Fin.ext ?_
    match b with
    | ⟨0, _⟩ => rfl
    | ⟨1, _⟩ => rfl
  rw [hsi]

/-- There is no window: both operand axes are inserted. -/
theorem cell_window (j : (⟨1, ![N]⟩ : Shape).Idx) (a : Fin 2) : (cellDims R C N wf).window j a = 0 := by
  unfold ScatterDims.window
  refine dif_neg ?_
  show ¬ (a ∈ ((List.finRange 2).filter (· ∉ ([0, 1] : List (Fin 2)))))
  revert a
  decide

/-- Update `k` lands on cell (r, c) exactly when its pair, read signed, is (r, c). -/
theorem cell_lands_iff (idx : IVec ⟨2, ![N, 2]⟩ w) (k : Fin N) (r : Fin R) (c : Fin C) :
    (cellDims R C N wf).resultIdx? (ix1 k) idx = some (ix2 r c) ↔
      (idx (ix2 k 0)).toInt = (r.val : Int) ∧ (idx (ix2 k 1)).toInt = (c.val : Int) := by
  rw [resultIdx?_eq_some_iff]
  constructor
  · intro h
    have h0 := h 0
    have h1 := h 1
    rw [cell_start0, cell_window, Nat.cast_zero, add_zero] at h0
    rw [cell_start1, cell_window, Nat.cast_zero, add_zero] at h1
    exact ⟨h0, h1⟩
  · intro h a
    match a with
    | ⟨0, _⟩ =>
      show (cellDims R C N wf).start (ix1 k) idx 0 + ((cellDims R C N wf).window (ix1 k) 0 : Int) = (r.val : Int)
      rw [cell_start0, cell_window, Nat.cast_zero, add_zero]; exact h.1
    | ⟨1, _⟩ =>
      show (cellDims R C N wf).start (ix1 k) idx 1 + ((cellDims R C N wf).window (ix1 k) 1 : Int) = (c.val : Int)
      rw [cell_start1, cell_window, Nat.cast_zero, add_zero]; exact h.2

/-- THE SCATTER ONTO CELLS READ AT (r, c): the operand's cell plus the sum of the updates whose pair is (r, c). -/
theorem scatterAdd_cells_apply {φ : FTy} (x : FVec Ideal ⟨2, ![R, C]⟩ φ) (idx : IVec ⟨2, ![N, 2]⟩ w)
    (upd : FVec Ideal ⟨1, ![N]⟩ φ) (r : Fin R) (c : Fin C) :
    Host.scatterAdd (cellDims R C N wf) x idx upd (ix2 r c)
      = x (ix2 r c) + ∑ k ∈ Finset.univ.filter (fun k : Fin N =>
          (idx (ix2 k 0)).toInt = (r.val : Int) ∧ (idx (ix2 k 1)).toInt = (c.val : Int)), upd (ix1 k) := by
  show Ideal.hostScatterAdd (cellDims R C N wf) x idx upd (ix2 r c) = _
  unfold Ideal.hostScatterAdd
  refine congrArg (x (ix2 r c) + ·) ?_
  refine Finset.sum_equiv idxEquiv1 (fun j => ?_) (fun j _ => congrArg upd (eq_ix1 j))
  rw [Finset.mem_filter, Finset.mem_filter]
  refine and_congr (by simp) ?_
  rw [eq_ix1 j]
  exact cell_lands_iff wf idx (j 0) r c

end Cells

/-! ## Rows: a column of row numbers names the operand row each update row lands on -/

section Rows

/-- The dimension numbers of the scatter onto rows: the updates' axis 1 is the window, the operand's axis 0 is inserted
    and named by the one entry of a start index, the index vector along axis 1. -/
abbrev rowDims (R B N : Nat) (wf : ScatterDims.WF ⟨2, ![R, B]⟩ ⟨2, ![N, 1]⟩ ⟨2, ![N, B]⟩ [1] [0] [0] 1) :
    ScatterDims ⟨2, ![R, B]⟩ ⟨2, ![N, 1]⟩ ⟨2, ![N, B]⟩ where
  updateWindowDims := [1]
  insertedWindowDims := [0]
  scatterDimsToOperandDims := [0]
  indexVectorDim := 1
  wf := wf

variable {R B N w : Nat} (wf : ScatterDims.WF ⟨2, ![R, B]⟩ ⟨2, ![N, 1]⟩ ⟨2, ![N, B]⟩ [1] [0] [0] 1)

/-- On the row axis update (k, b) starts at entry `k` of the column of row numbers. -/
theorem row_start0 (idx : IVec ⟨2, ![N, 1]⟩ w) (k : Fin N) (b : Fin B) :
    (rowDims R B N wf).start (ix2 k b) idx 0 = (idx (ix2 k 0)).toInt := by
  unfold ScatterDims.start
  rw [dif_pos (show (0 : Fin 2) ∈ ([0] : List (Fin 2)) by decide)]
  have hsi : (rowDims R B N wf).siIdx (ix2 k b) ⟨List.idxOf (0 : Fin 2) (rowDims R B N wf).scatterDimsToOperandDims,
      List.idxOf_lt_length_iff.2 (show (0 : Fin 2) ∈ ([0] : List (Fin 2)) by decide)⟩ = ix2 k 0 := by
    funext a; refine Fin.ext ?_
    match a with
    | ⟨0, _⟩ => rfl
    | ⟨1, _⟩ => rfl
  rw [hsi]

/-- On the other axis it starts at zero: no entry names it. -/
theorem row_start1 (idx : IVec ⟨2, ![N, 1]⟩ w) (j : (⟨2, ![N, B]⟩ : Shape).Idx) :
    (rowDims R B N wf).start j idx 1 = 0 := by
  unfold ScatterDims.start
  exact dif_neg (show ¬ ((1 : Fin 2) ∈ ([0] : List (Fin 2))) by decide)

/-- The row axis is inserted: no window coordinate there. -/
theorem row_window0 (j : (⟨2, ![N, B]⟩ : Shape).Idx) : (rowDims R B N wf).window j 0 = 0 := by
  unfold ScatterDims.window
  exact dif_neg (show ¬ ((0 : Fin 2) ∈ ((List.finRange 2).filter (· ∉ ([0] : List (Fin 2))))) by decide)

/-- On the other axis the window coordinate is the update's own. -/
theorem row_window1 (k : Fin N) (b : Fin B) : (rowDims R B N wf).window (ix2 k b) 1 = b.val := by
  unfold ScatterDims.window
  have h1 : (1 : Fin 2) ∈ (rowDims R B N wf).sKept :=
    show (1 : Fin 2) ∈ ((List.finRange 2).filter (· ∉ ([0] : List (Fin 2)))) by decide
  rw [dif_pos h1]
  rfl

/-- Update (k, b') lands on (r, b) exactly when entry `k` of the row numbers, read signed, is `r`, and b' is b. -/
theorem row_lands_iff (idx : IVec ⟨2, ![N, 1]⟩ w) (k : Fin N) (b' : Fin B) (r : Fin R) (b : Fin B) :
    (rowDims R B N wf).resultIdx? (ix2 k b') idx = some (ix2 r b) ↔
      (idx (ix2 k 0)).toInt = (r.val : Int) ∧ b' = b := by
  rw [resultIdx?_eq_some_iff]
  constructor
  · intro h
    have h0 := h 0
    have h1 := h 1
    rw [row_start0, row_window0, Nat.cast_zero, add_zero] at h0
    rw [row_start1, row_window1, zero_add] at h1
    exact ⟨h0, Fin.ext (by exact_mod_cast h1)⟩
  · intro h a
    match a with
    | ⟨0, _⟩ =>
      show (rowDims R B N wf).start (ix2 k b') idx 0 + ((rowDims R B N wf).window (ix2 k b') 0 : Int) = (r.val : Int)
      rw [row_start0, row_window0, Nat.cast_zero, add_zero]; exact h.1
    | ⟨1, _⟩ =>
      show (rowDims R B N wf).start (ix2 k b') idx 1 + ((rowDims R B N wf).window (ix2 k b') 1 : Int) = (b.val : Int)
      rw [row_start1, row_window1, zero_add, h.2]

/-- THE SCATTER ONTO ROWS READ AT (r, b): the operand's entry plus the sum, over the update rows `k` whose row number is
    `r`, of entry `b` of update row `k`. -/
theorem scatterAdd_rows_apply {φ : FTy} (x : FVec Ideal ⟨2, ![R, B]⟩ φ) (idx : IVec ⟨2, ![N, 1]⟩ w)
    (upd : FVec Ideal ⟨2, ![N, B]⟩ φ) (r : Fin R) (b : Fin B) :
    Host.scatterAdd (rowDims R B N wf) x idx upd (ix2 r b)
      = x (ix2 r b) + ∑ k ∈ Finset.univ.filter (fun k : Fin N => (idx (ix2 k 0)).toInt = (r.val : Int)), upd (ix2 k b) := by
  show Ideal.hostScatterAdd (rowDims R B N wf) x idx upd (ix2 r b) = _
  unfold Ideal.hostScatterAdd
  refine congrArg (x (ix2 r b) + ·) ?_
  have lands : ∀ j : (⟨2, ![N, B]⟩ : Shape).Idx, (rowDims R B N wf).resultIdx? j idx = some (ix2 r b) →
      (idx (ix2 (j 0 : Fin N) 0)).toInt = (r.val : Int) ∧ (j 1 : Fin B) = b := by
    intro j hj
    rw [eq_ix2 j] at hj
    exact (row_lands_iff wf idx (j 0) (j 1) r b).mp hj
  refine Finset.sum_bij' (fun j _ => (j 0 : Fin N)) (fun k _ => ix2 k b) ?_ ?_ ?_ ?_ ?_
  · intro j hj
    exact Finset.mem_filter.mpr ⟨Finset.mem_univ _, (lands j (Finset.mem_filter.mp hj).2).1⟩
  · intro k hk
    exact Finset.mem_filter.mpr ⟨Finset.mem_univ _,
      (row_lands_iff wf idx k b r b).mpr ⟨(Finset.mem_filter.mp hk).2, rfl⟩⟩
  · intro j hj
    have hb := (lands j (Finset.mem_filter.mp hj).2).2
    show ix2 (j 0 : Fin N) b = j
    rw [← hb]
    exact (eq_ix2 j).symm
  · intro k _
    rfl
  · intro j hj
    have hb := (lands j (Finset.mem_filter.mp hj).2).2
    show upd j = upd (ix2 (j 0 : Fin N) b)
    rw [← hb]
    exact congrArg upd (eq_ix2 j)

end Rows

/-! ## The row gather -/

section RowGather
variable {α : Type}

/-- The dimension numbers of the row gather for an operand [S, B], start indices [N, 1] and a result [N, B]: the
    result's axis 1 is the offset axis, the operand's axis 0 is collapsed and named by the one entry of a start index,
    slices of shape [1, B]. -/
abbrev rowGatherDims (S B N : Nat)
    (wf : GatherDims.WF ⟨2, ![S, B]⟩ ⟨2, ![N, 1]⟩ ⟨2, ![N, B]⟩ [1] [0] [] [0] [] 1 ![1, B]) :
    GatherDims ⟨2, ![S, B]⟩ ⟨2, ![N, 1]⟩ ⟨2, ![N, B]⟩ where
  offsetDims := [1]
  collapsedSliceDims := [0]
  operandBatchingDims := []
  startIndicesBatchingDims := []
  startIndexMap := [0]
  indexVectorDim := 1
  sliceSizes := ![1, B]
  wf := wf

/-- THE ROW GATHER READ AT (k, b): the operand at the row start index `k` names, read signed and clamped into
    [0, S - 1], and at column `b`. -/
theorem gather_rows_apply {S B N w : Nat} (hS : 0 < S)
    (wf : GatherDims.WF ⟨2, ![S, B]⟩ ⟨2, ![N, 1]⟩ ⟨2, ![N, B]⟩ [1] [0] [] [0] [] 1 ![1, B])
    (x : (⟨2, ![S, B]⟩ : Shape).Idx → α) (idx : IVec ⟨2, ![N, 1]⟩ w) (k : Fin N) (b : Fin B) :
    Host.gather (rowGatherDims S B N wf) x idx (ix2 k b)
      = x (ix2 ⟨min (idx (ix2 k 0)).toInt.toNat (S - 1), by omega⟩ b) := by
  unfold Host.gather
  congr 1
  funext a
  refine Fin.ext ?_
  match a with
  | ⟨0, _⟩ =>
    show (rowGatherDims S B N wf).start (ix2 k b) idx 0 + (rowGatherDims S B N wf).batchCoord (ix2 k b) 0
      + (rowGatherDims S B N wf).offCoord (ix2 k b) 0 = min (idx (ix2 k 0)).toInt.toNat (S - 1)
    rw [GatherDims.batchCoord_eq_zero _ _ _ List.not_mem_nil,
      GatherDims.offCoord_eq_zero _ _ _ (fun h => ((GatherDims.mem_sKept _ _).mp h).1
        (show (0 : Fin 2) ∈ ([0] : List (Fin 2)) by decide))]
    simp only [Nat.add_zero]
    unfold GatherDims.start
    rw [dif_pos (show (0 : Fin 2) ∈ ([0] : List (Fin 2)) by decide)]
    have hsi : (rowGatherDims S B N wf).siIdx (ix2 k b) ⟨List.idxOf (0 : Fin 2) (rowGatherDims S B N wf).startIndexMap,
        List.idxOf_lt_length_iff.2 (show (0 : Fin 2) ∈ ([0] : List (Fin 2)) by decide)⟩ = ix2 k 0 := by
      funext c; refine Fin.ext ?_
      match c with
      | ⟨0, _⟩ => rfl
      | ⟨1, _⟩ => rfl
    rw [hsi]
    rfl
  | ⟨1, _⟩ =>
    show (rowGatherDims S B N wf).start (ix2 k b) idx 1 + (rowGatherDims S B N wf).batchCoord (ix2 k b) 1
      + (rowGatherDims S B N wf).offCoord (ix2 k b) 1 = b.val
    rw [GatherDims.batchCoord_eq_zero _ _ _ List.not_mem_nil]
    unfold GatherDims.start GatherDims.offCoord
    rw [dif_neg (show ¬ ((1 : Fin 2) ∈ ([0] : List (Fin 2))) by decide),
      dif_pos ((GatherDims.mem_sKept _ _).mpr
        ⟨show ¬ ((1 : Fin 2) ∈ ([0] : List (Fin 2))) by decide, List.not_mem_nil⟩)]
    simp only [Nat.add_zero, Nat.zero_add]
    rfl

end RowGather

end Cert.SparseMM

end
-- ==== Proof.LibColumns.lean ====
import Idealize.ShloMosaic.Lib.ValueIdx
import Idealize.ShloMosaic.PureOps.ShapeOps
import proofs.«155813_j30185030156317_1_alg».proof.Proof.LibScatterRead

/-!
Columns of a matrix through the host's gather and scatter, read at an entry.

A scatter is the left fold, over the update elements in row-major order, of the step that replaces the operand's
element an update lands on by the body applied to that element and the update. Read at ONE element of the operand the
fold is simple whenever at most one update lands there: with none the element is the operand's own
(`scatter_apply_of_not_lands`), with exactly one it is the body applied to the operand's element and that update
(`scatter_apply_of_lands`). Both hold for any dimension numbers and any body.

`gather_cols_apply`: a gather that takes `n` whole columns of a `[T, C]` matrix at an `[n, 1]` column of
start indices (the column selection `x[:, idx]`) has at entry `(t, j)` the matrix's entry `(t, k)` when index `j` is the
in-range column number `k`.
`scatter_col_set_apply`: a scatter that writes a length-`T` vector over column `k` of a `[T, C]` matrix
(the column assignment `x[:, k] := u`, one scatter index) has at entry `(t, e)` the vector's entry `t` when `e = k` and the
matrix's own entry otherwise.
-/

noncomputable section

namespace Cert.Columns

open Idealize.ShloMosaic Idealize.ShloMosaic.ValueIdx

/-! ## A scatter read at one element, for any dimension numbers -/

section Fold

variable {α : Type} {s si u : Shape} {w : Nat}

/-- One step of the scatter's fold: update number `n` (row-major) replaces the element it lands on, if any. -/
def step (d : ScatterDims s si u) (f : α → α → α) (idx : IVec si w) (upd : u.Idx → α) (r : s.Idx → α)
    (n : Fin u.numel) : s.Idx → α :=
  match d.resultIdx? (u.rowMajor.symm n) idx with
  | some i => fun i' => if i' = i then f (r i) (upd (u.rowMajor.symm n)) else r i'
  | none => r

/-- The scatter is the fold of that step over all update numbers in order. -/
theorem scatter_eq_foldl (d : ScatterDims s si u) (f : α → α → α) (x : s.Idx → α) (idx : IVec si w)
    (upd : u.Idx → α) :
    Host.scatter d f x idx upd = (List.finRange u.numel).foldl (step d f idx upd) x := rfl

/-- A step whose update lands on `i` puts the body's value there. -/
theorem step_of_lands (d : ScatterDims s si u) (f : α → α → α) (idx : IVec si w) (upd : u.Idx → α)
    (r : s.Idx → α) (n : Fin u.numel) (i : s.Idx) (h : d.resultIdx? (u.rowMajor.symm n) idx = some i) :
    step d f idx upd r n i = f (r i) (upd (u.rowMajor.symm n)) := by
  unfold step
  rw [h]
  exact if_pos rfl

/-- A step whose update does not land on `i` leaves that element alone. -/
theorem step_of_not_lands (d : ScatterDims s si u) (f : α → α → α) (idx : IVec si w) (upd : u.Idx → α)
    (r : s.Idx → α) (n : Fin u.numel) (i : s.Idx) (h : d.resultIdx? (u.rowMajor.symm n) idx ≠ some i) :
    step d f idx upd r n i = r i := by
  unfold step
  cases hr : d.resultIdx? (u.rowMajor.symm n) idx with
  | none => rfl
  | some i0 => exact if_neg fun e => h (by rw [hr, e])

/-- Steps none of which lands on `i` leave that element alone. -/
theorem foldl_step_of_not_lands (d : ScatterDims s si u) (f : α → α → α) (idx : IVec si w) (upd : u.Idx → α)
    (i : s.Idx) (l : List (Fin u.numel)) (hl : ∀ n ∈ l, d.resultIdx? (u.rowMajor.symm n) idx ≠ some i)
    (r : s.Idx → α) :
    l.foldl (step d f idx upd) r i = r i := by
  induction l generalizing r with
  | nil => rfl
  | cons a l ih =>
    rw [List.foldl_cons, ih (fun n hn => hl n (List.mem_cons_of_mem _ hn))]
    exact step_of_not_lands d f idx upd r a i (hl a List.mem_cons_self)

/-- Steps over distinct update numbers exactly one of which, `n0`, lands on `i`: the element there is the body
    applied to the starting element and update `n0`. The steps before `n0` leave the element alone, step `n0`
    writes it, and the steps after leave it alone again. -/
theorem foldl_step_of_lands (d : ScatterDims s si u) (f : α → α → α) (idx : IVec si w) (upd : u.Idx → α)
    (i : s.Idx) (n0 : Fin u.numel) (h0 : d.resultIdx? (u.rowMajor.symm n0) idx = some i)
    (l : List (Fin u.numel)) (hnd : l.Nodup) (hmem : n0 ∈ l)
    (huniq : ∀ n ∈ l, d.resultIdx? (u.rowMajor.symm n) idx = some i → n = n0) (r : s.Idx → α) :
    l.foldl (step d f idx upd) r i = f (r i) (upd (u.rowMajor.symm n0)) := by
  induction l generalizing r with
  | nil => cases hmem
  | cons a l ih =>
    rw [List.foldl_cons]
    have hnd' := List.nodup_cons.mp hnd
    by_cases ha : a = n0
    · rw [foldl_step_of_not_lands d f idx upd i l (fun n hn e =>
        hnd'.1 (by rw [ha, ← huniq n (List.mem_cons_of_mem _ hn) e]; exact hn))]
      rw [ha]
      exact step_of_lands d f idx upd r n0 i h0
    · have hm : n0 ∈ l := (List.mem_cons.mp hmem).resolve_left (Ne.symm ha)
      rw [ih hnd'.2 hm (fun n hn => huniq n (List.mem_cons_of_mem _ hn))]
      rw [step_of_not_lands d f idx upd r a i (fun e => ha (huniq a List.mem_cons_self e))]

/-- THE SCATTER AT AN ELEMENT NO UPDATE LANDS ON: the operand's own element. -/
theorem scatter_apply_of_not_lands (d : ScatterDims s si u) (f : α → α → α) (x : s.Idx → α) (idx : IVec si w)
    (upd : u.Idx → α) (i : s.Idx) (h : ∀ j, d.resultIdx? j idx ≠ some i) :
    Host.scatter d f x idx upd i = x i := by
  rw [scatter_eq_foldl]
  exact foldl_step_of_not_lands d f idx upd i _ (fun n _ => h _) x

/-- THE SCATTER AT AN ELEMENT EXACTLY ONE UPDATE LANDS ON: the body applied to the operand's element and that update. -/
theorem scatter_apply_of_lands (d : ScatterDims s si u) (f : α → α → α) (x : s.Idx → α) (idx : IVec si w)
    (upd : u.Idx → α) (i : s.Idx) (j0 : u.Idx) (h0 : d.resultIdx? j0 idx = some i)
    (huniq : ∀ j, d.resultIdx? j idx = some i → j = j0) :
    Host.scatter d f x idx upd i = f (x i) (upd j0) := by
  rw [scatter_eq_foldl]
  have h0' : d.resultIdx? (u.rowMajor.symm (u.rowMajor j0)) idx = some i := by
    rw [Equiv.symm_apply_apply]; exact h0
  rw [foldl_step_of_lands d f idx upd i (u.rowMajor j0) h0' _ (List.nodup_finRange _) (List.mem_finRange _)
    (fun n _ e => by rw [← huniq _ e, Equiv.apply_symm_apply]) x]
  rw [Equiv.symm_apply_apply]

end Fold

variable {α : Type} {T C n w : Nat}

/-! ## The column gather -/

/-- The dimension record of the column selection `x[:, idx]`: whole columns gathered, the column axis collapsed. -/
abbrev colGatherDims (T C n : Nat)
    (wf : GatherDims.WF ⟨2, ![T, C]⟩ ⟨2, ![n, 1]⟩ ⟨2, ![T, n]⟩ [0] [1] [] [1] [] 1 ![T, 1]) :
    GatherDims ⟨2, ![T, C]⟩ ⟨2, ![n, 1]⟩ ⟨2, ![T, n]⟩ where
  offsetDims := [0]
  collapsedSliceDims := [1]
  operandBatchingDims := []
  startIndicesBatchingDims := []
  startIndexMap := [1]
  indexVectorDim := 1
  sliceSizes := ![T, 1]
  wf := wf

/-- The gathered matrix at `(t, j)` is the operand at `(t, k)` when index `j` is the column number `k`. On the row
    axis nothing names a start and the offset coordinate is the result's row; on the column axis the start is index
    `j` read signed and clamped into `[0, C - 1]`, which leaves an in-range column alone, and the axis is collapsed. -/
theorem gather_cols_apply (wf) (x : (⟨2, ![T, C]⟩ : Shape).Idx → α) (idx : IVec ⟨2, ![n, 1]⟩ w)
    (t : Fin T) (j : Fin n) (k : Fin C) (hk : (idx (ix2 j (0 : Fin 1))).toInt = (k.val : Int)) :
    Host.gather (colGatherDims T C n wf) x idx (ix2 t j) = x (ix2 t k) := by
  unfold Host.gather
  congr 1
  funext a
  refine Fin.ext ?_
  match a with
  | ⟨0, _⟩ =>
    show (colGatherDims T C n wf).start (ix2 t j) idx 0 + (colGatherDims T C n wf).batchCoord (ix2 t j) 0
      + (colGatherDims T C n wf).offCoord (ix2 t j) 0 = t.val
    rw [GatherDims.batchCoord_eq_zero _ _ _ List.not_mem_nil]
    unfold GatherDims.start GatherDims.offCoord
    rw [dif_neg (show ¬ ((0 : Fin 2) ∈ ([1] : List (Fin 2))) by decide),
      dif_pos ((GatherDims.mem_sKept _ _).mpr
        ⟨show ¬ ((0 : Fin 2) ∈ ([1] : List (Fin 2))) by decide, List.not_mem_nil⟩)]
    simp only [Nat.add_zero, Nat.zero_add]
    rfl
  | ⟨1, _⟩ =>
    show (colGatherDims T C n wf).start (ix2 t j) idx 1 + (colGatherDims T C n wf).batchCoord (ix2 t j) 1
      + (colGatherDims T C n wf).offCoord (ix2 t j) 1 = k.val
    rw [GatherDims.batchCoord_eq_zero _ _ _ List.not_mem_nil,
      GatherDims.offCoord_eq_zero _ _ _ (fun h => ((GatherDims.mem_sKept _ _).mp h).1
        (show (1 : Fin 2) ∈ ([1] : List (Fin 2)) by decide))]
    simp only [Nat.add_zero]
    unfold GatherDims.start
    rw [dif_pos (show (1 : Fin 2) ∈ ([1] : List (Fin 2)) by decide)]
    have hsi : (colGatherDims T C n wf).siIdx (ix2 t j) ⟨List.idxOf (1 : Fin 2) (colGatherDims T C n wf).startIndexMap,
        List.idxOf_lt_length_iff.2 (show (1 : Fin 2) ∈ ([1] : List (Fin 2)) by decide)⟩ = ix2 j 0 := by
      funext c; refine Fin.ext ?_
      match c with
      | ⟨0, _⟩ => rfl
      | ⟨1, _⟩ => rfl
    rw [hsi, hk, Int.toNat_natCast]
    show min k.val (C - 1) = k.val
    have := k.isLt
    omega

/-! ## The column scatter -/

/-- The dimension record of the column assignment `x[:, k] := u`: one scatter index, the update a whole column. -/
abbrev colScatterDims (T C : Nat)
    (wf : ScatterDims.WF ⟨2, ![T, C]⟩ ⟨1, ![1]⟩ ⟨1, ![T]⟩ [0] [1] [1] 0) :
    ScatterDims ⟨2, ![T, C]⟩ ⟨1, ![1]⟩ ⟨1, ![T]⟩ where
  updateWindowDims := [0]
  insertedWindowDims := [1]
  scatterDimsToOperandDims := [1]
  indexVectorDim := 0
  wf := wf

section ColScatter

variable (wf : ScatterDims.WF ⟨2, ![T, C]⟩ ⟨1, ![1]⟩ ⟨1, ![T]⟩ [0] [1] [1] 0)

/-- On the row axis every update starts at zero: no entry of the scatter index names it. -/
theorem col_start0 (idx : IVec ⟨1, ![1]⟩ w) (j : (⟨1, ![T]⟩ : Shape).Idx) :
    (colScatterDims T C wf).start j idx 0 = 0 := by
  unfold ScatterDims.start
  exact dif_neg (show ¬ ((0 : Fin 2) ∈ ([1] : List (Fin 2))) by decide)

/-- On the column axis every update starts at the one scatter index, read signed. -/
theorem col_start1 (idx : IVec ⟨1, ![1]⟩ w) (j : (⟨1, ![T]⟩ : Shape).Idx) :
    (colScatterDims T C wf).start j idx 1 = (idx (ix1 (0 : Fin 1))).toInt := by
  unfold ScatterDims.start
  rw [dif_pos (show (1 : Fin 2) ∈ ([1] : List (Fin 2)) by decide)]
  have hsi : (colScatterDims T C wf).siIdx j ⟨List.idxOf (1 : Fin 2) (colScatterDims T C wf).scatterDimsToOperandDims,
      List.idxOf_lt_length_iff.2 (show (1 : Fin 2) ∈ ([1] : List (Fin 2)) by decide)⟩ = ix1 0 := by
    funext c; refine Fin.ext ?_
    match c with
    | ⟨0, _⟩ => rfl
  rw [hsi]

/-- On the row axis the window coordinate is the update's own position. -/
theorem col_window0 (t : Fin T) : (colScatterDims T C wf).window (ix1 t) 0 = t.val := by
  unfold ScatterDims.window
  have h0 : (0 : Fin 2) ∈ (colScatterDims T C wf).sKept :=
    show (0 : Fin 2) ∈ ((List.finRange 2).filter (· ∉ ([1] : List (Fin 2)))) by decide
  rw [dif_pos h0]
  rfl

/-- The column axis is inserted: no window coordinate there. -/
theorem col_window1 (j : (⟨1, ![T]⟩ : Shape).Idx) : (colScatterDims T C wf).window j 1 = 0 := by
  unfold ScatterDims.window
  exact dif_neg (show ¬ ((1 : Fin 2) ∈ ((List.finRange 2).filter (· ∉ ([1] : List (Fin 2))))) by decide)

/-- Update `t'` lands on `(t, e)` exactly when `t'` is `t` and the scatter index, read signed, is `e`. -/
theorem col_lands_iff (idx : IVec ⟨1, ![1]⟩ w) (t' t : Fin T) (e : Fin C) :
    (colScatterDims T C wf).resultIdx? (ix1 t') idx = some (ix2 t e) ↔
      t' = t ∧ (idx (ix1 (0 : Fin 1))).toInt = (e.val : Int) := by
  rw [Cert.SparseMM.resultIdx?_eq_some_iff]
  constructor
  · intro h
    have h0 := h 0
    have h1 := h 1
    rw [col_start0, col_window0, zero_add] at h0
    rw [col_start1, col_window1, Nat.cast_zero, add_zero] at h1
    exact ⟨Fin.ext (by exact_mod_cast h0), h1⟩
  · intro h a
    match a with
    | ⟨0, _⟩ =>
      show (colScatterDims T C wf).start (ix1 t') idx 0 + ((colScatterDims T C wf).window (ix1 t') 0 : Int) = (t.val : Int)
      rw [col_start0, col_window0, zero_add, h.1]
    | ⟨1, _⟩ =>
      show (colScatterDims T C wf).start (ix1 t') idx 1 + ((colScatterDims T C wf).window (ix1 t') 1 : Int) = (e.val : Int)
      rw [col_start1, col_window1, Nat.cast_zero, add_zero]; exact h.2

end ColScatter

/-- The scattered matrix at `(t, e)` is the update's entry `t` on column `k` and the operand elsewhere. Update `t'`
    lands on cell `(t', k)`: the cells are pairwise distinct, so on column `k` exactly update `t` lands on `(t, k)`, and
    off column `k` no update lands. -/
theorem scatter_col_set_apply (wf) (x : (⟨2, ![T, C]⟩ : Shape).Idx → α) (idx : IVec ⟨1, ![1]⟩ w)
    (u : (⟨1, ![T]⟩ : Shape).Idx → α) (k : Fin C) (hk : (idx (ix1 (0 : Fin 1))).toInt = (k.val : Int))
    (t : Fin T) (e : Fin C) :
    Host.scatter (colScatterDims T C wf) (fun _ b => b) x idx u (ix2 t e)
      = if e = k then u (ix1 t) else x (ix2 t e) := by
  by_cases he : e = k
  · rw [if_pos he]
    refine scatter_apply_of_lands _ _ x idx u (ix2 t e) (ix1 t) ?_ ?_
    · exact (col_lands_iff wf idx t t e).mpr ⟨rfl, by rw [hk, he]⟩
    · intro j hj
      rw [eq_ix1 j] at hj
      have h1 : (j 0 : Fin T) = t := ((col_lands_iff wf idx (j 0) t e).mp hj).1
      exact (eq_ix1 j).trans (congrArg ix1 h1)
  · rw [if_neg he]
    refine scatter_apply_of_not_lands _ _ x idx u (ix2 t e) ?_
    intro j hj
    rw [eq_ix1 j] at hj
    have h1 := ((col_lands_iff wf idx (j 0) t e).mp hj).2
    rw [hk] at h1
    exact he (Fin.ext (by exact_mod_cast h1.symm))

end Cert.Columns

end
-- ==== Proof.RefScatter.lean ====
import Idealize.ShloMosaic.Lib.ValueIdx
import Idealize.ShloMosaic.PureOps.ShapeOps
import proofs.«155813_j30185030156317_1_alg».proof.Proof.Gen.ReferenceIdeal
import proofs.«155813_j30185030156317_1_alg».proof.Proof.LibColumns

/-!
The write-back of the blended bins, read at one element.

The reference ends by writing a [32, 1, 1000, 96, 2] array of updates over the first 96 frequency bins of the
[32, 1, 1000, 481, 2] spectrum: one scatter whose single start index is the word 0 on the frequency axis, every axis of
the update a window axis and none inserted. On each axis the window coordinate of update index `j` is `j`'s own
coordinate, and the start is 0 (on the frequency axis because the index word is 0, elsewhere because no index names the
axis). So update `j` lands on operand index `i` exactly when the two agree on every axis: an element with bin
`f < 96` receives exactly the update at the same coordinates, and an element with `f ≥ 96` receives none and keeps
the spectrum's value.
-/

noncomputable section

namespace Cert.DeepFilter.Ref

open Idealize.ShloMosaic Idealize.ShloMosaic.ValueIdx Cert.ReferenceIdeal

/-- The dimension numbers of the write-back. -/
abbrev D : ScatterDims S32x1x1000x481x2 S1 S32x1x1000x96x2 :=
  scatter_S32x1x1000x481x2_S1_S32x1x1000x96x2_01234_n_3_0

variable {α : Type} {w : Nat}

/-! ## Starts: zero off the frequency axis, the index word on it -/

theorem start0 (idx : IVec S1 w) (j : S32x1x1000x96x2.Idx) : D.start j idx 0 = 0 := by
  unfold ScatterDims.start
  exact dif_neg (show ¬ ((0 : Fin 5) ∈ ([3] : List (Fin 5))) by decide)

theorem start1 (idx : IVec S1 w) (j : S32x1x1000x96x2.Idx) : D.start j idx 1 = 0 := by
  unfold ScatterDims.start
  exact dif_neg (show ¬ ((1 : Fin 5) ∈ ([3] : List (Fin 5))) by decide)

theorem start2 (idx : IVec S1 w) (j : S32x1x1000x96x2.Idx) : D.start j idx 2 = 0 := by
  unfold ScatterDims.start
  exact dif_neg (show ¬ ((2 : Fin 5) ∈ ([3] : List (Fin 5))) by decide)

theorem start4 (idx : IVec S1 w) (j : S32x1x1000x96x2.Idx) : D.start j idx 4 = 0 := by
  unfold ScatterDims.start
  exact dif_neg (show ¬ ((4 : Fin 5) ∈ ([3] : List (Fin 5))) by decide)

/-- On the frequency axis every update starts at the one scatter index, read signed. -/
theorem start3 (idx : IVec S1 w) (j : S32x1x1000x96x2.Idx) :
    D.start j idx 3 = (idx (ix1 (0 : Fin 1))).toInt := by
  unfold ScatterDims.start
  have h3 : (3 : Fin 5) ∈ D.scatterDimsToOperandDims := show (3 : Fin 5) ∈ ([3] : List (Fin 5)) by decide
  rw [dif_pos h3]
  have hsi : D.siIdx j ⟨List.idxOf (3 : Fin 5) D.scatterDimsToOperandDims,
      List.idxOf_lt_length_iff.2 (show (3 : Fin 5) ∈ ([3] : List (Fin 5)) by decide)⟩ = ix1 0 := by
    funext c; refine Fin.ext ?_
    match c with
    | ⟨0, _⟩ => rfl
  rw [hsi]

/-! ## Windows: every axis is a window axis, its coordinate the update's own -/

theorem window0 (j : S32x1x1000x96x2.Idx) : D.window j 0 = (j 0).val := by
  unfold ScatterDims.window
  have h : (0 : Fin 5) ∈ D.sKept :=
    show (0 : Fin 5) ∈ ((List.finRange 5).filter (· ∉ ([] : List (Fin 5)))) by decide
  rw [dif_pos h]
  rfl

theorem window1 (j : S32x1x1000x96x2.Idx) : D.window j 1 = (j 1).val := by
  unfold ScatterDims.window
  have h : (1 : Fin 5) ∈ D.sKept :=
    show (1 : Fin 5) ∈ ((List.finRange 5).filter (· ∉ ([] : List (Fin 5)))) by decide
  rw [dif_pos h]
  rfl

theorem window2 (j : S32x1x1000x96x2.Idx) : D.window j 2 = (j 2).val := by
  unfold ScatterDims.window
  have h : (2 : Fin 5) ∈ D.sKept :=
    show (2 : Fin 5) ∈ ((List.finRange 5).filter (· ∉ ([] : List (Fin 5)))) by decide
  rw [dif_pos h]
  rfl

theorem window3 (j : S32x1x1000x96x2.Idx) : D.window j 3 = (j 3).val := by
  unfold ScatterDims.window
  have h : (3 : Fin 5) ∈ D.sKept :=
    show (3 : Fin 5) ∈ ((List.finRange 5).filter (· ∉ ([] : List (Fin 5)))) by decide
  rw [dif_pos h]
  rfl

theorem window4 (j : S32x1x1000x96x2.Idx) : D.window j 4 = (j 4).val := by
  unfold ScatterDims.window
  have h : (4 : Fin 5) ∈ D.sKept :=
    show (4 : Fin 5) ∈ ((List.finRange 5).filter (· ∉ ([] : List (Fin 5)))) by decide
  rw [dif_pos h]
  rfl

/-! ## Where an update lands -/

/-- With the index word 0, update `j` lands on `i` exactly when the two have the same coordinate on every axis. -/
theorem lands_iff (idx : IVec S1 w) (h0 : (idx (ix1 (0 : Fin 1))).toInt = 0)
    (j : S32x1x1000x96x2.Idx) (i : S32x1x1000x481x2.Idx) :
    D.resultIdx? j idx = some i ↔
      (j 0).val = (i 0).val ∧ (j 1).val = (i 1).val ∧ (j 2).val = (i 2).val ∧ (j 3).val = (i 3).val
        ∧ (j 4).val = (i 4).val := by
  rw [Cert.SparseMM.resultIdx?_eq_some_iff]
  constructor
  · intro h
    have e0 := h 0
    have e1 := h 1
    have e2 := h 2
    have e3 := h 3
    have e4 := h 4
    rw [start0, window0, zero_add] at e0
    rw [start1, window1, zero_add] at e1
    rw [start2, window2, zero_add] at e2
    rw [start3, window3, h0, zero_add] at e3
    rw [start4, window4, zero_add] at e4
    exact ⟨by exact_mod_cast e0, by exact_mod_cast e1, by exact_mod_cast e2, by exact_mod_cast e3,
      by exact_mod_cast e4⟩
  · rintro ⟨e0, e1, e2, e3, e4⟩ a
    match a with
    | ⟨0, _⟩ =>
      show D.start j idx 0 + (D.window j 0 : Int) = ((i 0).val : Int)
      rw [start0, window0, zero_add, e0]
    | ⟨1, _⟩ =>
      show D.start j idx 1 + (D.window j 1 : Int) = ((i 1).val : Int)
      rw [start1, window1, zero_add, e1]
    | ⟨2, _⟩ =>
      show D.start j idx 2 + (D.window j 2 : Int) = ((i 2).val : Int)
      rw [start2, window2, zero_add, e2]
    | ⟨3, _⟩ =>
      show D.start j idx 3 + (D.window j 3 : Int) = ((i 3).val : Int)
      rw [start3, window3, h0, zero_add, e3]
    | ⟨4, _⟩ =>
      show D.start j idx 4 + (D.window j 4 : Int) = ((i 4).val : Int)
      rw [start4, window4, zero_add, e4]

/-- THE WRITE-BACK AT AN ELEMENT: the update at the same coordinates when the bin is below 96, the operand's own
    element otherwise. -/
theorem scatter_set_apply (x : S32x1x1000x481x2.Idx → α) (idx : IVec S1 w)
    (upd : S32x1x1000x96x2.Idx → α) (h0 : (idx (ix1 (0 : Fin 1))).toInt = 0)
    (b : Fin 32) (z : Fin 1) (t : Fin 1000) (f : Fin 481) (ri : Fin 2) :
    Host.scatter D (fun _ v => v) x idx upd (ix5 b z t f ri)
      = if h : f.val < 96 then upd (ix5 b z t ⟨f.val, h⟩ ri) else x (ix5 b z t f ri) := by
  by_cases h : f.val < 96
  · rw [dif_pos h]
    refine Cert.Columns.scatter_apply_of_lands D (fun _ v => v) x idx upd (ix5 b z t f ri)
      (ix5 b z t ⟨f.val, h⟩ ri) ?_ ?_
    · exact (lands_iff idx h0 _ _).mpr ⟨rfl, rfl, rfl, rfl, rfl⟩
    · intro j hj
      obtain ⟨e0, e1, e2, e3, e4⟩ := (lands_iff idx h0 j _).mp hj
      funext a
      match a with
      | ⟨0, _⟩ => exact Fin.ext e0
      | ⟨1, _⟩ => exact Fin.ext e1
      | ⟨2, _⟩ => exact Fin.ext e2
      | ⟨3, _⟩ => exact Fin.ext e3
      | ⟨4, _⟩ => exact Fin.ext e4
  · rw [dif_neg h]
    refine Cert.Columns.scatter_apply_of_not_lands D (fun _ v => v) x idx upd (ix5 b z t f ri) ?_
    intro j hj
    obtain ⟨_, _, _, e3, _⟩ := (lands_iff idx h0 j _).mp hj
    have h3 : (j 3).val < 96 := (j 3).isLt
    have e3' : (j 3).val = f.val := e3
    omega

end Cert.DeepFilter.Ref

end
-- ==== Proof.RefIdx.lean ====
import proofs.«155813_j30185030156317_1_alg».proof.Proof.RefRead
import Idealize.ShloMosaic.Lib.ValueIdx

/-!
Where each layout stage of the reference reads, at explicit coordinates.

Every reshape, slice, transpose and broadcast of the reference reads its operand at an index computed from the result
index. At a result index given by its coordinates these computed indices are again indices given by coordinates: a
reshape that only drops or adds unit axes keeps the coordinates (the row-major number of (b, k, t, f) divided back by the
extents 5, 1000, 96), a slice of the last axis keeps them and fixes the real/imaginary coordinate, the transpose swaps
tap and time, a broadcast forgets the coordinates of the axes it adds.
-/

noncomputable section

namespace Cert.DeepFilter.Ref

open Idealize.ShloMosaic Idealize.ShloMosaic.ValueIdx Cert.ReferenceIdeal Cert.ReferenceIdeal.ReadP

/-! ## The four-axis array [32, 5, 1000, 96] seen with a unit last axis -/

theorem i16 (b : Fin 32) (k : Fin 5) (t : Fin 1000) (f : Fin 96) : idx_main_v16 (ix4 b k t f) = ix5 b k t f (0 : Fin 1) := by
  have hb := b.isLt; have hk := k.isLt; have ht := t.isLt; have hf := f.isLt
  funext a
  refine Fin.ext ?_
  match a with
  | ⟨0, _⟩ => show (((b.val * 5 + k.val) * 1000 + t.val) * 96 + f.val) / 480000 = b.val; omega
  | ⟨1, _⟩ => show (((b.val * 5 + k.val) * 1000 + t.val) * 96 + f.val) / 96000 % 5 = k.val; omega
  | ⟨2, _⟩ => show (((b.val * 5 + k.val) * 1000 + t.val) * 96 + f.val) / 96 % 1000 = t.val; omega
  | ⟨3, _⟩ => show (((b.val * 5 + k.val) * 1000 + t.val) * 96 + f.val) / 1 % 96 = f.val; omega
  | ⟨4, _⟩ => rfl

theorem i18 (b : Fin 32) (k : Fin 5) (t : Fin 1000) (f : Fin 96) : idx_main_v18 (ix4 b k t f) = ix5 b k t f (0 : Fin 1) := by
  have hb := b.isLt; have hk := k.isLt; have ht := t.isLt; have hf := f.isLt
  funext a
  refine Fin.ext ?_
  match a with
  | ⟨0, _⟩ => show (((b.val * 5 + k.val) * 1000 + t.val) * 96 + f.val) / 480000 = b.val; omega
  | ⟨1, _⟩ => show (((b.val * 5 + k.val) * 1000 + t.val) * 96 + f.val) / 96000 % 5 = k.val; omega
  | ⟨2, _⟩ => show (((b.val * 5 + k.val) * 1000 + t.val) * 96 + f.val) / 96 % 1000 = t.val; omega
  | ⟨3, _⟩ => show (((b.val * 5 + k.val) * 1000 + t.val) * 96 + f.val) / 1 % 96 = f.val; omega
  | ⟨4, _⟩ => rfl

theorem i21 (b : Fin 32) (k : Fin 5) (t : Fin 1000) (f : Fin 96) : idx_main_v21 (ix4 b k t f) = ix5 b k t f (0 : Fin 1) := by
  have hb := b.isLt; have hk := k.isLt; have ht := t.isLt; have hf := f.isLt
  funext a
  refine Fin.ext ?_
  match a with
  | ⟨0, _⟩ => show (((b.val * 5 + k.val) * 1000 + t.val) * 96 + f.val) / 480000 = b.val; omega
  | ⟨1, _⟩ => show (((b.val * 5 + k.val) * 1000 + t.val) * 96 + f.val) / 96000 % 5 = k.val; omega
  | ⟨2, _⟩ => show (((b.val * 5 + k.val) * 1000 + t.val) * 96 + f.val) / 96 % 1000 = t.val; omega
  | ⟨3, _⟩ => show (((b.val * 5 + k.val) * 1000 + t.val) * 96 + f.val) / 1 % 96 = f.val; omega
  | ⟨4, _⟩ => rfl

theorem i23 (b : Fin 32) (k : Fin 5) (t : Fin 1000) (f : Fin 96) : idx_main_v23 (ix4 b k t f) = ix5 b k t f (0 : Fin 1) := by
  have hb := b.isLt; have hk := k.isLt; have ht := t.isLt; have hf := f.isLt
  funext a
  refine Fin.ext ?_
  match a with
  | ⟨0, _⟩ => show (((b.val * 5 + k.val) * 1000 + t.val) * 96 + f.val) / 480000 = b.val; omega
  | ⟨1, _⟩ => show (((b.val * 5 + k.val) * 1000 + t.val) * 96 + f.val) / 96000 % 5 = k.val; omega
  | ⟨2, _⟩ => show (((b.val * 5 + k.val) * 1000 + t.val) * 96 + f.val) / 96 % 1000 = t.val; omega
  | ⟨3, _⟩ => show (((b.val * 5 + k.val) * 1000 + t.val) * 96 + f.val) / 1 % 96 = f.val; omega
  | ⟨4, _⟩ => rfl

theorem i28 (b : Fin 32) (k : Fin 5) (t : Fin 1000) (f : Fin 96) : idx_main_v28 (ix4 b k t f) = ix5 b k t f (0 : Fin 1) := by
  have hb := b.isLt; have hk := k.isLt; have ht := t.isLt; have hf := f.isLt
  funext a
  refine Fin.ext ?_
  match a with
  | ⟨0, _⟩ => show (((b.val * 5 + k.val) * 1000 + t.val) * 96 + f.val) / 480000 = b.val; omega
  | ⟨1, _⟩ => show (((b.val * 5 + k.val) * 1000 + t.val) * 96 + f.val) / 96000 % 5 = k.val; omega
  | ⟨2, _⟩ => show (((b.val * 5 + k.val) * 1000 + t.val) * 96 + f.val) / 96 % 1000 = t.val; omega
  | ⟨3, _⟩ => show (((b.val * 5 + k.val) * 1000 + t.val) * 96 + f.val) / 1 % 96 = f.val; omega
  | ⟨4, _⟩ => rfl

theorem i30 (b : Fin 32) (k : Fin 5) (t : Fin 1000) (f : Fin 96) : idx_main_v30 (ix4 b k t f) = ix5 b k t f (0 : Fin 1) := by
  have hb := b.isLt; have hk := k.isLt; have ht := t.isLt; have hf := f.isLt
  funext a
  refine Fin.ext ?_
  match a with
  | ⟨0, _⟩ => show (((b.val * 5 + k.val) * 1000 + t.val) * 96 + f.val) / 480000 = b.val; omega
  | ⟨1, _⟩ => show (((b.val * 5 + k.val) * 1000 + t.val) * 96 + f.val) / 96000 % 5 = k.val; omega
  | ⟨2, _⟩ => show (((b.val * 5 + k.val) * 1000 + t.val) * 96 + f.val) / 96 % 1000 = t.val; omega
  | ⟨3, _⟩ => show (((b.val * 5 + k.val) * 1000 + t.val) * 96 + f.val) / 1 % 96 = f.val; omega
  | ⟨4, _⟩ => rfl

theorem i33 (b : Fin 32) (k : Fin 5) (t : Fin 1000) (f : Fin 96) : idx_main_v33 (ix4 b k t f) = ix5 b k t f (0 : Fin 1) := by
  have hb := b.isLt; have hk := k.isLt; have ht := t.isLt; have hf := f.isLt
  funext a
  refine Fin.ext ?_
  match a with
  | ⟨0, _⟩ => show (((b.val * 5 + k.val) * 1000 + t.val) * 96 + f.val) / 480000 = b.val; omega
  | ⟨1, _⟩ => show (((b.val * 5 + k.val) * 1000 + t.val) * 96 + f.val) / 96000 % 5 = k.val; omega
  | ⟨2, _⟩ => show (((b.val * 5 + k.val) * 1000 + t.val) * 96 + f.val) / 96 % 1000 = t.val; omega
  | ⟨3, _⟩ => show (((b.val * 5 + k.val) * 1000 + t.val) * 96 + f.val) / 1 % 96 = f.val; omega
  | ⟨4, _⟩ => rfl

theorem i35 (b : Fin 32) (k : Fin 5) (t : Fin 1000) (f : Fin 96) : idx_main_v35 (ix4 b k t f) = ix5 b k t f (0 : Fin 1) := by
  have hb := b.isLt; have hk := k.isLt; have ht := t.isLt; have hf := f.isLt
  funext a
  refine Fin.ext ?_
  match a with
  | ⟨0, _⟩ => show (((b.val * 5 + k.val) * 1000 + t.val) * 96 + f.val) / 480000 = b.val; omega
  | ⟨1, _⟩ => show (((b.val * 5 + k.val) * 1000 + t.val) * 96 + f.val) / 96000 % 5 = k.val; omega
  | ⟨2, _⟩ => show (((b.val * 5 + k.val) * 1000 + t.val) * 96 + f.val) / 96 % 1000 = t.val; omega
  | ⟨3, _⟩ => show (((b.val * 5 + k.val) * 1000 + t.val) * 96 + f.val) / 1 % 96 = f.val; omega
  | ⟨4, _⟩ => rfl

theorem i15 (b : Fin 32) (k : Fin 5) (t : Fin 1000) (f : Fin 96) : idx_main_v15 (ix5 b k t f (0 : Fin 1)) = ix5 b k t f (0 : Fin 2) := by
  funext a
  refine Fin.ext ?_
  match a with
  | ⟨0, _⟩ => rfl
  | ⟨1, _⟩ => rfl
  | ⟨2, _⟩ => rfl
  | ⟨3, _⟩ => rfl
  | ⟨4, _⟩ => rfl

theorem i17 (b : Fin 32) (k : Fin 5) (t : Fin 1000) (f : Fin 96) : idx_main_v17 (ix5 b k t f (0 : Fin 1)) = ix5 b k t f (0 : Fin 2) := by
  funext a
  refine Fin.ext ?_
  match a with
  | ⟨0, _⟩ => rfl
  | ⟨1, _⟩ => rfl
  | ⟨2, _⟩ => rfl
  | ⟨3, _⟩ => rfl
  | ⟨4, _⟩ => rfl

theorem i20 (b : Fin 32) (k : Fin 5) (t : Fin 1000) (f : Fin 96) : idx_main_v20 (ix5 b k t f (0 : Fin 1)) = ix5 b k t f (1 : Fin 2) := by
  funext a
  refine Fin.ext ?_
  match a with
  | ⟨0, _⟩ => rfl
  | ⟨1, _⟩ => rfl
  | ⟨2, _⟩ => rfl
  | ⟨3, _⟩ => rfl
  | ⟨4, _⟩ => rfl

theorem i22 (b : Fin 32) (k : Fin 5) (t : Fin 1000) (f : Fin 96) : idx_main_v22 (ix5 b k t f (0 : Fin 1)) = ix5 b k t f (1 : Fin 2) := by
  funext a
  refine Fin.ext ?_
  match a with
  | ⟨0, _⟩ => rfl
  | ⟨1, _⟩ => rfl
  | ⟨2, _⟩ => rfl
  | ⟨3, _⟩ => rfl
  | ⟨4, _⟩ => rfl

theorem i27 (b : Fin 32) (k : Fin 5) (t : Fin 1000) (f : Fin 96) : idx_main_v27 (ix5 b k t f (0 : Fin 1)) = ix5 b k t f (1 : Fin 2) := by
  funext a
  refine Fin.ext ?_
  match a with
  | ⟨0, _⟩ => rfl
  | ⟨1, _⟩ => rfl
  | ⟨2, _⟩ => rfl
  | ⟨3, _⟩ => rfl
  | ⟨4, _⟩ => rfl

theorem i29 (b : Fin 32) (k : Fin 5) (t : Fin 1000) (f : Fin 96) : idx_main_v29 (ix5 b k t f (0 : Fin 1)) = ix5 b k t f (0 : Fin 2) := by
  funext a
  refine Fin.ext ?_
  match a with
  | ⟨0, _⟩ => rfl
  | ⟨1, _⟩ => rfl
  | ⟨2, _⟩ => rfl
  | ⟨3, _⟩ => rfl
  | ⟨4, _⟩ => rfl

theorem i32 (b : Fin 32) (k : Fin 5) (t : Fin 1000) (f : Fin 96) : idx_main_v32 (ix5 b k t f (0 : Fin 1)) = ix5 b k t f (0 : Fin 2) := by
  funext a
  refine Fin.ext ?_
  match a with
  | ⟨0, _⟩ => rfl
  | ⟨1, _⟩ => rfl
  | ⟨2, _⟩ => rfl
  | ⟨3, _⟩ => rfl
  | ⟨4, _⟩ => rfl

theorem i34 (b : Fin 32) (k : Fin 5) (t : Fin 1000) (f : Fin 96) : idx_main_v34 (ix5 b k t f (0 : Fin 1)) = ix5 b k t f (1 : Fin 2) := by
  funext a
  refine Fin.ext ?_
  match a with
  | ⟨0, _⟩ => rfl
  | ⟨1, _⟩ => rfl
  | ⟨2, _⟩ => rfl
  | ⟨3, _⟩ => rfl
  | ⟨4, _⟩ => rfl

/-! ## The transpose of the coefficients, the reductions over the taps, the broadcasts -/

theorem i14 (b : Fin 32) (k : Fin 5) (t : Fin 1000) (f : Fin 96) (ri : Fin 2) :
    idx_main_v14 (ix5 b k t f ri) = ix5 b t k f ri := by
  funext a
  refine Fin.ext ?_
  match a with
  | ⟨0, _⟩ => rfl
  | ⟨1, _⟩ => rfl
  | ⟨2, _⟩ => rfl
  | ⟨3, _⟩ => rfl
  | ⟨4, _⟩ => rfl

theorem i26 (b : Fin 32) (t : Fin 1000) (f : Fin 96) (k : Fin 5) :
    idx_main_v26 (ix3 b t f) k = ix4 b k t f := by
  funext a
  refine Fin.ext ?_
  match a with
  | ⟨0, _⟩ => rfl
  | ⟨1, _⟩ => rfl
  | ⟨2, _⟩ => rfl
  | ⟨3, _⟩ => rfl

theorem i38 (b : Fin 32) (t : Fin 1000) (f : Fin 96) (k : Fin 5) :
    idx_main_v38 (ix3 b t f) k = ix4 b k t f := by
  funext a
  refine Fin.ext ?_
  match a with
  | ⟨0, _⟩ => rfl
  | ⟨1, _⟩ => rfl
  | ⟨2, _⟩ => rfl
  | ⟨3, _⟩ => rfl

theorem i39 (b : Fin 32) (t : Fin 1000) (f : Fin 96) :
    idx_main_v39 (ix4 b t f (0 : Fin 1)) = ix3 b t f := by
  funext a
  refine Fin.ext ?_
  match a with
  | ⟨0, _⟩ => rfl
  | ⟨1, _⟩ => rfl
  | ⟨2, _⟩ => rfl

theorem i40 (b : Fin 32) (t : Fin 1000) (f : Fin 96) :
    idx_main_v40 (ix4 b t f (0 : Fin 1)) = ix3 b t f := by
  funext a
  refine Fin.ext ?_
  match a with
  | ⟨0, _⟩ => rfl
  | ⟨1, _⟩ => rfl
  | ⟨2, _⟩ => rfl

theorem i42 (b : Fin 32) (z : Fin 1) (t : Fin 1000) (f : Fin 96) (ri : Fin 2) :
    idx_main_v42 (ix5 b z t f ri) = ix4 b t f ri := by
  funext a
  refine Fin.ext ?_
  match a with
  | ⟨0, _⟩ => rfl
  | ⟨1, _⟩ => rfl
  | ⟨2, _⟩ => rfl
  | ⟨3, _⟩ => rfl

/-! ## The weight: [32, 1000, 1] seen as [32, 1, 1000, 1, 1] and spread over bins and components -/

theorem i44 (b : Fin 32) (z : Fin 1) (t : Fin 1000) (f : Fin 96) (ri : Fin 2) :
    idx_main_v44 (ix5 b z t f ri) = ix5 b (0 : Fin 1) t (0 : Fin 1) (0 : Fin 1) := by
  funext a
  refine Fin.ext ?_
  match a with
  | ⟨0, _⟩ => rfl
  | ⟨1, _⟩ => rfl
  | ⟨2, _⟩ => rfl
  | ⟨3, _⟩ => rfl
  | ⟨4, _⟩ => rfl

theorem i49 (b : Fin 32) (z : Fin 1) (t : Fin 1000) (f : Fin 96) (ri : Fin 2) :
    idx_main_v49 (ix5 b z t f ri) = ix5 b (0 : Fin 1) t (0 : Fin 1) (0 : Fin 1) := by
  funext a
  refine Fin.ext ?_
  match a with
  | ⟨0, _⟩ => rfl
  | ⟨1, _⟩ => rfl
  | ⟨2, _⟩ => rfl
  | ⟨3, _⟩ => rfl
  | ⟨4, _⟩ => rfl

theorem i43 (b : Fin 32) (t : Fin 1000) :
    idx_main_v43 (ix5 b (0 : Fin 1) t (0 : Fin 1) (0 : Fin 1)) = ix3 b t (0 : Fin 1) := by
  have hb := b.isLt; have ht := t.isLt
  funext a
  refine Fin.ext ?_
  match a with
  | ⟨0, _⟩ => show ((((b.val * 1 + 0) * 1000 + t.val) * 1 + 0) * 1 + 0) / 1000 = b.val; omega
  | ⟨1, _⟩ => show ((((b.val * 1 + 0) * 1000 + t.val) * 1 + 0) * 1 + 0) / 1 % 1000 = t.val; omega
  | ⟨2, _⟩ => rfl

/-- The spectrum's first 96 bins: bin `f < 96` of the slice is bin `f` of the spectrum. -/
theorem i46 (b : Fin 32) (z : Fin 1) (t : Fin 1000) (f : Fin 481) (h : f.val < 96) (ri : Fin 2) :
    idx_main_v46 (ix5 b z t (⟨f.val, h⟩ : Fin 96) ri) = ix5 b z t f ri := by
  funext a
  refine Fin.ext ?_
  match a with
  | ⟨0, _⟩ => rfl
  | ⟨1, _⟩ => rfl
  | ⟨2, _⟩ => rfl
  | ⟨3, _⟩ => rfl
  | ⟨4, _⟩ => rfl

end Cert.DeepFilter.Ref

end
-- ==== Proof.RefValue.lean ====
import proofs.«155813_j30185030156317_1_alg».proof.Proof.RefRead
import proofs.«155813_j30185030156317_1_alg».proof.Proof.Spec
import proofs.«155813_j30185030156317_1_alg».proof.Proof.RefScatter
import proofs.«155813_j30185030156317_1_alg».proof.Proof.RefIdx

/-!
The reference computes the deep-filtering step `G` of its arguments and of its own stack of shifted windows.

Read at one element the reference is, stage by stage: the real and imaginary parts of the stacked windows and of the
transposed coefficients (slices of the last axis), their four products, the difference and the sum that are the real and
imaginary part of the complex product, the two sums over the five taps (an accumulation onto the float zero), the two
sums joined along a last axis of extent two, the blend with the weight, and the write-back over the first 96 bins. The
stack of shifted windows is never opened: every stage above it reads it at one index.
-/

noncomputable section

namespace Cert.DeepFilter.Ref

open Idealize.ShloMosaic Idealize.ShloMosaic.ValueIdx Cert.ReferenceIdeal Cert.ReferenceIdeal.ReadP
  Cert.ReferenceIdeal.Gen Cert.DeepFilter

variable (x0 : (⟨S32x1x1000x481x2, .f32⟩ : BufTy).Contents (Elt Ideal)) (x1 : (⟨S32x1000x5x96x2, .f32⟩ : BufTy).Contents (Elt Ideal)) (x2 : (⟨S32x1000x1, .f32⟩ : BufTy).Contents (Elt Ideal))

/-! ## The parts of the windows and of the coefficients -/

/-- Real part of the window stack (first factor of the real-part product). -/
theorem v16_at (b : Fin 32) (k : Fin 5) (t : Fin 1000) (f : Fin 96) :
    val_main_v16 (F := Ideal) x0 (ix4 b k t f) = val_main_v13 (F := Ideal) x0 (ix5 b k t f 0) := by
  rw [val_main_v16_apply, i16, val_main_v15_apply, i15]

/-- Imaginary part of the window stack (first factor of the second real-part product). -/
theorem v21_at (b : Fin 32) (k : Fin 5) (t : Fin 1000) (f : Fin 96) :
    val_main_v21 (F := Ideal) x0 (ix4 b k t f) = val_main_v13 (F := Ideal) x0 (ix5 b k t f 1) := by
  rw [val_main_v21_apply, i21, val_main_v20_apply, i20]

/-- Imaginary part of the window stack (first factor of the first imaginary-part product). -/
theorem v28_at (b : Fin 32) (k : Fin 5) (t : Fin 1000) (f : Fin 96) :
    val_main_v28 (F := Ideal) x0 (ix4 b k t f) = val_main_v13 (F := Ideal) x0 (ix5 b k t f 1) := by
  rw [val_main_v28_apply, i28, val_main_v27_apply, i27]

/-- Real part of the window stack (first factor of the second imaginary-part product). -/
theorem v33_at (b : Fin 32) (k : Fin 5) (t : Fin 1000) (f : Fin 96) :
    val_main_v33 (F := Ideal) x0 (ix4 b k t f) = val_main_v13 (F := Ideal) x0 (ix5 b k t f 0) := by
  rw [val_main_v33_apply, i33, val_main_v32_apply, i32]

/-- Real part of the coefficients, tap and time swapped back. -/
theorem v18_at (b : Fin 32) (k : Fin 5) (t : Fin 1000) (f : Fin 96) :
    val_main_v18 (F := Ideal) x1 (ix4 b k t f) = x1 (ix5 b t k f 0) := by
  rw [val_main_v18_apply, i18, val_main_v17_apply, i17, val_main_v14_apply, i14]

/-- Imaginary part of the coefficients. -/
theorem v23_at (b : Fin 32) (k : Fin 5) (t : Fin 1000) (f : Fin 96) :
    val_main_v23 (F := Ideal) x1 (ix4 b k t f) = x1 (ix5 b t k f 1) := by
  rw [val_main_v23_apply, i23, val_main_v22_apply, i22, val_main_v14_apply, i14]

/-- Real part of the coefficients (second reading). -/
theorem v30_at (b : Fin 32) (k : Fin 5) (t : Fin 1000) (f : Fin 96) :
    val_main_v30 (F := Ideal) x1 (ix4 b k t f) = x1 (ix5 b t k f 0) := by
  rw [val_main_v30_apply, i30, val_main_v29_apply, i29, val_main_v14_apply, i14]

/-- Imaginary part of the coefficients (second reading). -/
theorem v35_at (b : Fin 32) (k : Fin 5) (t : Fin 1000) (f : Fin 96) :
    val_main_v35 (F := Ideal) x1 (ix4 b k t f) = x1 (ix5 b t k f 1) := by
  rw [val_main_v35_apply, i35, val_main_v34_apply, i34, val_main_v14_apply, i14]

/-! ## One tap's complex product -/

/-- The real part of tap `k`'s product. -/
theorem v25_at (b : Fin 32) (k : Fin 5) (t : Fin 1000) (f : Fin 96) :
    val_main_v25 (F := Ideal) x0 x1 (ix4 b k t f)
      = reTap (val_main_v13 (F := Ideal) x0) x1 b t f k := by
  rw [val_main_v25_apply, val_main_v19_apply, val_main_v24_apply, v16_at, v18_at, v21_at, v23_at]
  rfl

/-- The imaginary part of tap `k`'s product. -/
theorem v37_at (b : Fin 32) (k : Fin 5) (t : Fin 1000) (f : Fin 96) :
    val_main_v37 (F := Ideal) x0 x1 (ix4 b k t f)
      = imTap (val_main_v13 (F := Ideal) x0) x1 b t f k := by
  rw [val_main_v37_apply, val_main_v31_apply, val_main_v36_apply, v28_at, v30_at, v33_at, v35_at]
  rfl

/-! ## The sums over the five taps -/

theorem v26_at (b : Fin 32) (t : Fin 1000) (f : Fin 96) :
    val_main_v26 (F := Ideal) x0 x1 (ix3 b t f)
      = ∑ k : Fin 5, reTap (val_main_v13 (F := Ideal) x0) x1 b t f k := by
  rw [val_main_v26_apply, val_main_cst_apply, Ideal.ofBits_def, Ideal.ofBits_zero_f32, zero_add]
  refine Finset.sum_congr rfl (fun k _ => ?_)
  rw [i26]
  exact v25_at x0 x1 b k t f

theorem v38_at (b : Fin 32) (t : Fin 1000) (f : Fin 96) :
    val_main_v38 (F := Ideal) x0 x1 (ix3 b t f)
      = ∑ k : Fin 5, imTap (val_main_v13 (F := Ideal) x0) x1 b t f k := by
  rw [val_main_v38_apply, val_main_cst_20_apply, Ideal.ofBits_def, Ideal.ofBits_zero_f32, zero_add]
  refine Finset.sum_congr rfl (fun k _ => ?_)
  rw [i38]
  exact v37_at x0 x1 b k t f

/-! ## Real and imaginary part joined along the last axis -/

/-- Component 0 of the joined array is the real sum. -/
theorem v41_re (b : Fin 32) (t : Fin 1000) (f : Fin 96) :
    val_main_v41 (F := Ideal) x0 x1 (ix4 b t f (0 : Fin 2))
      = ∑ k : Fin 5, reTap (val_main_v13 (F := Ideal) x0) x1 b t f k := by
  unfold val_main_v41
  refine (concatenate_pair_apply_left (t := S32x1000x96x2) (s₁ := S32x1000x96x1) (s₂ := S32x1000x96x1) 3
    (val_main_v39 (F := Ideal) x0 x1) (val_main_v40 (F := Ideal) x0 x1)
    concatenates_S32x1000x96x1_S32x1000x96x1_S32x1000x96x2_d3 (ix4 b t f (0 : Fin 2)) rfl
    (ix4 b t f (0 : Fin 1)) (fun c => match c with
      | ⟨0, _⟩ => rfl
      | ⟨1, _⟩ => rfl
      | ⟨2, _⟩ => rfl
      | ⟨3, _⟩ => rfl)).trans ?_
  rw [val_main_v39_apply, i39]
  exact v26_at x0 x1 b t f

/-- Component 1 of the joined array is the imaginary sum. -/
theorem v41_im (b : Fin 32) (t : Fin 1000) (f : Fin 96) :
    val_main_v41 (F := Ideal) x0 x1 (ix4 b t f (1 : Fin 2))
      = ∑ k : Fin 5, imTap (val_main_v13 (F := Ideal) x0) x1 b t f k := by
  unfold val_main_v41
  refine (concatenate_pair_apply_right (t := S32x1000x96x2) (s₁ := S32x1000x96x1) (s₂ := S32x1000x96x1) 3
    (val_main_v39 (F := Ideal) x0 x1) (val_main_v40 (F := Ideal) x0 x1)
    concatenates_S32x1000x96x1_S32x1000x96x1_S32x1000x96x2_d3 (ix4 b t f (1 : Fin 2)) rfl rfl
    (ix4 b t f (0 : Fin 1)) (fun c hc => match c, hc with
      | ⟨0, _⟩, _ => rfl
      | ⟨1, _⟩, _ => rfl
      | ⟨2, _⟩, _ => rfl
      | ⟨3, _⟩, hc => absurd rfl hc) rfl).trans ?_
  rw [val_main_v40_apply, i40]
  exact v38_at x0 x1 b t f

/-- The joined array is the filtered value. -/
theorem v41_at (b : Fin 32) (t : Fin 1000) (f : Fin 96) (ri : Fin 2) :
    val_main_v41 (F := Ideal) x0 x1 (ix4 b t f ri) = filt (val_main_v13 (F := Ideal) x0) x1 b t f ri := by
  revert ri
  refine Fin.forall_fin_two.2 ⟨?_, ?_⟩
  · rw [v41_re]; rfl
  · rw [v41_im]; rfl

/-! ## The blend -/

/-- The weight spread over bins and components. -/
theorem v44_at (b : Fin 32) (z : Fin 1) (t : Fin 1000) (f : Fin 96) (ri : Fin 2) :
    val_main_v44 (F := Ideal) x2 (ix5 b z t f ri) = x2 (ix3 b t (0 : Fin 1)) := by
  rw [val_main_v44_apply, i44, val_main_v43_apply, i43]

/-- One minus the weight, spread over bins and components. -/
theorem v49_at (b : Fin 32) (z : Fin 1) (t : Fin 1000) (f : Fin 96) (ri : Fin 2) :
    val_main_v49 (F := Ideal) x2 (ix5 b z t f ri) = one - x2 (ix3 b t (0 : Fin 1)) := by
  rw [val_main_v49_apply, i49, val_main_v48_apply, val_main_v47_apply, val_main_cst_21_apply, val_main_v43_apply, i43]
  rfl

/-- The blended value at a bin below 96. -/
theorem v51_at (b : Fin 32) (z : Fin 1) (t : Fin 1000) (f : Fin 481) (h : f.val < 96) (ri : Fin 2) :
    val_main_v51 (F := Ideal) x0 x1 x2 (ix5 b z t (⟨f.val, h⟩ : Fin 96) ri)
      = filt (val_main_v13 (F := Ideal) x0) x1 b t ⟨f.val, h⟩ ri * x2 (ix3 b t (0 : Fin 1))
        + x0 (ix5 b z t f ri) * (one - x2 (ix3 b t (0 : Fin 1))) := by
  rw [val_main_v51_apply, val_main_v45_apply, val_main_v50_apply, val_main_v42_apply, i42, v41_at, v44_at,
    val_main_v46_apply, i46, v49_at]
  rfl

/-! ## The write-back -/

/-- The one scatter index is the word 0. -/
theorem v52_zero : ((val_main_v52 (F := Ideal)) (ix1 (0 : Fin 1))).toInt = 0 := by
  rw [val_main_v52_apply, val_main_c_22_apply]
  rfl

/-- THE REFERENCE'S RESULT is `G` of its arguments and of its own stack of shifted windows. -/
theorem ref_eq (x0 : (⟨S32x1x1000x481x2, .f32⟩ : BufTy).Contents (Elt Ideal))
    (x1 : (⟨S32x1000x5x96x2, .f32⟩ : BufTy).Contents (Elt Ideal))
    (x2 : (⟨S32x1000x1, .f32⟩ : BufTy).Contents (Elt Ideal)) :
    val_main_v53 (F := Ideal) x0 x1 x2 = G x0 (val_main_v13 (F := Ideal) x0) x1 x2 := by
  funext j
  obtain ⟨b, z, t, f, ri, rfl⟩ : ∃ (b : Fin 32) (z : Fin 1) (t : Fin 1000) (f : Fin 481) (ri : Fin 2),
      j = ix5 b z t f ri := ⟨j 0, j 1, j 2, j 3, j 4, eq_ix5 j⟩
  rw [G_ix5]
  unfold Gat val_main_v53
  refine (scatter_set_apply x0 (val_main_v52 (F := Ideal)) (val_main_v51 (F := Ideal) x0 x1 x2) v52_zero
    b z t f ri).trans ?_
  by_cases h : f.val < 96
  · rw [dif_pos h, dif_pos h]
    exact v51_at x0 x1 x2 b z t f h ri
  · rw [dif_neg h, dif_neg h]

end Cert.DeepFilter.Ref

end
-- ==== Proof.lean ====
/-
  Deep filtering: a five-tap complex filter over time on the first 96 frequency bins of a spectrum, blended with the
  unfiltered spectrum by a per-frame weight, the remaining bins kept.

  For the spectrum x [32, 1, 1000, 481, 2], coefficients c [32, 1000, 5, 96, 2] and weight a [32, 1000, 1], with
  w [32, 5, 1000, 96, 2] the five windows of the zero-padded first 96 bins that start at frames t − 2 … t + 2, both
  programs compute, for a bin f < 96,
      out(b, 0, t, f, ·) = (∑ over the taps i of w(b, i, t, f) · c(b, t, i, f), as complex numbers) · a(b, t)
                           + x(b, 0, t, f, ·) · (1 − a(b, t)),
  and out = x on bins f ≥ 96. The kernel program builds w on the host, then runs one region over a 32 × 100 grid whose
  body adds the five taps one after the other onto zero, blends, and stores the three pieces of the result's block; the
  reference sums the taps in one reduction and writes the blend into the spectrum by a scatter. On the extended reals the
  two results are the same function of the arguments: adding five terms onto zero in order is their sum, and the two
  programs' stacked windows are the same array (a slice at a constant in-range start is the static slice). No law is
  used that needs finite inputs, so the precondition is never opened.

  The frames: the kernel's region reads its four input windows and writes only its result window, so the run ends with
  the argument arrays as launched, at the word level and on the extended reals alike; the reference is host operations
  only. The idealization rewrote no operation, so there is nothing to preserve.
-/
import proofs.«155813_j30185030156317_1_alg».proof.Defs
import proofs.«155813_j30185030156317_1_alg».proof.Proof.Gen.Kernel
import proofs.«155813_j30185030156317_1_alg».proof.Proof.Gen.KernelIdeal
import proofs.«155813_j30185030156317_1_alg».proof.Proof.Gen.ReferenceIdeal
import proofs.«155813_j30185030156317_1_alg».proof.Proof.Gen.Pre_finite_inputs
import proofs.«155813_j30185030156317_1_alg».proof.Proof.RefRun
import proofs.«155813_j30185030156317_1_alg».proof.Proof.RefRead
import proofs.«155813_j30185030156317_1_alg».proof.Proof.FrameRunK
import proofs.«155813_j30185030156317_1_alg».proof.Proof.FrameRunKI
import proofs.«155813_j30185030156317_1_alg».proof.Proof.KernelRun
import proofs.«155813_j30185030156317_1_alg».proof.Proof.Bridge
import proofs.«155813_j30185030156317_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_k : @Cert.frame_Kernel Cert.Kernel.Gen.facts Cert.Pre_finite_inputs.Gen.facts :=
  fun m ρ _ => Cert.Kernel.Fr.frame m ρ

/-- So does the idealized kernel program. -/
theorem frame_ki : @Cert.frame_KernelIdeal Cert.KernelIdeal.Gen.facts Cert.Pre_finite_inputs.Gen.facts :=
  fun m ρ _ => Cert.KernelIdeal.Fr.frame m ρ

/-- The reference is host operations only: its run, with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.ValueP.run (F := Ideal) m ρ)

/-- Both idealized programs end with the specification of the arguments: the kernel's result array by its run, the
    reference's by its run read stage by stage; the stacked windows the specification is read at are one array. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Val.Gm m c, Cert.KernelIdeal.Val.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v53_eq, Cert.DeepFilter.Ref.ref_eq, (hagree c).1, (hagree c).2.1, (hagree c).2.2,
    Cert.DeepFilter.Bridge.stack_eq]
  show Cert.DeepFilter.G _ _ _ _
    = Cert.DeepFilter.G _ (Cert.KernelIdeal.Fr.V m c Cert.KernelIdeal.main_v13) _ _
  rw [Cert.KernelIdeal.Val.V13_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
